-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000 : Shape := ⟨1, ![20000]⟩
abbrev S2x320000 : Shape := ⟨2, ![2, 320000]⟩
abbrev S100x256 : Shape := ⟨2, ![100, 256]⟩
abbrev S3x256x256 : Shape := ⟨3, ![3, 256, 256]⟩
abbrev S3x256 : Shape := ⟨2, ![3, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S100x256 : S_.BroadcastsInDim S100x256 (![] : Fin 0 → Fin S100x256.rank)
  reducesTo_S100x256_S_d0_1 : S100x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S20000 : S_.BroadcastsInDim S20000 (![] : Fin 0 → Fin S20000.rank)
  reducesTo_S20000_S_d0 : S20000.ReducesTo [0] S_

variable [Facts]

def fn_part2 {F : FTy → Type} [FloatOps F] (main_arg0 : IVec S20000 32) (main_v33 : IVec S_ 1) : IVec S_ 1 :=
  let main_c_12 : IVec S_ 32 := constantI S_ 32 0#32
  let main_v34 : IVec S20000 32 := broadcastInDim S20000 ![] bcast_S_S20000 main_c_12
  let main_v35 : IVec S20000 1 := cmpi .sge main_arg0 main_v34
  let main_c_13 : IVec S_ 1 := constantI S_ 1 1#1
  let main_v36 : IVec S_ 1 := (fun x v => Host.reduce IntOp.andi x v reducesTo_S20000_S_d0 h_S_) main_v35 main_c_13
  let main_v37 : IVec S_ 1 := andi main_v33 main_v36
  let main_c_14 : IVec S_ 32 := constantI S_ 32 100#32
  let main_v38 : IVec S20000 32 := broadcastInDim S20000 ![] bcast_S_S20000 main_c_14
  let main_v39 : IVec S20000 1 := cmpi .slt main_arg0 main_v38
  let main_c_15 : IVec S_ 1 := constantI S_ 1 1#1
  let main_v40 : IVec S_ 1 := (fun x v => Host.reduce IntOp.andi x v reducesTo_S20000_S_d0 h_S_) main_v39 main_c_15
  let main_v41 : IVec S_ 1 := andi main_v37 main_v40
  main_v41

def fn_part1 {F : FTy → Type} [FloatOps F] (main_arg0 : IVec S20000 32) (main_arg7 : FVec F S256 .f32) (main_arg8 : FVec F S256x1 .f32) (main_arg9 : FVec F S1 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg7
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x1 .f32 := Host.absf main_arg8
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg0 main_v33

def fn {F : FTy → Type} [FloatOps F] (main_arg0 : IVec S20000 32) (main_arg1 : IVec S2x320000 32) (main_arg2 : IVec S20000 32) (main_arg3 : FVec F S100x256 .f32) (main_arg4 : FVec F S3x256x256 .f32) (main_arg5 : FVec F S3x256 .f32) (main_arg6 : FVec F S256x256 .f32) (main_arg7 : FVec F S256 .f32) (main_arg8 : FVec F S256x1 .f32) (main_arg9 : FVec F S1 .f32) : IVec S_ 1 :=
  let main_v0 : FVec F S100x256 .f32 := Host.absf main_arg3
  let main_cst : FVec F S_ .f32 := constant S_ .f32 0x7F800000#32
  let main_v1 : FVec F S100x256 .f32 := broadcastInDim S100x256 ![] bcast_S_S100x256 main_cst
  let main_v2 : IVec S100x256 1 := cmpf .olt main_v0 main_v1
  let main_c : IVec S_ 1 := constantI S_ 1 1#1
  let main_v3 : IVec S_ 1 := (fun x v => Host.reduce IntOp.andi x v reducesTo_S100x256_S_d0_1 h_S_) main_v2 main_c
  let main_v4 : FVec F S3x256x256 .f32 := Host.absf main_arg4
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg5
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S256x256 .f32 := Host.absf main_arg6
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg0 main_arg7 main_arg8 main_arg9 main_v13 main_v16
-- ==== Kernel.lean ====
abbrev S20000 : Shape := ⟨1, ![20000]⟩
abbrev S2x320000 : Shape := ⟨2, ![2, 320000]⟩
abbrev S100x256 : Shape := ⟨2, ![100, 256]⟩
abbrev S3x256x256 : Shape := ⟨3, ![3, 256, 256]⟩
abbrev S3x256 : Shape := ⟨2, ![3, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S20000x1 : Shape := ⟨2, ![20000, 1]⟩
abbrev S20000x256 : Shape := ⟨2, ![20000, 256]⟩
abbrev S2000x1 : Shape := ⟨2, ![2000, 1]⟩
abbrev S2000x256 : Shape := ⟨2, ![2000, 256]⟩
abbrev S2000x100 : Shape := ⟨2, ![2000, 100]⟩
abbrev S1x256 : Shape := ⟨2, ![1, 256]⟩
abbrev S1x256x256 : Shape := ⟨3, ![1, 256, 256]⟩
abbrev S320000x256 : Shape := ⟨2, ![320000, 256]⟩
abbrev S1x1 : Shape := ⟨2, ![1, 1]⟩
abbrev S512 : Shape := ⟨1, ![512]⟩

abbrev nBuf : Space → Nat
  | .hbm => 127
  | .vmem => 56
  | .smem => 0
  | _ => 0

abbrev bufTy : (tb : Table) → Fin (tcTables nBuf tb) → BufTy
  | .hbm, ⟨0, _⟩ => ⟨S20000, .i32⟩
  | .hbm, ⟨1, _⟩ => ⟨S2x320000, .i32⟩
  | .hbm, ⟨2, _⟩ => ⟨S20000, .i32⟩
  | .hbm, ⟨3, _⟩ => ⟨S100x256, .f32⟩
  | .hbm, ⟨4, _⟩ => ⟨S3x256x256, .f32⟩
  | .hbm, ⟨5, _⟩ => ⟨S3x256, .f32⟩
  | .hbm, ⟨6, _⟩ => ⟨S256x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .f32⟩
  | .hbm, ⟨15, _⟩ => ⟨S320000, .f32⟩
  | .hbm, ⟨16, _⟩ => ⟨S_, .f32⟩
  | .hbm, ⟨17, _⟩ => ⟨S20000, .f32⟩
  | .hbm, ⟨18, _⟩ => ⟨S320000x1, .i32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .f32⟩
  | .hbm, ⟨23, _⟩ => ⟨S20000, .f32⟩
  | .hbm, ⟨24, _⟩ => ⟨S_, .i32⟩
  | .hbm, ⟨25, _⟩ => ⟨S320000, .i32⟩
  | .hbm, ⟨26, _⟩ => ⟨S320000, .i1⟩
  | .hbm, ⟨27, _⟩ => ⟨S_, .i32⟩
  | .hbm, ⟨28, _⟩ => ⟨S320000, .i32⟩
  | .hbm, ⟨29, _⟩ => ⟨S320000, .i32⟩
  | .hbm, ⟨30, _⟩ => ⟨S320000, .i32⟩
  | .hbm, ⟨31, _⟩ => ⟨S320000x1, .i32⟩
  | .hbm, ⟨32, _⟩ => ⟨S320000, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000, .f32⟩
  | .hbm, ⟨42, _⟩ => ⟨S320000, .f32⟩
  | .hbm, ⟨43, _⟩ => ⟨S320000x1, .f32⟩
  | .hbm, ⟨44, _⟩ => ⟨S20000, .f32⟩
  | .hbm, ⟨45, _⟩ => ⟨S20000x1, .f32⟩
  | .hbm, ⟨46, _⟩ => ⟨S20000x1, .i32⟩
  | .hbm, ⟨47, _⟩ => ⟨S20000x256, .f32⟩
  | .hbm, ⟨48, _⟩ => ⟨S_, .f32⟩
  | .hbm, ⟨49, _⟩ => ⟨S1x256, .f32⟩
  | .hbm, ⟨50, _⟩ => ⟨S1x256x256, .f32⟩
  | .hbm, ⟨51, _⟩ => ⟨S256x256, .f32⟩
  | .hbm, ⟨52, _⟩ => ⟨S20000x256, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S320000x256, .f32⟩
  | .hbm, ⟨62, _⟩ => ⟨S320000x256, .f32⟩
  | .hbm, ⟨63, _⟩ => ⟨S320000x256, .f32⟩
  | .hbm, ⟨64, _⟩ => ⟨S_, .f32⟩
  | .hbm, ⟨65, _⟩ => ⟨S20000x256, .f32⟩
  | .hbm, ⟨66, _⟩ => ⟨S320000x1, .i32⟩
  | .hbm, ⟨67, _⟩ => ⟨S20000x256, .f32⟩
  | .hbm, ⟨68, _⟩ => ⟨S1x256, .f32⟩
  | .hbm, ⟨69, _⟩ => ⟨S256, .f32⟩
  | .hbm, ⟨70, _⟩ => ⟨S1x256, .f32⟩
  | .hbm, ⟨71, _⟩ => ⟨S20000x256, .f32⟩
  | .hbm, ⟨72, _⟩ => ⟨S1x256x256, .f32⟩
  | .hbm, ⟨73, _⟩ => ⟨S256x256, .f32⟩
  | .hbm, ⟨74, _⟩ => ⟨S20000x256, .f32⟩
  | .hbm, ⟨75, _⟩ => ⟨S_, .i32⟩
  | .hbm, ⟨76, _⟩ => ⟨S320000, .i32⟩
  | .hbm, ⟨77, _⟩ => ⟨S320000, .i1⟩
  | .hbm, ⟨78, _⟩ => ⟨S_, .i32⟩
  | .hbm, ⟨79, _⟩ => ⟨S320000, .i32⟩
  | .hbm, ⟨80, _⟩ => ⟨S320000, .i32⟩
  | .hbm, ⟨81, _⟩ => ⟨S320000, .i32⟩
  | .hbm, ⟨82, _⟩ => ⟨S320000x1, .i32⟩
  | .hbm, ⟨83, _⟩ => ⟨S320000x256, .f32⟩
  | .hbm, ⟨84, _⟩ => ⟨S320000x256, .f32⟩
  | .hbm, ⟨85, _⟩ => ⟨S320000x256, .f32⟩
  | .hbm, ⟨86, _⟩ => ⟨S_, .f32⟩
  | .hbm, ⟨87, _⟩ => ⟨S20000x256, .f32⟩
  | .hbm, ⟨88, _⟩ => ⟨S320000x1, .i32⟩
  | .hbm, ⟨89, _⟩ => ⟨S20000x256, .f32⟩
  | .hbm, ⟨90, _⟩ => ⟨S1x256, .f32⟩
  | .hbm, ⟨91, _⟩ => ⟨S256, .f32⟩
  | .hbm, ⟨92, _⟩ => ⟨S1x256, .f32⟩
  | .hbm, ⟨93, _⟩ => ⟨S20000x256, .f32⟩
  | .hbm, ⟨94, _⟩ => ⟨S1x256x256, .f32⟩
  | .hbm, ⟨95, _⟩ => ⟨S256x256, .f32⟩
  | .hbm, ⟨96, _⟩ => ⟨S20000x256, .f32⟩
  | .hbm, ⟨97, _⟩ => ⟨S_, .i32⟩
  | .hbm, ⟨98, _⟩ => ⟨S320000, .i32⟩
  | .hbm, ⟨99, _⟩ => ⟨S320000, .i1⟩
  | .hbm, ⟨100, _⟩ => ⟨S_, .i32⟩
  | .hbm, ⟨101, _⟩ => ⟨S320000, .i32⟩
  | .hbm, ⟨102, _⟩ => ⟨S320000, .i32⟩
  | .hbm, ⟨103, _⟩ => ⟨S320000, .i32⟩
  | .hbm, ⟨104, _⟩ => ⟨S320000x1, .i32⟩
  | .hbm, ⟨105, _⟩ => ⟨S320000x256, .f32⟩
  | .hbm, ⟨106, _⟩ => ⟨S320000x256, .f32⟩
  | .hbm, ⟨107, _⟩ => ⟨S320000x256, .f32⟩
  | .hbm, ⟨108, _⟩ => ⟨S_, .f32⟩
  | .hbm, ⟨109, _⟩ => ⟨S20000x256, .f32⟩
  | .hbm, ⟨110, _⟩ => ⟨S320000x1, .i32⟩
  | .hbm, ⟨111, _⟩ => ⟨S20000x256, .f32⟩
  | .hbm, ⟨112, _⟩ => ⟨S1x256, .f32⟩
  | .hbm, ⟨113, _⟩ => ⟨S256, .f32⟩
  | .hbm, ⟨114, _⟩ => ⟨S1x256, .f32⟩
  | .hbm, ⟨115, _⟩ => ⟨S20000x256, .f32⟩
  | .hbm, ⟨116, _⟩ => ⟨S1x256, .f32⟩
  | .hbm, ⟨117, _⟩ => ⟨S20000x256, .f32⟩
  | .hbm, ⟨118, _⟩ => ⟨S20000x1, .f32⟩
  | .hbm, ⟨119, _⟩ => ⟨S1x1, .f32⟩
  | .hbm, ⟨120, _⟩ => ⟨S20000x1, .f32⟩
  | .hbm, ⟨121, _⟩ => ⟨S20000x1, .f32⟩
  | .hbm, ⟨122, _⟩ => ⟨S20000, .f32⟩
  | .hbm, ⟨123, _⟩ => ⟨S_, .f32⟩
  | .hbm, ⟨124, _⟩ => ⟨S512, .f32⟩
  | .hbm, ⟨125, _⟩ => ⟨S20000x1, .i32⟩
  | .hbm, ⟨126, _⟩ => ⟨S512, .f32⟩
  | .local _ .vmem, ⟨0, _⟩ => ⟨S2000x1, .i32⟩
  | .local _ .vmem, ⟨1, _⟩ => ⟨S2000x1, .i32⟩
  | .local _ .vmem, ⟨2, _⟩ => ⟨S100x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x1, .f32⟩
  | .local _ .vmem, ⟨31, _⟩ => ⟨S2000x1, .f32⟩
  | .local _ .vmem, ⟨32, _⟩ => ⟨S1x256, .f32⟩
  | .local _ .vmem, ⟨33, _⟩ => ⟨S2000x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S256x256, .f32⟩
  | .local _ .vmem, ⟨38, _⟩ => ⟨S1x256, .f32⟩
  | .local _ .vmem, ⟨39, _⟩ => ⟨S2000x256, .f32⟩
  | .local _ .vmem, ⟨40, _⟩ => ⟨S2000x256, .f32⟩
  | .local _ .vmem, ⟨41, _⟩ => ⟨S2000x256, .f32⟩
  | .local _ .vmem, ⟨42, _⟩ => ⟨S2000x256, .f32⟩
  | .local _ .vmem, ⟨43, _⟩ => ⟨S2000x256, .f32⟩
  | .local _ .vmem, ⟨44, _⟩ => ⟨S2000x256, .f32⟩
  | .local _ .vmem, ⟨45, _⟩ => ⟨S2000x1, .f32⟩
  | .local _ .vmem, ⟨46, _⟩ => ⟨S2000x1, .f32⟩
  | .local _ .vmem, ⟨47, _⟩ => ⟨S1x256, .f32⟩
  | .local _ .vmem, ⟨48, _⟩ => ⟨S2000x256, .f32⟩
  | .local _ .vmem, ⟨49, _⟩ => ⟨S2000x256, .f32⟩
  | .local _ .vmem, ⟨50, _⟩ => ⟨S2000x256, .f32⟩
  | .local _ .vmem, ⟨51, _⟩ => ⟨S2000x256, .f32⟩
  | .local _ .vmem, ⟨52, _⟩ => ⟨S256x256, .f32⟩
  | .local _ .vmem, ⟨53, _⟩ => ⟨S1x256, .f32⟩
  | .local _ .vmem, ⟨54, _⟩ => ⟨S2000x256, .f32⟩
  | .local _ .vmem, ⟨55, _⟩ => ⟨S2000x256, .f32⟩
  | _, _ => ⟨S20000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_c_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_9 : Ref sig .tc := ⟨.hbm, 75, rfl⟩
abbrev main_v54 : Ref sig .tc := ⟨.hbm, 76, rfl⟩
abbrev main_v55 : Ref sig .tc := ⟨.hbm, 77, rfl⟩
abbrev main_c_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_c_12 : Ref sig .tc := ⟨.hbm, 97, rfl⟩
abbrev main_v73 : Ref sig .tc := ⟨.hbm, 98, rfl⟩
abbrev main_v74 : Ref sig .tc := ⟨.hbm, 99, rfl⟩
abbrev main_c_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_cst_15 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg3_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg4_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg2_0 : Ref sig .tc := ⟨.vmem, 53, rfl⟩
abbrev cc7_stg3_0 : Ref sig .tc := ⟨.vmem, 54, rfl⟩
abbrev cc7_stg3_1 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem3_1 : DmaSem sig := 40
abbrev cc6_sem0_0 : DmaSem sig := 41
abbrev cc6_sem0_1 : DmaSem sig := 42
abbrev cc6_sem1_0 : DmaSem sig := 43
abbrev cc6_sem1_1 : DmaSem sig := 44
abbrev cc6_sem2_0 : DmaSem sig := 45
abbrev cc6_sem2_1 : DmaSem sig := 46
abbrev cc6_sem3_0 : DmaSem sig := 47
abbrev cc6_sem4_0 : DmaSem sig := 48
abbrev cc6_sem4_1 : DmaSem sig := 49
abbrev cc7_sem0_0 : DmaSem sig := 50
abbrev cc7_sem0_1 : DmaSem sig := 51
abbrev cc7_sem1_0 : DmaSem sig := 52
abbrev cc7_sem2_0 : DmaSem sig := 53
abbrev cc7_sem3_0 : DmaSem sig := 54
abbrev cc7_sem3_1 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x256 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S20000_S20000x1_0 : S20000.BroadcastsInDim S20000x1 (![0] : Fin 1 → Fin S20000x1.rank)
  shapeCasts_S20000_S20000x1 : S20000.ShapeCasts S20000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x100_d1_w32 : S2000x100.Iotas .tc 32 [1]
  broadcasts_S2000x1_S2000x100 : S2000x1.Broadcasts S2000x100
  natLt_1_32 : 1 < 32
  bitsLt_bf16_f32 : FTy.bits .bf16 < FTy.bits .f32
  inb_S100x256_S100x256_0_0 : ∀ a, (![0, 0] : Fin 2 → Nat) a + S100x256.size a ≤ S100x256.size a
  h_S100x256 : 0 < S100x256.numel
  inb_S2000x256_S2000x256_0_0 : ∀ a, (![0, 0] : Fin 2 → Nat) a + S2000x256.size a ≤ S2000x256.size a
  h_S2000x256 : 0 < S2000x256.numel
  bcast_S_S1x256 : S_.BroadcastsInDim S1x256 (![] : Fin 0 → Fin S1x256.rank)
  slices_S3x256x256_S1x256x256_0_0_0 : S3x256x256.Slices ![0, 0, 0] S1x256x256
  shapeCasts_S1x256x256_S256x256 : S1x256x256.ShapeCasts S256x256
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  slices_S3x256_S1x256_0_0 : S3x256.Slices ![0, 0] S1x256
  shapeCasts_S1x256_S256 : S1x256.ShapeCasts S256
  shapeCasts_S256_S1x256 : S256.ShapeCasts S1x256
  broadcasts_S2000x1_S2000x256 : S2000x1.Broadcasts S2000x256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  shapeCasts_S20000x1_S20000 : S20000x1.ShapeCasts S20000
  bcast_S_S512 : S_.BroadcastsInDim S512 (![] : Fin 0 → Fin S512.rank)
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  dot_S2000x100_S100x256_S2000x256_1_0_0_1_n_n_wf : DotDims.WF S2000x100 S100x256 S2000x256 [1] [0] [0] [1] [] []
  dot_S2000x256_S256x256_S2000x256_1_0_0_1_n_n_wf : DotDims.WF S2000x256 S256x256 S2000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x1_S20000x1_1_0_0_1_n_n_wf : DotDims.WF S20000x256 S256x1 S20000x1 [1] [0] [0] [1] [] []
  scatter_S512_S20000x1_S20000_n_0_0_1_wf : ScatterDims.WF S512 S20000x1 S20000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S20000x1.size a
  hwx0_0 : ∀ i : grid0.Coords, EltTy.bits .i32 = 32 ∨ (Rect.block (s := S20000x1) S2000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x256.size a ≤ S100x256.size a
  hwx0_1 : ∀ i : grid0.Coords, EltTy.bits .f32 = 32 ∨ (Rect.block (s := S100x256) S100x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S20000x256.size a
  hwx0_2 : ∀ i : grid0.Coords, EltTy.bits .f32 = 32 ∨ (Rect.block (s := S20000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S20000x256.size a
  hwx1_3 : ∀ i : grid1.Coords, EltTy.bits .f32 = 32 ∨ (Rect.block (s := S20000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S20000x256.size a
  hwx2_0 : ∀ i : grid2.Coords, EltTy.bits .f32 = 32 ∨ (Rect.block (s := S20000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S20000x256.size a
  hwx2_1 : ∀ i : grid2.Coords, EltTy.bits .f32 = 32 ∨ (Rect.block (s := S20000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S20000x1.size a
  hwx2_2 : ∀ i : grid2.Coords, EltTy.bits .f32 = 32 ∨ (Rect.block (s := S20000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S20000x256.size a
  hwx2_4 : ∀ i : grid2.Coords, EltTy.bits .f32 = 32 ∨ (Rect.block (s := S20000x256) S2000x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S20000x256.size a
  hwx3_0 : ∀ i : grid3.Coords, EltTy.bits .f32 = 32 ∨ (Rect.block (s := S20000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S20000x256.size a
  hwx3_3 : ∀ i : grid3.Coords, EltTy.bits .f32 = 32 ∨ (Rect.block (s := S20000x256) S2000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S20000x256.size a
  hwx4_0 : ∀ i : grid4.Coords, EltTy.bits .f32 = 32 ∨ (Rect.block (s := S20000x256) S2000x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x256.size a ≤ S20000x256.size a
  hwx4_1 : ∀ i : grid4.Coords, EltTy.bits .f32 = 32 ∨ (Rect.block (s := S20000x256) S2000x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S20000x1.size a
  hwx4_2 : ∀ i : grid4.Coords, EltTy.bits .f32 = 32 ∨ (Rect.block (s := S20000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x256.size a ≤ S20000x256.size a
  hwx4_4 : ∀ i : grid4.Coords, EltTy.bits .f32 = 32 ∨ (Rect.block (s := S20000x256) S2000x256.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S20000x256.size a
  hwx5_0 : ∀ i : grid5.Coords, EltTy.bits .f32 = 32 ∨ (Rect.block (s := S20000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S20000x256.size a
  hwx5_3 : ∀ i : grid5.Coords, EltTy.bits .f32 = 32 ∨ (Rect.block (s := S20000x256) S2000x256.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x256.size a ≤ S20000x256.size a
  hwx6_0 : ∀ i : grid6.Coords, EltTy.bits .f32 = 32 ∨ (Rect.block (s := S20000x256) S2000x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x256.size a ≤ S20000x256.size a
  hwx6_1 : ∀ i : grid6.Coords, EltTy.bits .f32 = 32 ∨ (Rect.block (s := S20000x256) S2000x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S20000x1.size a
  hwx6_2 : ∀ i : grid6.Coords, EltTy.bits .f32 = 32 ∨ (Rect.block (s := S20000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x256.size a ≤ S20000x256.size a
  hwx6_4 : ∀ i : grid6.Coords, EltTy.bits .f32 = 32 ∨ (Rect.block (s := S20000x256) S2000x256.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x256.size a ≤ S20000x256.size a
  hwx7_0 : ∀ i : grid7.Coords, EltTy.bits .f32 = 32 ∨ (Rect.block (s := S20000x256) S2000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x256.size a ≤ S20000x256.size a
  hwx7_3 : ∀ i : grid7.Coords, EltTy.bits .f32 = 32 ∨ (Rect.block (s := S20000x256) S2000x256.size (cc7_transform_3 i) (hinb7_3 i)).WholeWords (EltTy.packing .f32)

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def dot_S2000x100_S100x256_S2000x256_1_0_0_1_n_n : DotDims S2000x100 S100x256 S2000x256 where
  lhsContracting := [1]
  rhsContracting := [0]
  lhsNonContracting := [0]
  rhsNonContracting := [1]
  lhsBatch := []
  rhsBatch := []
  wf := dot_S2000x100_S100x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x1_S20000x1_1_0_0_1_n_n : DotDims S20000x256 S256x1 S20000x1 where
  lhsContracting := [1]
  rhsContracting := [0]
  lhsNonContracting := [0]
  rhsNonContracting := [1]
  lhsBatch := []
  rhsBatch := []
  wf := dot_S20000x256_S256x1_S20000x1_1_0_0_1_n_n_wf
def scatter_S512_S20000x1_S20000_n_0_0_1 : ScatterDims S512 S20000x1 S20000 where
  updateWindowDims := []
  insertedWindowDims := [0]
  scatterDimsToOperandDims := [0]
  indexVectorDim := 1
  wf := scatter_S512_S20000x1_S20000_n_0_0_1_wf

abbrev win0_0 : Pipeline.Window sig grid0 :=
  Pipeline.Window.ofSpec (Memref.whole main_v29) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S100x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v46) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v50) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v53) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v53) S2000x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v68) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v69) S2000x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v69) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v31) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v84) S2000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72) S2000x256.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v28) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v87) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v88) S2000x256.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v88) S2000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v89) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v90) S2000x256.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S20000 : Shape := ⟨1, ![20000]⟩
abbrev S2x320000 : Shape := ⟨2, ![2, 320000]⟩
abbrev S100x256 : Shape := ⟨2, ![100, 256]⟩
abbrev S3x256x256 : Shape := ⟨3, ![3, 256, 256]⟩
abbrev S3x256 : Shape := ⟨2, ![3, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S20000x1 : Shape := ⟨2, ![20000, 1]⟩
abbrev S20000x256 : Shape := ⟨2, ![20000, 256]⟩
abbrev S1x256x256 : Shape := ⟨3, ![1, 256, 256]⟩
abbrev S320000x256 : Shape := ⟨2, ![320000, 256]⟩
abbrev S1x256 : Shape := ⟨2, ![1, 256]⟩
abbrev S1x1 : Shape := ⟨2, ![1, 1]⟩
abbrev S512 : Shape := ⟨1, ![512]⟩

abbrev nBuf : Space → Nat
  | .hbm => 155
  | .vmem => 0
  | .smem => 0
  | _ => 0

abbrev hbmTy0_0 (i : Nat) : BufTy := match i % 128 with
  | 0 => ⟨S20000, .i32⟩
  | 1 => ⟨S2x320000, .i32⟩
  | 2 => ⟨S20000, .i32⟩
  | 3 => ⟨S100x256, .f32⟩
  | 4 => ⟨S3x256x256, .f32⟩
  | 5 => ⟨S3x256, .f32⟩
  | 6 => ⟨S256x256, .f32⟩
  | 7 => ⟨S256, .f32⟩
  | 8 => ⟨S256x1, .f32⟩
  | 9 => ⟨S1, .f32⟩
  | 10 => ⟨S1x320000, .i32⟩
  | 11 => ⟨S320000, .i32⟩
  | 12 => ⟨S1x320000, .i32⟩
  | 13 => ⟨S320000, .i32⟩
  | 14 => ⟨S_, .f32⟩
  | 15 => ⟨S320000, .f32⟩
  | 16 => ⟨S_, .f32⟩
  | 17 => ⟨S20000, .f32⟩
  | 18 => ⟨S320000x1, .i32⟩
  | 19 => ⟨S20000, .f32⟩
  | 20 => ⟨S_, .f32⟩
  | 21 => ⟨S20000, .f32⟩
  | 22 => ⟨S20000, .f32⟩
  | 23 => ⟨S20000, .f32⟩
  | 24 => ⟨S_, .i32⟩
  | 25 => ⟨S320000, .i32⟩
  | 26 => ⟨S320000, .i1⟩
  | 27 => ⟨S_, .i32⟩
  | 28 => ⟨S320000, .i32⟩
  | 29 => ⟨S320000, .i32⟩
  | 30 => ⟨S320000, .i32⟩
  | 31 => ⟨S320000x1, .i32⟩
  | 32 => ⟨S320000, .f32⟩
  | 33 => ⟨S_, .i32⟩
  | 34 => ⟨S320000, .i32⟩
  | 35 => ⟨S320000, .i1⟩
  | 36 => ⟨S_, .i32⟩
  | 37 => ⟨S320000, .i32⟩
  | 38 => ⟨S320000, .i32⟩
  | 39 => ⟨S320000, .i32⟩
  | 40 => ⟨S320000x1, .i32⟩
  | 41 => ⟨S320000, .f32⟩
  | 42 => ⟨S320000, .f32⟩
  | 43 => ⟨S320000x1, .f32⟩
  | 44 => ⟨S20000, .f32⟩
  | 45 => ⟨S20000x1, .f32⟩
  | 46 => ⟨S_, .i32⟩
  | 47 => ⟨S20000, .i32⟩
  | 48 => ⟨S20000, .i1⟩
  | 49 => ⟨S_, .i32⟩
  | 50 => ⟨S20000, .i32⟩
  | 51 => ⟨S20000, .i32⟩
  | 52 => ⟨S20000, .i32⟩
  | 53 => ⟨S20000x1, .i32⟩
  | 54 => ⟨S20000x256, .f32⟩
  | 55 => ⟨S1x256x256, .f32⟩
  | 56 => ⟨S256x256, .f32⟩
  | 57 => ⟨S20000x256, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x256, .f32⟩
  | 67 => ⟨S320000x256, .f32⟩
  | 68 => ⟨S320000x256, .f32⟩
  | 69 => ⟨S_, .f32⟩
  | 70 => ⟨S20000x256, .f32⟩
  | 71 => ⟨S320000x1, .i32⟩
  | 72 => ⟨S20000x256, .f32⟩
  | 73 => ⟨S20000x256, .f32⟩
  | 74 => ⟨S20000x256, .f32⟩
  | 75 => ⟨S20000x256, .f32⟩
  | 76 => ⟨S1x256, .f32⟩
  | 77 => ⟨S256, .f32⟩
  | 78 => ⟨S1x256, .f32⟩
  | 79 => ⟨S20000x256, .f32⟩
  | 80 => ⟨S20000x256, .f32⟩
  | 81 => ⟨S_, .f32⟩
  | 82 => ⟨S20000x256, .f32⟩
  | 83 => ⟨S20000x256, .f32⟩
  | 84 => ⟨S1x256x256, .f32⟩
  | 85 => ⟨S256x256, .f32⟩
  | 86 => ⟨S20000x256, .f32⟩
  | 87 => ⟨S_, .i32⟩
  | 88 => ⟨S320000, .i32⟩
  | 89 => ⟨S320000, .i1⟩
  | 90 => ⟨S_, .i32⟩
  | 91 => ⟨S320000, .i32⟩
  | 92 => ⟨S320000, .i32⟩
  | 93 => ⟨S320000, .i32⟩
  | 94 => ⟨S320000x1, .i32⟩
  | 95 => ⟨S320000x256, .f32⟩
  | 96 => ⟨S320000x256, .f32⟩
  | 97 => ⟨S320000x256, .f32⟩
  | 98 => ⟨S_, .f32⟩
  | 99 => ⟨S20000x256, .f32⟩
  | 100 => ⟨S320000x1, .i32⟩
  | 101 => ⟨S20000x256, .f32⟩
  | 102 => ⟨S20000x256, .f32⟩
  | 103 => ⟨S20000x256, .f32⟩
  | 104 => ⟨S20000x256, .f32⟩
  | 105 => ⟨S1x256, .f32⟩
  | 106 => ⟨S256, .f32⟩
  | 107 => ⟨S1x256, .f32⟩
  | 108 => ⟨S20000x256, .f32⟩
  | 109 => ⟨S20000x256, .f32⟩
  | 110 => ⟨S_, .f32⟩
  | 111 => ⟨S20000x256, .f32⟩
  | 112 => ⟨S20000x256, .f32⟩
  | 113 => ⟨S1x256x256, .f32⟩
  | 114 => ⟨S256x256, .f32⟩
  | 115 => ⟨S20000x256, .f32⟩
  | 116 => ⟨S_, .i32⟩
  | 117 => ⟨S320000, .i32⟩
  | 118 => ⟨S320000, .i1⟩
  | 119 => ⟨S_, .i32⟩
  | 120 => ⟨S320000, .i32⟩
  | 121 => ⟨S320000, .i32⟩
  | 122 => ⟨S320000, .i32⟩
  | 123 => ⟨S320000x1, .i32⟩
  | 124 => ⟨S320000x256, .f32⟩
  | 125 => ⟨S320000x256, .f32⟩
  | 126 => ⟨S320000x256, .f32⟩
  | 127 => ⟨S_, .f32⟩
  | _ => ⟨S20000, .i32⟩

abbrev hbmTy0_1 (i : Nat) : BufTy := match i % 128 with
  | 0 => ⟨S20000x256, .f32⟩
  | 1 => ⟨S320000x1, .i32⟩
  | 2 => ⟨S20000x256, .f32⟩
  | 3 => ⟨S20000x256, .f32⟩
  | 4 => ⟨S20000x256, .f32⟩
  | 5 => ⟨S20000x256, .f32⟩
  | 6 => ⟨S1x256, .f32⟩
  | 7 => ⟨S256, .f32⟩
  | 8 => ⟨S1x256, .f32⟩
  | 9 => ⟨S20000x256, .f32⟩
  | 10 => ⟨S20000x256, .f32⟩
  | 11 => ⟨S20000x256, .f32⟩
  | 12 => ⟨S1x256, .f32⟩
  | 13 => ⟨S20000x256, .f32⟩
  | 14 => ⟨S20000x256, .f32⟩
  | 15 => ⟨S_, .f32⟩
  | 16 => ⟨S20000x256, .f32⟩
  | 17 => ⟨S20000x256, .f32⟩
  | 18 => ⟨S20000x1, .f32⟩
  | 19 => ⟨S1x1, .f32⟩
  | 20 => ⟨S20000x1, .f32⟩
  | 21 => ⟨S20000x1, .f32⟩
  | 22 => ⟨S20000, .f32⟩
  | 23 => ⟨S_, .f32⟩
  | 24 => ⟨S512, .f32⟩
  | 25 => ⟨S20000x1, .i32⟩
  | 26 => ⟨S512, .f32⟩
  | _ => ⟨S20000, .i32⟩

abbrev hbmTy (i : Nat) : BufTy := match i / 128 with
  | 0 => hbmTy0_0 i
  | 1 => hbmTy0_1 i
  | _ => ⟨S20000, .i32⟩

abbrev bufTy : (tb : Table) → Fin (tcTables nBuf tb) → BufTy
  | .hbm, ⟨i, _⟩ => hbmTy i
  | _, _ => ⟨S20000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_c_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call0_cst : Ref sig .tc := ⟨.hbm, 81, rfl⟩
abbrev main_call0_v0 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_10 : Ref sig .tc := ⟨.hbm, 87, rfl⟩
abbrev main_v63 : Ref sig .tc := ⟨.hbm, 88, rfl⟩
abbrev main_v64 : Ref sig .tc := ⟨.hbm, 89, rfl⟩
abbrev main_c_11 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_call1_cst : Ref sig .tc := ⟨.hbm, 110, rfl⟩
abbrev main_call1_v0 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_c_13 : Ref sig .tc := ⟨.hbm, 116, rfl⟩
abbrev main_v87 : Ref sig .tc := ⟨.hbm, 117, rfl⟩
abbrev main_v88 : Ref sig .tc := ⟨.hbm, 118, rfl⟩
abbrev main_c_14 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_cst_15 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_call2_cst : Ref sig .tc := ⟨.hbm, 143, rfl⟩
abbrev main_call2_v0 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_cst_16 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S20000 : S_.BroadcastsInDim S20000 (![] : Fin 0 → Fin S20000.rank)
  bcast_S320000_S320000x1_0 : S320000.BroadcastsInDim S320000x1 (![0] : Fin 1 → Fin S320000x1.rank)
  bcast_S20000_S20000x1_0 : S20000.BroadcastsInDim S20000x1 (![0] : Fin 1 → Fin S20000x1.rank)
  slices_S3x256x256_S1x256x256_0_0_0 : S3x256x256.Slices ![0, 0, 0] S1x256x256
  shapeCasts_S1x256x256_S256x256 : S1x256x256.ShapeCasts S256x256
  bcast_S320000x1_S320000x256_0_1 : S320000x1.BroadcastsInDim S320000x256 (![0, 1] : Fin 2 → Fin S320000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S1_S1x1_1 : S1.BroadcastsInDim S1x1 (![1] : Fin 1 → Fin S1x1.rank)
  bcast_S1x1_S20000x1_0_1 : S1x1.BroadcastsInDim S20000x1 (![0, 1] : Fin 2 → Fin S20000x1.rank)
  shapeCasts_S20000x1_S20000 : S20000x1.ShapeCasts S20000
  bcast_S_S512 : S_.BroadcastsInDim S512 (![] : Fin 0 → Fin S512.rank)
  scatter_S20000_S320000x1_S320000_n_0_0_1_wf : ScatterDims.WF S20000 S320000x1 S320000 [] [0] [0] 1
  gather_S20000_S320000x1_S320000_n_0_n_n_0_1_1_wf : GatherDims.WF S20000 S320000x1 S320000 [] [0] [] [0] [] 1 ![1]
  gather_S100x256_S20000x1_S20000x256_1_0_n_n_0_1_1256_wf : GatherDims.WF S100x256 S20000x1 S20000x256 [1] [0] [] [0] [] 1 ![1, 256]
  dot_S20000x256_S256x256_S20000x256_1_0_0_1_n_n_wf : DotDims.WF S20000x256 S256x256 S20000x256 [1] [0] [0] [1] [] []
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  dot_S20000x256_S256x1_S20000x1_1_0_0_1_n_n_wf : DotDims.WF S20000x256 S256x1 S20000x1 [1] [0] [0] [1] [] []
  scatter_S512_S20000x1_S20000_n_0_0_1_wf : ScatterDims.WF S512 S20000x1 S20000 [] [0] [0] 1

variable [Facts₀]

def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def gather_S20000_S320000x1_S320000_n_0_n_n_0_1_1 : GatherDims S20000 S320000x1 S320000 where
  offsetDims := []
  collapsedSliceDims := [0]
  operandBatchingDims := []
  startIndicesBatchingDims := []
  startIndexMap := [0]
  indexVectorDim := 1
  sliceSizes := ![1]
  wf := gather_S20000_S320000x1_S320000_n_0_n_n_0_1_1_wf
def gather_S100x256_S20000x1_S20000x256_1_0_n_n_0_1_1256 : GatherDims S100x256 S20000x1 S20000x256 where
  offsetDims := [1]
  collapsedSliceDims := [0]
  operandBatchingDims := []
  startIndicesBatchingDims := []
  startIndexMap := [0]
  indexVectorDim := 1
  sliceSizes := ![1, 256]
  wf := gather_S100x256_S20000x1_S20000x256_1_0_n_n_0_1_1256_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def dot_S20000x256_S256x1_S20000x1_1_0_0_1_n_n : DotDims S20000x256 S256x1 S20000x1 where
  lhsContracting := [1]
  rhsContracting := [0]
  lhsNonContracting := [0]
  rhsNonContracting := [1]
  lhsBatch := []
  rhsBatch := []
  wf := dot_S20000x256_S256x1_S20000x1_1_0_0_1_n_n_wf
def scatter_S512_S20000x1_S20000_n_0_0_1 : ScatterDims S512 S20000x1 S20000 where
  updateWindowDims := []
  insertedWindowDims := [0]
  scatterDimsToOperandDims := [0]
  indexVectorDim := 1
  wf := scatter_S512_S20000x1_S20000_n_0_0_1_wf

class Facts : Prop extends Facts₀ where

variable [Facts]
-- ==== Proof.PreRange.lean ====
/-
  The precondition's two added conjuncts, decoded: every token of the input lies in the vocabulary [0, 100), read as a
  signed 32-bit integer.
-/
import proofs.«401411_j7164005449946_1_alg».proof.Defs
import proofs.«401411_j7164005449946_1_alg».proof.Proof.Gen.Pre_finite_inputs
import proofs.«401411_j7164005449946_1_alg».proof.Proof.Gen.KernelIdeal
import Idealize.ShloMosaic.Lib.ReduceAll
import Idealize.ShloMosaic.Lib.ValueIdx
import Idealize.ShloMosaic.Lib.StableHlo.Predicate

noncomputable section

open Idealize.ShloMosaic Idealize.ShloMosaic.TcCoe Idealize.SL.Sem Idealize.ShloMosaic.ValueIdx

namespace Cert.PreRange

/-- The scalar shape has one index. -/
instance : Subsingleton Cert.Pre_finite_inputs.S_.Idx := ⟨fun a b => funext fun d => d.elim0⟩

/-- The predicate's last part is a conjunction of three bits: the bit handed on, "every token is ≥ 0" and
    "every token is < 100", each of the last two a conjunction over all nodes. When it is 1, both hold at every node. -/
theorem part2_range {F : FTy → Type} [FloatOps F] (a0 : IVec Cert.Pre_finite_inputs.S20000 32)
    (v33 : IVec Cert.Pre_finite_inputs.S_ 1)
    (e : Cert.Pre_finite_inputs.fn_part2 (F := F) a0 v33 ix0 = 1#1) (n : Fin 20000) :
    0 ≤ (a0 (ix1 n)).toInt ∧ (a0 (ix1 n)).toInt < 100 := by
  unfold Cert.Pre_finite_inputs.fn_part2 at e
  dsimp only at e
  change IntOp.andi (IntOp.andi _ _) _ = 1#1 at e
  obtain ⟨e12, e3⟩ := IntOp.andi_eq_one.1 e
  obtain ⟨-, e2⟩ := IntOp.andi_eq_one.1 e12
  have g0 := Host.reduce_andi_all _ _ _ _ _ e2 (ix1 n)
  have g1 := Host.reduce_andi_all _ _ _ _ _ e3 (ix1 n)
  have g0' : IntOp.cmpi .sge (a0 (ix1 n)) (0#32) = 1#1 := g0
  have g1' : IntOp.cmpi .slt (a0 (ix1 n)) (100#32) = 1#1 := g1
  rw [IntOp.cmpi_sge] at g0'
  rw [IntOp.cmpi_slt] at g1'
  have z : (0#32 : BitVec 32).toInt = 0 := by decide
  have c : (100#32 : BitVec 32).toInt = 100 := by decide
  rw [z] at g0'
  rw [c] at g1'
  exact ⟨g0', g1'⟩

/-- Under the precondition every token is in [0, 100). -/
theorem tokens_in_range (m : (ℓ : Loc Cert.KernelIdeal.nD Cert.KernelIdeal.τ Cert.KernelIdeal.sig) → Buf (Elt Ideal) ℓ)
    (h : Cert.Pre_KernelIdeal m) (c : Dev Cert.KernelIdeal.nD) (n : Fin 20000) :
    0 ≤ ((m ((c.tc : Thread Cert.KernelIdeal.nD Cert.KernelIdeal.τ).loc Cert.KernelIdeal.main_arg0) : IVec Cert.KernelIdeal.S20000 32) (ix1 n)).toInt
    ∧ ((m ((c.tc : Thread Cert.KernelIdeal.nD Cert.KernelIdeal.τ).loc Cert.KernelIdeal.main_arg0) : IVec Cert.KernelIdeal.S20000 32) (ix1 n)).toInt < 100 := by
  have e := congrFun (h c) ix0
  unfold Cert.Pre_finite_inputs.fn Cert.Pre_finite_inputs.fn_part1 at e
  dsimp only at e
  exact part2_range _ _ e n

end Cert.PreRange

end
-- ==== Proof.Carry.lean ====
/-
  A buffer that no operation writes between two points of the program holds at the later point what it held at the earlier.

  The program is seventeen segments in order: a stretch of host operations, then a launch, alternately, nine stretches and
  eight launches. A stretch changes only the buffers its operations write; a launch changes only its output array (an input
  array is read through its windows and ends as it was found). So a buffer keeps its contents across any run of segments
  none of which writes it, and which segments write a given buffer is decided by looking it up in a list.
-/
import proofs.«401411_j7164005449946_1_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.Carry

open Cert.KernelIdeal Cert.KernelIdeal.Gen

variable {F : FTy → Type} [FloatOps F]
variable (m : (ℓ : Loc nD τ sig) → Buf (Elt F) ℓ) (ρ : Dev nD → PrngReg)

/-! ## What each segment writes -/

/-- The buffers the host operations of stretch 0 write. -/
def wr0 : List (Ref sig .tc) :=
  [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27, main_v28, main_v29]

/-- The buffers the host operations of stretch 1 write. -/
def wr1 : List (Ref sig .tc) :=
  [main_cst_5, main_v31, main_v32, main_v33]

/-- The buffers the host operations of stretch 2 write. -/
def wr2 : List (Ref sig .tc) :=
  [main_c_6, main_v35, main_v36, main_c_7, main_v37, main_v38, main_v39, main_v40, main_v41, main_v42, main_v43, main_cst_8, main_v44, main_v45, main_v46, main_v47, main_v48, main_v49]

/-- The buffers the host operations of stretch 3 write. -/
def wr3 : List (Ref sig .tc) :=
  [main_v51, main_v52]

/-- The buffers the host operations of stretch 4 write. -/
def wr4 : List (Ref sig .tc) :=
  [main_c_9, main_v54, main_v55, main_c_10, main_v56, main_v57, main_v58, main_v59, main_v60, main_v61, main_v62, main_cst_11, main_v63, main_v64, main_v65, main_v66, main_v67, main_v68]

/-- The buffers the host operations of stretch 5 write. -/
def wr5 : List (Ref sig .tc) :=
  [main_v70, main_v71]

/-- The buffers the host operations of stretch 6 write. -/
def wr6 : List (Ref sig .tc) :=
  [main_c_12, main_v73, main_v74, main_c_13, main_v75, main_v76, main_v77, main_v78, main_v79, main_v80, main_v81, main_cst_14, main_v82, main_v83, main_v84, main_v85, main_v86, main_v87]

/-- The buffers the host operations of stretch 7 write. -/
def wr7 : List (Ref sig .tc) :=
  [main_v89]

/-- The buffers the host operations of stretch 8 write. -/
def wr8 : List (Ref sig .tc) :=
  [main_v91, main_v92, main_v93, main_v94, main_v95, main_cst_15, main_v96, main_v97, main_v98]

/-! ## One segment -/

/-- Stretch 0 leaves a buffer it does not write as it was. -/
theorem host_step0 (c : Dev nD) (b : Ref sig .tc) (hb : b ∉ wr0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- Stretch 1 leaves a buffer it does not write as it was. -/
theorem host_step1 (c : Dev nD) (b : Ref sig .tc) (hb : b ∉ wr1) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- Stretch 2 leaves a buffer it does not write as it was. -/
theorem host_step2 (c : Dev nD) (b : Ref sig .tc) (hb : b ∉ wr2) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- Stretch 3 leaves a buffer it does not write as it was. -/
theorem host_step3 (c : Dev nD) (b : Ref sig .tc) (hb : b ∉ wr3) :
    W7 m ρ c (Proc.devRef .tc b) = W6 m ρ c (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- Stretch 4 leaves a buffer it does not write as it was. -/
theorem host_step4 (c : Dev nD) (b : Ref sig .tc) (hb : b ∉ wr4) :
    W9 m ρ c (Proc.devRef .tc b) = W8 m ρ c (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- Stretch 5 leaves a buffer it does not write as it was. -/
theorem host_step5 (c : Dev nD) (b : Ref sig .tc) (hb : b ∉ wr5) :
    W11 m ρ c (Proc.devRef .tc b) = W10 m ρ c (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- Stretch 6 leaves a buffer it does not write as it was. -/
theorem host_step6 (c : Dev nD) (b : Ref sig .tc) (hb : b ∉ wr6) :
    W13 m ρ c (Proc.devRef .tc b) = W12 m ρ c (Proc.devRef .tc b) :=
  StableHlo.after_of_forall_not_mem (b := Proc.devRef .tc b) _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- Stretch 7 leaves a buffer it does not write as it was. -/
theorem host_step7 (c : Dev nD) (b : Ref sig .tc) (hb : b ∉ wr7) :
    W15 m ρ c (Proc.devRef .tc b) = W14 m ρ c (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- Stretch 8 leaves a buffer it does not write as it was. -/
theorem host_step8 (c : Dev nD) (b : Ref sig .tc) (hb : b ∉ wr8) :
    W17 m ρ c (Proc.devRef .tc b) = W16 m ρ c (Proc.devRef .tc b) :=
  StableHlo.after_of_forall_not_mem (b := Proc.devRef .tc b) _ _ (List.forall_iff_forall_mem.mp (by
    simp only [hostOps8, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by subst e; decide))))

/-- Launch 0 leaves every buffer but its output array as it was: a buffer that is none of its arrays is untouched, and an
    input array ends as the launch found it. -/
theorem launch_step0 (c : Dev nD) (b : Ref sig .tc) (hb : b ≠ main_v30) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    have hw' : Pipeline.arrRef spec0 w = b := not_not.mp hw
    subst hw'
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact absurd rfl hb

/-- Launch 1 leaves every buffer but its output array as it was: a buffer that is none of its arrays is untouched, and an
    input array ends as the launch found it. -/
theorem launch_step1 (c : Dev nD) (b : Ref sig .tc) (hb : b ≠ main_v34) :
    W4 m ρ c (Proc.devRef .tc b) = W3 m ρ c (Proc.devRef .tc b) := by
  by_cases h : ∀ w, Pipeline.arrRef spec1 w ≠ b
  · exact W4_of_ne m ρ c b h
  · obtain ⟨w, hw⟩ := not_forall.mp h
    have hw' : Pipeline.arrRef spec1 w = b := not_not.mp hw
    subst hw'
    match w with
    | ⟨0, _⟩ => exact (W4_arr m ρ c 0).trans (((dat1 (V3 m ρ) c).arrAt_in 0 rfl _).trans (A_eq1 (V3 m ρ) c 0))
    | ⟨1, _⟩ => exact (W4_arr m ρ c 1).trans (((dat1 (V3 m ρ) c).arrAt_in 1 rfl _).trans (A_eq1 (V3 m ρ) c 1))
    | ⟨2, _⟩ => exact (W4_arr m ρ c 2).trans (((dat1 (V3 m ρ) c).arrAt_in 2 rfl _).trans (A_eq1 (V3 m ρ) c 2))
    | ⟨3, _⟩ => exact absurd rfl hb

/-- Launch 2 leaves every buffer but its output array as it was: a buffer that is none of its arrays is untouched, and an
    input array ends as the launch found it. -/
theorem launch_step2 (c : Dev nD) (b : Ref sig .tc) (hb : b ≠ main_v50) :
    W6 m ρ c (Proc.devRef .tc b) = W5 m ρ c (Proc.devRef .tc b) := by
  by_cases h : ∀ w, Pipeline.arrRef spec2 w ≠ b
  · exact W6_of_ne m ρ c b h
  · obtain ⟨w, hw⟩ := not_forall.mp h
    have hw' : Pipeline.arrRef spec2 w = b := not_not.mp hw
    subst hw'
    match w with
    | ⟨0, _⟩ => exact (W6_arr m ρ c 0).trans (((dat2 (V5 m ρ) c).arrAt_in 0 rfl _).trans (A_eq2 (V5 m ρ) c 0))
    | ⟨1, _⟩ => exact (W6_arr m ρ c 1).trans (((dat2 (V5 m ρ) c).arrAt_in 1 rfl _).trans (A_eq2 (V5 m ρ) c 1))
    | ⟨2, _⟩ => exact (W6_arr m ρ c 2).trans (((dat2 (V5 m ρ) c).arrAt_in 2 rfl _).trans (A_eq2 (V5 m ρ) c 2))
    | ⟨3, _⟩ => exact (W6_arr m ρ c 3).trans (((dat2 (V5 m ρ) c).arrAt_in 3 rfl _).trans (A_eq2 (V5 m ρ) c 3))
    | ⟨4, _⟩ => exact absurd rfl hb

/-- Launch 3 leaves every buffer but its output array as it was: a buffer that is none of its arrays is untouched, and an
    input array ends as the launch found it. -/
theorem launch_step3 (c : Dev nD) (b : Ref sig .tc) (hb : b ≠ main_v53) :
    W8 m ρ c (Proc.devRef .tc b) = W7 m ρ c (Proc.devRef .tc b) := by
  by_cases h : ∀ w, Pipeline.arrRef spec3 w ≠ b
  · exact W8_of_ne m ρ c b h
  · obtain ⟨w, hw⟩ := not_forall.mp h
    have hw' : Pipeline.arrRef spec3 w = b := not_not.mp hw
    subst hw'
    match w with
    | ⟨0, _⟩ => exact (W8_arr m ρ c 0).trans (((dat3 (V7 m ρ) c).arrAt_in 0 rfl _).trans (A_eq3 (V7 m ρ) c 0))
    | ⟨1, _⟩ => exact (W8_arr m ρ c 1).trans (((dat3 (V7 m ρ) c).arrAt_in 1 rfl _).trans (A_eq3 (V7 m ρ) c 1))
    | ⟨2, _⟩ => exact (W8_arr m ρ c 2).trans (((dat3 (V7 m ρ) c).arrAt_in 2 rfl _).trans (A_eq3 (V7 m ρ) c 2))
    | ⟨3, _⟩ => exact absurd rfl hb

/-- Launch 4 leaves every buffer but its output array as it was: a buffer that is none of its arrays is untouched, and an
    input array ends as the launch found it. -/
theorem launch_step4 (c : Dev nD) (b : Ref sig .tc) (hb : b ≠ main_v69) :
    W10 m ρ c (Proc.devRef .tc b) = W9 m ρ c (Proc.devRef .tc b) := by
  by_cases h : ∀ w, Pipeline.arrRef spec4 w ≠ b
  · exact W10_of_ne m ρ c b h
  · obtain ⟨w, hw⟩ := not_forall.mp h
    have hw' : Pipeline.arrRef spec4 w = b := not_not.mp hw
    subst hw'
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact (W10_arr m ρ c 3).trans (((dat4 (V9 m ρ) c).arrAt_in 3 rfl _).trans (A_eq4 (V9 m ρ) c 3))
    | ⟨4, _⟩ => exact absurd rfl hb

/-- Launch 5 leaves every buffer but its output array as it was: a buffer that is none of its arrays is untouched, and an
    input array ends as the launch found it. -/
theorem launch_step5 (c : Dev nD) (b : Ref sig .tc) (hb : b ≠ main_v72) :
    W12 m ρ c (Proc.devRef .tc b) = W11 m ρ c (Proc.devRef .tc b) := by
  by_cases h : ∀ w, Pipeline.arrRef spec5 w ≠ b
  · exact W12_of_ne m ρ c b h
  · obtain ⟨w, hw⟩ := not_forall.mp h
    have hw' : Pipeline.arrRef spec5 w = b := not_not.mp hw
    subst hw'
    match w with
    | ⟨0, _⟩ => exact (W12_arr m ρ c 0).trans (((dat5 (V11 m ρ) c).arrAt_in 0 rfl _).trans (A_eq5 (V11 m ρ) c 0))
    | ⟨1, _⟩ => exact (W12_arr m ρ c 1).trans (((dat5 (V11 m ρ) c).arrAt_in 1 rfl _).trans (A_eq5 (V11 m ρ) c 1))
    | ⟨2, _⟩ => exact (W12_arr m ρ c 2).trans (((dat5 (V11 m ρ) c).arrAt_in 2 rfl _).trans (A_eq5 (V11 m ρ) c 2))
    | ⟨3, _⟩ => exact absurd rfl hb

/-- Launch 6 leaves every buffer but its output array as it was: a buffer that is none of its arrays is untouched, and an
    input array ends as the launch found it. -/
theorem launch_step6 (c : Dev nD) (b : Ref sig .tc) (hb : b ≠ main_v88) :
    W14 m ρ c (Proc.devRef .tc b) = W13 m ρ c (Proc.devRef .tc b) := by
  by_cases h : ∀ w, Pipeline.arrRef spec6 w ≠ b
  · exact W14_of_ne m ρ c b h
  · obtain ⟨w, hw⟩ := not_forall.mp h
    have hw' : Pipeline.arrRef spec6 w = b := not_not.mp hw
    subst hw'
    match w with
    | ⟨0, _⟩ => exact (W14_arr m ρ c 0).trans (((dat6 (V13 m ρ) c).arrAt_in 0 rfl _).trans (A_eq6 (V13 m ρ) c 0))
    | ⟨1, _⟩ => exact (W14_arr m ρ c 1).trans (((dat6 (V13 m ρ) c).arrAt_in 1 rfl _).trans (A_eq6 (V13 m ρ) c 1))
    | ⟨2, _⟩ => exact (W14_arr m ρ c 2).trans (((dat6 (V13 m ρ) c).arrAt_in 2 rfl _).trans (A_eq6 (V13 m ρ) c 2))
    | ⟨3, _⟩ => exact (W14_arr m ρ c 3).trans (((dat6 (V13 m ρ) c).arrAt_in 3 rfl _).trans (A_eq6 (V13 m ρ) c 3))
    | ⟨4, _⟩ => exact absurd rfl hb

/-- Launch 7 leaves every buffer but its output array as it was: a buffer that is none of its arrays is untouched, and an
    input array ends as the launch found it. -/
theorem launch_step7 (c : Dev nD) (b : Ref sig .tc) (hb : b ≠ main_v90) :
    W16 m ρ c (Proc.devRef .tc b) = W15 m ρ c (Proc.devRef .tc b) := by
  by_cases h : ∀ w, Pipeline.arrRef spec7 w ≠ b
  · exact W16_of_ne m ρ c b h
  · obtain ⟨w, hw⟩ := not_forall.mp h
    have hw' : Pipeline.arrRef spec7 w = b := not_not.mp hw
    subst hw'
    match w with
    | ⟨0, _⟩ => exact (W16_arr m ρ c 0).trans (((dat7 (V15 m ρ) c).arrAt_in 0 rfl _).trans (A_eq7 (V15 m ρ) c 0))
    | ⟨1, _⟩ => exact (W16_arr m ρ c 1).trans (((dat7 (V15 m ρ) c).arrAt_in 1 rfl _).trans (A_eq7 (V15 m ρ) c 1))
    | ⟨2, _⟩ => exact (W16_arr m ρ c 2).trans (((dat7 (V15 m ρ) c).arrAt_in 2 rfl _).trans (A_eq7 (V15 m ρ) c 2))
    | ⟨3, _⟩ => exact absurd rfl hb

/-! ## Any run of segments -/

/-- The contents at the eighteen boundaries, in order. -/
def Wn : Fin 18 → Dev nD → Valuation τ sig (Elt F)
  | ⟨0, _⟩ => W0 m ρ
  | ⟨1, _⟩ => W1 m ρ
  | ⟨2, _⟩ => W2 m ρ
  | ⟨3, _⟩ => W3 m ρ
  | ⟨4, _⟩ => W4 m ρ
  | ⟨5, _⟩ => W5 m ρ
  | ⟨6, _⟩ => W6 m ρ
  | ⟨7, _⟩ => W7 m ρ
  | ⟨8, _⟩ => W8 m ρ
  | ⟨9, _⟩ => W9 m ρ
  | ⟨10, _⟩ => W10 m ρ
  | ⟨11, _⟩ => W11 m ρ
  | ⟨12, _⟩ => W12 m ρ
  | ⟨13, _⟩ => W13 m ρ
  | ⟨14, _⟩ => W14 m ρ
  | ⟨15, _⟩ => W15 m ρ
  | ⟨16, _⟩ => W16 m ρ
  | ⟨17, _⟩ => W17 m ρ
  | ⟨_ + 18, h⟩ => absurd h (Nat.not_lt.2 (Nat.le_add_left _ _))

/-- Segment `s` (from boundary `s` to boundary `s + 1`) does not write `b`. -/
def free (b : Ref sig .tc) : Fin 17 → Bool
  | ⟨0, _⟩ => decide (b ∉ wr0)
  | ⟨1, _⟩ => decide (b ≠ main_v30)
  | ⟨2, _⟩ => decide (b ∉ wr1)
  | ⟨3, _⟩ => decide (b ≠ main_v34)
  | ⟨4, _⟩ => decide (b ∉ wr2)
  | ⟨5, _⟩ => decide (b ≠ main_v50)
  | ⟨6, _⟩ => decide (b ∉ wr3)
  | ⟨7, _⟩ => decide (b ≠ main_v53)
  | ⟨8, _⟩ => decide (b ∉ wr4)
  | ⟨9, _⟩ => decide (b ≠ main_v69)
  | ⟨10, _⟩ => decide (b ∉ wr5)
  | ⟨11, _⟩ => decide (b ≠ main_v72)
  | ⟨12, _⟩ => decide (b ∉ wr6)
  | ⟨13, _⟩ => decide (b ≠ main_v88)
  | ⟨14, _⟩ => decide (b ∉ wr7)
  | ⟨15, _⟩ => decide (b ≠ main_v90)
  | ⟨16, _⟩ => decide (b ∉ wr8)
  | ⟨_ + 17, h⟩ => absurd h (Nat.not_lt.2 (Nat.le_add_left _ _))

theorem step (c : Dev nD) (b : Ref sig .tc) : ∀ s : Fin 17, free b s = true →
    Wn m ρ s.succ c (Proc.devRef .tc b) = Wn m ρ s.castSucc c (Proc.devRef .tc b)
  | ⟨0, _⟩, h => host_step0 m ρ c b (of_decide_eq_true h)
  | ⟨1, _⟩, h => launch_step0 m ρ c b (of_decide_eq_true h)
  | ⟨2, _⟩, h => host_step1 m ρ c b (of_decide_eq_true h)
  | ⟨3, _⟩, h => launch_step1 m ρ c b (of_decide_eq_true h)
  | ⟨4, _⟩, h => host_step2 m ρ c b (of_decide_eq_true h)
  | ⟨5, _⟩, h => launch_step2 m ρ c b (of_decide_eq_true h)
  | ⟨6, _⟩, h => host_step3 m ρ c b (of_decide_eq_true h)
  | ⟨7, _⟩, h => launch_step3 m ρ c b (of_decide_eq_true h)
  | ⟨8, _⟩, h => host_step4 m ρ c b (of_decide_eq_true h)
  | ⟨9, _⟩, h => launch_step4 m ρ c b (of_decide_eq_true h)
  | ⟨10, _⟩, h => host_step5 m ρ c b (of_decide_eq_true h)
  | ⟨11, _⟩, h => launch_step5 m ρ c b (of_decide_eq_true h)
  | ⟨12, _⟩, h => host_step6 m ρ c b (of_decide_eq_true h)
  | ⟨13, _⟩, h => launch_step6 m ρ c b (of_decide_eq_true h)
  | ⟨14, _⟩, h => host_step7 m ρ c b (of_decide_eq_true h)
  | ⟨15, _⟩, h => launch_step7 m ρ c b (of_decide_eq_true h)
  | ⟨16, _⟩, h => host_step8 m ρ c b (of_decide_eq_true h)
  | ⟨_ + 17, h⟩, _ => absurd h (Nat.not_lt.2 (Nat.le_add_left _ _))

theorem carry_aux (c : Dev nD) (b : Ref sig .tc) (i : Fin 18) : ∀ (n : Nat) (hn : n < 18), i.val ≤ n →
    (∀ s : Fin 17, i.val ≤ s.val → s.val < n → free b s = true) →
    Wn m ρ ⟨n, hn⟩ c (Proc.devRef .tc b) = Wn m ρ i c (Proc.devRef .tc b)
  | 0, hn, hi, _ => by
    have e : i = ⟨0, hn⟩ := Fin.ext (Nat.le_zero.mp hi)
    rw [e]
  | n + 1, hn, hi, h => by
    rcases Nat.lt_or_ge i.val (n + 1) with hlt | hge
    · have s := step m ρ c b ⟨n, by omega⟩ (h ⟨n, by omega⟩ (by show i.val ≤ n; omega) (by show n < n + 1; omega))
      exact s.trans (carry_aux c b i n (by omega) (by omega) (fun s h1 h2 => h s h1 (by omega)))
    · have e : i = ⟨n + 1, hn⟩ := Fin.ext (by show i.val = n + 1; omega)
      rw [e]

/-- A buffer no segment from boundary `i` up to boundary `j` writes holds at `j` what it held at `i`. -/
theorem carry (c : Dev nD) (b : Ref sig .tc) (i j : Fin 18) (hij : i.val ≤ j.val)
    (h : ∀ s : Fin 17, i.val ≤ s.val → s.val < j.val → free b s = true) :
    Wn m ρ j c (Proc.devRef .tc b) = Wn m ρ i c (Proc.devRef .tc b) :=
  carry_aux m ρ c b i j.val j.isLt hij h

end Cert.KernelIdeal.Carry

end
-- ==== Proof.StageHost.lean ====
/-
  The host operations between the launches, read stage by stage: what each stretch of the program leaves in the buffers
  the next launch reads is the reference's own stage of the same arguments, given that the launch outputs the stretch
  reads are. Both programs compute the edge and self-loop normalisations, gather the features along the edges, scale,
  scatter-add them to the targets and slice the layer's weights and bias by the same operations in the same order, so
  each comparison is between two spellings of one term.
-/
import proofs.«401411_j7164005449946_1_alg».proof.Proof.Gen.KernelIdeal.Frame
import proofs.«401411_j7164005449946_1_alg».proof.Proof.Gen.ReferenceIdeal.Read
import proofs.«401411_j7164005449946_1_alg».proof.Proof.Carry

set_option maxRecDepth 16384
set_option Elab.async false

noncomputable section

open Idealize.ShloMosaic Idealize.ShloMosaic.TcCoe Idealize.SL.Sem Idealize.ShloMosaic.StableHlo

namespace Cert.KernelIdeal.Stage

open Cert.KernelIdeal Cert.KernelIdeal.Gen Cert.ReferenceIdeal.Read

variable {F : FTy → Type} [FloatOps F]
variable (m : (ℓ : Loc nD τ sig) → Buf (Elt F) ℓ) (ρ : Dev nD → PrngReg) (c : Dev nD)

/-! ## An argument holds its launch contents at every boundary -/

theorem arg3_at1 : W1 m ρ c (Proc.devRef .tc main_arg3) = m ((c : Thread nD τ).loc main_arg3) :=
  (Carry.carry m ρ c main_arg3 ⟨0, by decide⟩ ⟨1, by decide⟩ (by decide) (by decide +kernel))

theorem arg4_at2 : W2 m ρ c (Proc.devRef .tc main_arg4) = m ((c : Thread nD τ).loc main_arg4) :=
  (Carry.carry m ρ c main_arg4 ⟨0, by decide⟩ ⟨2, by decide⟩ (by decide) (by decide +kernel))

theorem arg4_at6 : W6 m ρ c (Proc.devRef .tc main_arg4) = m ((c : Thread nD τ).loc main_arg4) :=
  (Carry.carry m ρ c main_arg4 ⟨0, by decide⟩ ⟨6, by decide⟩ (by decide) (by decide +kernel))

theorem arg4_at10 : W10 m ρ c (Proc.devRef .tc main_arg4) = m ((c : Thread nD τ).loc main_arg4) :=
  (Carry.carry m ρ c main_arg4 ⟨0, by decide⟩ ⟨10, by decide⟩ (by decide) (by decide +kernel))

theorem arg5_at4 : W4 m ρ c (Proc.devRef .tc main_arg5) = m ((c : Thread nD τ).loc main_arg5) :=
  (Carry.carry m ρ c main_arg5 ⟨0, by decide⟩ ⟨4, by decide⟩ (by decide) (by decide +kernel))

theorem arg5_at8 : W8 m ρ c (Proc.devRef .tc main_arg5) = m ((c : Thread nD τ).loc main_arg5) :=
  (Carry.carry m ρ c main_arg5 ⟨0, by decide⟩ ⟨8, by decide⟩ (by decide) (by decide +kernel))

theorem arg5_at12 : W12 m ρ c (Proc.devRef .tc main_arg5) = m ((c : Thread nD τ).loc main_arg5) :=
  (Carry.carry m ρ c main_arg5 ⟨0, by decide⟩ ⟨12, by decide⟩ (by decide) (by decide +kernel))

theorem arg6_at15 : W15 m ρ c (Proc.devRef .tc main_arg6) = m ((c : Thread nD τ).loc main_arg6) :=
  (Carry.carry m ρ c main_arg6 ⟨0, by decide⟩ ⟨15, by decide⟩ (by decide) (by decide +kernel))

theorem arg7_at14 : W14 m ρ c (Proc.devRef .tc main_arg7) = m ((c : Thread nD τ).loc main_arg7) :=
  (Carry.carry m ρ c main_arg7 ⟨0, by decide⟩ ⟨14, by decide⟩ (by decide) (by decide +kernel))

theorem arg8_at16 : W16 m ρ c (Proc.devRef .tc main_arg8) = m ((c : Thread nD τ).loc main_arg8) :=
  (Carry.carry m ρ c main_arg8 ⟨0, by decide⟩ ⟨16, by decide⟩ (by decide) (by decide +kernel))

theorem arg9_at16 : W16 m ρ c (Proc.devRef .tc main_arg9) = m ((c : Thread nD τ).loc main_arg9) :=
  (Carry.carry m ρ c main_arg9 ⟨0, by decide⟩ ⟨16, by decide⟩ (by decide) (by decide +kernel))

theorem arg2_at16 : W16 m ρ c (Proc.devRef .tc main_arg2) = m ((c : Thread nD τ).loc main_arg2) :=
  (Carry.carry m ρ c main_arg2 ⟨0, by decide⟩ ⟨16, by decide⟩ (by decide) (by decide +kernel))

/-! ## The first stretch: sources, targets, the edge and self-loop normalisations, the token column -/

/-- The edges' sources. -/
theorem src_at1 : W1 m ρ c (Proc.devRef .tc main_v1) = (val_main_v1 (F := F) (m ((c : Thread nD τ).loc main_arg1))) := by
  show StableHlo.after hostOps0 (W0 m ρ c) (Proc.devRef .tc main_v1) = _
  after_results_simp <;> rfl

/-- The edges' targets. -/
theorem dst_at1 : W1 m ρ c (Proc.devRef .tc main_v3) = (val_main_v3 (F := F) (m ((c : Thread nD τ).loc main_arg1))) := by
  show StableHlo.after hostOps0 (W0 m ρ c) (Proc.devRef .tc main_v3) = _
  after_results_simp <;> rfl

/-- The per-edge normalisation, as a column. -/
theorem enorm_at1 : W1 m ρ c (Proc.devRef .tc main_v26) = (val_main_v26 (F := F) (m ((c : Thread nD τ).loc main_arg1))) := by
  show StableHlo.after hostOps0 (W0 m ρ c) (Proc.devRef .tc main_v26) = _
  after_results_simp <;> rfl

/-- The self-loop normalisation, as a column. -/
theorem snorm_at1 : W1 m ρ c (Proc.devRef .tc main_v28) = (val_main_v28 (F := F) (m ((c : Thread nD τ).loc main_arg1))) := by
  show StableHlo.after hostOps0 (W0 m ρ c) (Proc.devRef .tc main_v28) = _
  after_results_simp <;> rfl

/-- The token vector laid as a column. -/
theorem xcol_at1 : W1 m ρ c (Proc.devRef .tc main_v29) = shapeCast S20000x1 (m ((c : Thread nD τ).loc main_arg0)) shapeCasts_S20000_S20000x1 := by
  show StableHlo.after hostOps0 (W0 m ρ c) (Proc.devRef .tc main_v29) = _
  after_results_simp <;> rfl

theorem src_at4 : W4 m ρ c (Proc.devRef .tc main_v1) = (val_main_v1 (F := F) (m ((c : Thread nD τ).loc main_arg1))) :=
  (Carry.carry m ρ c main_v1 ⟨1, by decide⟩ ⟨4, by decide⟩ (by decide) (by decide +kernel)).trans (src_at1 m ρ c)
theorem dst_at4 : W4 m ρ c (Proc.devRef .tc main_v3) = (val_main_v3 (F := F) (m ((c : Thread nD τ).loc main_arg1))) :=
  (Carry.carry m ρ c main_v3 ⟨1, by decide⟩ ⟨4, by decide⟩ (by decide) (by decide +kernel)).trans (dst_at1 m ρ c)
theorem enorm_at4 : W4 m ρ c (Proc.devRef .tc main_v26) = (val_main_v26 (F := F) (m ((c : Thread nD τ).loc main_arg1))) :=
  (Carry.carry m ρ c main_v26 ⟨1, by decide⟩ ⟨4, by decide⟩ (by decide) (by decide +kernel)).trans (enorm_at1 m ρ c)

theorem src_at8 : W8 m ρ c (Proc.devRef .tc main_v1) = (val_main_v1 (F := F) (m ((c : Thread nD τ).loc main_arg1))) :=
  (Carry.carry m ρ c main_v1 ⟨1, by decide⟩ ⟨8, by decide⟩ (by decide) (by decide +kernel)).trans (src_at1 m ρ c)
theorem dst_at8 : W8 m ρ c (Proc.devRef .tc main_v3) = (val_main_v3 (F := F) (m ((c : Thread nD τ).loc main_arg1))) :=
  (Carry.carry m ρ c main_v3 ⟨1, by decide⟩ ⟨8, by decide⟩ (by decide) (by decide +kernel)).trans (dst_at1 m ρ c)
theorem enorm_at8 : W8 m ρ c (Proc.devRef .tc main_v26) = (val_main_v26 (F := F) (m ((c : Thread nD τ).loc main_arg1))) :=
  (Carry.carry m ρ c main_v26 ⟨1, by decide⟩ ⟨8, by decide⟩ (by decide) (by decide +kernel)).trans (enorm_at1 m ρ c)

theorem src_at12 : W12 m ρ c (Proc.devRef .tc main_v1) = (val_main_v1 (F := F) (m ((c : Thread nD τ).loc main_arg1))) :=
  (Carry.carry m ρ c main_v1 ⟨1, by decide⟩ ⟨12, by decide⟩ (by decide) (by decide +kernel)).trans (src_at1 m ρ c)
theorem dst_at12 : W12 m ρ c (Proc.devRef .tc main_v3) = (val_main_v3 (F := F) (m ((c : Thread nD τ).loc main_arg1))) :=
  (Carry.carry m ρ c main_v3 ⟨1, by decide⟩ ⟨12, by decide⟩ (by decide) (by decide +kernel)).trans (dst_at1 m ρ c)
theorem enorm_at12 : W12 m ρ c (Proc.devRef .tc main_v26) = (val_main_v26 (F := F) (m ((c : Thread nD τ).loc main_arg1))) :=
  (Carry.carry m ρ c main_v26 ⟨1, by decide⟩ ⟨12, by decide⟩ (by decide) (by decide +kernel)).trans (enorm_at1 m ρ c)

theorem snorm_at5 : W5 m ρ c (Proc.devRef .tc main_v28) = (val_main_v28 (F := F) (m ((c : Thread nD τ).loc main_arg1))) :=
  (Carry.carry m ρ c main_v28 ⟨1, by decide⟩ ⟨5, by decide⟩ (by decide) (by decide +kernel)).trans (snorm_at1 m ρ c)
theorem snorm_at9 : W9 m ρ c (Proc.devRef .tc main_v28) = (val_main_v28 (F := F) (m ((c : Thread nD τ).loc main_arg1))) :=
  (Carry.carry m ρ c main_v28 ⟨1, by decide⟩ ⟨9, by decide⟩ (by decide) (by decide +kernel)).trans (snorm_at1 m ρ c)
theorem snorm_at13 : W13 m ρ c (Proc.devRef .tc main_v28) = (val_main_v28 (F := F) (m ((c : Thread nD τ).loc main_arg1))) :=
  (Carry.carry m ρ c main_v28 ⟨1, by decide⟩ ⟨13, by decide⟩ (by decide) (by decide +kernel)).trans (snorm_at1 m ρ c)

/-! ## The zero bias row of the dense launches, and each layer's weight matrix -/

/-- The zero bias row. -/
theorem zrow_at3 : W3 m ρ c (Proc.devRef .tc main_v31) = broadcastInDim S1x256 ![] bcast_S_S1x256 (constant (F := F) S_ .f32 0x00000000#32) := by
  show StableHlo.after hostOps1 (W2 m ρ c) (Proc.devRef .tc main_v31) = _
  after_results_simp <;> rfl
theorem zrow_at7 : W7 m ρ c (Proc.devRef .tc main_v31) = broadcastInDim S1x256 ![] bcast_S_S1x256 (constant (F := F) S_ .f32 0x00000000#32) :=
  (Carry.carry m ρ c main_v31 ⟨3, by decide⟩ ⟨7, by decide⟩ (by decide) (by decide +kernel)).trans (zrow_at3 m ρ c)
theorem zrow_at11 : W11 m ρ c (Proc.devRef .tc main_v31) = broadcastInDim S1x256 ![] bcast_S_S1x256 (constant (F := F) S_ .f32 0x00000000#32) :=
  (Carry.carry m ρ c main_v31 ⟨3, by decide⟩ ⟨11, by decide⟩ (by decide) (by decide +kernel)).trans (zrow_at3 m ρ c)

/-- The layer's weight matrix: a slice of the stacked weights, reshaped. -/
theorem weights_at3 : W3 m ρ c (Proc.devRef .tc main_v33) = (val_main_v37 (F := F) (m ((c : Thread nD τ).loc main_arg4))) := by
  show StableHlo.after hostOps1 (W2 m ρ c) (Proc.devRef .tc main_v33) = _
  after_results_simp
  rw [arg4_at2 m ρ c]
  rfl

/-- The layer's weight matrix: a slice of the stacked weights, reshaped. -/
theorem weights_at7 : W7 m ρ c (Proc.devRef .tc main_v52) = (val_main_v61 (F := F) (m ((c : Thread nD τ).loc main_arg4))) := by
  show StableHlo.after hostOps3 (W6 m ρ c) (Proc.devRef .tc main_v52) = _
  after_results_simp
  rw [arg4_at6 m ρ c]
  rfl

/-- The layer's weight matrix: a slice of the stacked weights, reshaped. -/
theorem weights_at11 : W11 m ρ c (Proc.devRef .tc main_v71) = (val_main_v85 (F := F) (m ((c : Thread nD τ).loc main_arg4))) := by
  show StableHlo.after hostOps5 (W10 m ρ c) (Proc.devRef .tc main_v71) = _
  after_results_simp
  rw [arg4_at10 m ρ c]
  rfl

/-! ## A layer's aggregation: gather along the edges, scale, scatter-add to the targets; and its bias row -/

/-- Layer 0: the aggregated messages are the reference's, given that the layer's transformed features are. -/
theorem agg0_at5 (hhw : W4 m ρ c (Proc.devRef .tc main_v34) = (val_main_v38 (F := F) (m ((c : Thread nD τ).loc main_arg0)) (m ((c : Thread nD τ).loc main_arg3)) (m ((c : Thread nD τ).loc main_arg4)))) :
    W5 m ρ c (Proc.devRef .tc main_v46) = (val_main_v50 (F := F) (m ((c : Thread nD τ).loc main_arg0)) (m ((c : Thread nD τ).loc main_arg1)) (m ((c : Thread nD τ).loc main_arg3)) (m ((c : Thread nD τ).loc main_arg4))) := by
  show StableHlo.after hostOps2 (W4 m ρ c) (Proc.devRef .tc main_v46) = _
  after_results_simp
  rw [hhw, src_at4 m ρ c, dst_at4 m ρ c, enorm_at4 m ρ c]
  rfl

/-- Layer 0: the transformed features are still there after the aggregation stretch. -/
theorem hw0_at5 : W5 m ρ c (Proc.devRef .tc main_v34) = W4 m ρ c (Proc.devRef .tc main_v34) :=
  (Carry.carry m ρ c main_v34 ⟨4, by decide⟩ ⟨5, by decide⟩ (by decide) (by decide +kernel))

/-- Layer 0: the bias row, a slice of the stacked biases reshaped to one row. -/
theorem bias0_at5 : W5 m ρ c (Proc.devRef .tc main_v49)
    = shapeCast S1x256 (shapeCast S256 (extractStridedSlice S1x256 ![0, 0] (m ((c : Thread nD τ).loc main_arg5)) slices_S3x256_S1x256_0_0) shapeCasts_S1x256_S256) shapeCasts_S256_S1x256 := by
  show StableHlo.after hostOps2 (W4 m ρ c) (Proc.devRef .tc main_v49) = _
  after_results_simp
  rw [arg5_at4 m ρ c]
  rfl

/-- Layer 1: the aggregated messages are the reference's, given that the layer's transformed features are. -/
theorem agg1_at9 (hhw : W8 m ρ c (Proc.devRef .tc main_v53) = (val_main_v62 (F := F) (m ((c : Thread nD τ).loc main_arg0)) (m ((c : Thread nD τ).loc main_arg1)) (m ((c : Thread nD τ).loc main_arg3)) (m ((c : Thread nD τ).loc main_arg4)) (m ((c : Thread nD τ).loc main_arg5)))) :
    W9 m ρ c (Proc.devRef .tc main_v65) = (val_main_v74 (F := F) (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps4 (W8 m ρ c) (Proc.devRef .tc main_v65) = _
  after_results_simp
  rw [hhw, src_at8 m ρ c, dst_at8 m ρ c, enorm_at8 m ρ c]
  rfl

/-- Layer 1: the transformed features are still there after the aggregation stretch. -/
theorem hw1_at9 : W9 m ρ c (Proc.devRef .tc main_v53) = W8 m ρ c (Proc.devRef .tc main_v53) :=
  (Carry.carry m ρ c main_v53 ⟨8, by decide⟩ ⟨9, by decide⟩ (by decide) (by decide +kernel))

/-- Layer 1: the bias row, a slice of the stacked biases reshaped to one row. -/
theorem bias1_at9 : W9 m ρ c (Proc.devRef .tc main_v68)
    = shapeCast S1x256 (shapeCast S256 (extractStridedSlice S1x256 ![1, 0] (m ((c : Thread nD τ).loc main_arg5)) slices_S3x256_S1x256_1_0) shapeCasts_S1x256_S256) shapeCasts_S256_S1x256 := by
  show StableHlo.after hostOps4 (W8 m ρ c) (Proc.devRef .tc main_v68) = _
  after_results_simp
  rw [arg5_at8 m ρ c]
  rfl

/-- Layer 2: the aggregated messages are the reference's, given that the layer's transformed features are. -/
theorem agg2_at13 (hhw : W12 m ρ c (Proc.devRef .tc main_v72) = (val_main_v86 (F := F) (m ((c : Thread nD τ).loc main_arg0)) (m ((c : Thread nD τ).loc main_arg1)) (m ((c : Thread nD τ).loc main_arg3)) (m ((c : Thread nD τ).loc main_arg4)) (m ((c : Thread nD τ).loc main_arg5)))) :
    W13 m ρ c (Proc.devRef .tc main_v84) = (val_main_v98 (F := F) (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps6 (W12 m ρ c) (Proc.devRef .tc main_v84) = _
  after_results_simp
  rw [hhw, src_at12 m ρ c, dst_at12 m ρ c, enorm_at12 m ρ c]
  rfl

/-- Layer 2: the transformed features are still there after the aggregation stretch. -/
theorem hw2_at13 : W13 m ρ c (Proc.devRef .tc main_v72) = W12 m ρ c (Proc.devRef .tc main_v72) :=
  (Carry.carry m ρ c main_v72 ⟨12, by decide⟩ ⟨13, by decide⟩ (by decide) (by decide +kernel))

/-- Layer 2: the bias row, a slice of the stacked biases reshaped to one row. -/
theorem bias2_at13 : W13 m ρ c (Proc.devRef .tc main_v87)
    = shapeCast S1x256 (shapeCast S256 (extractStridedSlice S1x256 ![2, 0] (m ((c : Thread nD τ).loc main_arg5)) slices_S3x256_S1x256_2_0) shapeCasts_S1x256_S256) shapeCasts_S256_S1x256 := by
  show StableHlo.after hostOps6 (W12 m ρ c) (Proc.devRef .tc main_v87) = _
  after_results_simp
  rw [arg5_at12 m ρ c]
  rfl

/-! ## A launch's output is still there when the next launch reads it -/

theorem h0_at3 : W3 m ρ c (Proc.devRef .tc main_v30) = W2 m ρ c (Proc.devRef .tc main_v30) := (Carry.carry m ρ c main_v30 ⟨2, by decide⟩ ⟨3, by decide⟩ (by decide) (by decide +kernel))
theorem h1_at7 : W7 m ρ c (Proc.devRef .tc main_v50) = W6 m ρ c (Proc.devRef .tc main_v50) := (Carry.carry m ρ c main_v50 ⟨6, by decide⟩ ⟨7, by decide⟩ (by decide) (by decide +kernel))
theorem h2_at11 : W11 m ρ c (Proc.devRef .tc main_v69) = W10 m ρ c (Proc.devRef .tc main_v69) := (Carry.carry m ρ c main_v69 ⟨10, by decide⟩ ⟨11, by decide⟩ (by decide) (by decide +kernel))
theorem h3_at15 : W15 m ρ c (Proc.devRef .tc main_v88) = W14 m ρ c (Proc.devRef .tc main_v88) := (Carry.carry m ρ c main_v88 ⟨14, by decide⟩ ⟨15, by decide⟩ (by decide) (by decide +kernel))

/-! ## The head -/

/-- The head's first bias, reshaped to one row. -/
theorem hbias_at15 : W15 m ρ c (Proc.devRef .tc main_v89) = shapeCast S1x256 (m ((c : Thread nD τ).loc main_arg7)) shapeCasts_S256_S1x256 := by
  show StableHlo.after hostOps7 (W14 m ρ c) (Proc.devRef .tc main_v89) = _
  after_results_simp
  rw [arg7_at14 m ρ c]
  rfl

/-- The result: the head's projection, squeezed, summed per graph — the reference's, given that the head's hidden layer is. -/
theorem out_at17 (hh : W16 m ρ c (Proc.devRef .tc main_v90) = (val_main_v111 (F := F) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)))) :
    W17 m ρ c (Proc.devRef .tc main_v98) = (val_main_v119 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps8 (W16 m ρ c) (Proc.devRef .tc main_v98) = _
  after_results_simp
  rw [hh, arg8_at16 m ρ c, arg9_at16 m ρ c, arg2_at16 m ρ c]
  rfl

end Cert.KernelIdeal.Stage

end
-- ==== Proof.Spec.lean ====
/-
  The node-wise pieces of a three-layer graph convolution network, as functions of whole arrays over the extended
  reals, index by index.

  * the embedding as a sum of one-hot rows: row n of the result is the sum over the vocabulary of
    [token v is node n's token] times row v of the table; when node n's token lies in the vocabulary this is
    the table's row at that token;
  * a dense layer: row n times a weight matrix plus a bias row, and the same followed by max(., 0);
  * the combination of a layer: aggregated messages plus the node's own features scaled by its self-loop weight
    plus a bias row, and the same followed by max(., 0).
-/
import Idealize.ShloMosaic.PureOps.Ideal
import Idealize.ShloMosaic.Lib.ValueIdx

noncomputable section

namespace Cert.Spec

open Idealize.ShloMosaic Idealize.ShloMosaic.ValueIdx

/-- An array of two axes from a function of its two coordinates. -/
def ofCoords {α : Type} {n0 n1 : Nat} (f : Fin n0 → Fin n1 → α) : (⟨2, ![n0, n1]⟩ : Shape).Idx → α :=
  fun i => f ⟨(i 0).val, idx2_lt0 i⟩ ⟨(i 1).val, idx2_lt1 i⟩

theorem ofCoords_ix2 {α : Type} {n0 n1 : Nat} (f : Fin n0 → Fin n1 → α) (a : Fin n0) (b : Fin n1) :
    ofCoords f (ix2 a b) = f a b := rfl

theorem ofCoords_apply {α : Type} {n0 n1 : Nat} (f : Fin n0 → Fin n1 → α) (i : (⟨2, ![n0, n1]⟩ : Shape).Idx) :
    ofCoords f i = f ⟨(i 0).val, idx2_lt0 i⟩ ⟨(i 1).val, idx2_lt1 i⟩ := rfl

/-! ## The embedding as a sum of one-hot rows -/

/-- 1 when token `v` is node `n`'s token (compared as 32-bit words), else 0. -/
def hot (x : IVec ⟨2, ![20000, 1]⟩ 32) (n : Fin 20000) (v : Fin 100) : EReal :=
  if BitVec.ofNat 32 v.val = x (ix2 n (0 : Fin 1)) then 1 else 0

/-- Entry (n, d) of the embedding: the one-hot row of node n against column d of the table. -/
def embedAt (x : IVec ⟨2, ![20000, 1]⟩ 32) (w : FVec Ideal ⟨2, ![100, 256]⟩ .f32) (n : Fin 20000) (d : Fin 256) : EReal :=
  ∑ v : Fin 100, hot x n v * w (ix2 v d)

def embedSum (x : IVec ⟨2, ![20000, 1]⟩ 32) (w : FVec Ideal ⟨2, ![100, 256]⟩ .f32) : FVec Ideal ⟨2, ![20000, 256]⟩ .f32 :=
  ofCoords (embedAt x w)

/-- A token inside the vocabulary selects exactly its own row: every other term of the sum is 0 · w = 0. -/
theorem embedAt_of_lt (x : IVec ⟨2, ![20000, 1]⟩ 32) (w : FVec Ideal ⟨2, ![100, 256]⟩ .f32) (n : Fin 20000) (d : Fin 256)
    (t : Fin 100) (ht : x (ix2 n (0 : Fin 1)) = BitVec.ofNat 32 t.val) :
    embedAt x w n d = w (ix2 t d) := by
  unfold embedAt
  rw [Finset.sum_eq_single t]
  · unfold hot
    rw [if_pos ht.symm, one_mul]
  · intro v _ hv
    unfold hot
    rw [if_neg, zero_mul]
    intro e
    apply hv
    have := e.trans ht
    have h2 : (BitVec.ofNat 32 v.val).toNat = (BitVec.ofNat 32 t.val).toNat := congrArg BitVec.toNat this
    simp only [BitVec.toNat_ofNat] at h2
    have hv' := v.isLt
    have ht' := t.isLt
    apply Fin.ext
    omega
  · intro h
    exact absurd (Finset.mem_univ t) h

/-! ## A dense layer -/

/-- Entry (n, d): row n of `x` against column d of `w`, plus the bias row's entry d. -/
def denseAt (x : FVec Ideal ⟨2, ![20000, 256]⟩ .f32) (w : FVec Ideal ⟨2, ![256, 256]⟩ .f32) (b : FVec Ideal ⟨2, ![1, 256]⟩ .f32)
    (n : Fin 20000) (d : Fin 256) : EReal :=
  (∑ k : Fin 256, x (ix2 n k) * w (ix2 k d)) + b (ix2 (0 : Fin 1) d)

def dense (x : FVec Ideal ⟨2, ![20000, 256]⟩ .f32) (w : FVec Ideal ⟨2, ![256, 256]⟩ .f32) (b : FVec Ideal ⟨2, ![1, 256]⟩ .f32) :
    FVec Ideal ⟨2, ![20000, 256]⟩ .f32 :=
  ofCoords (denseAt x w b)

def denseRelu (x : FVec Ideal ⟨2, ![20000, 256]⟩ .f32) (w : FVec Ideal ⟨2, ![256, 256]⟩ .f32) (b : FVec Ideal ⟨2, ![1, 256]⟩ .f32) :
    FVec Ideal ⟨2, ![20000, 256]⟩ .f32 :=
  ofCoords fun n d => max (denseAt x w b n d) 0

/-! ## The combination of a graph convolution layer -/

/-- Entry (n, d): the aggregated messages, plus the node's own features times its self-loop weight, plus the bias. -/
def mixAt (agg hw : FVec Ideal ⟨2, ![20000, 256]⟩ .f32) (sn : FVec Ideal ⟨2, ![20000, 1]⟩ .f32) (b : FVec Ideal ⟨2, ![1, 256]⟩ .f32)
    (n : Fin 20000) (d : Fin 256) : EReal :=
  agg (ix2 n d) + hw (ix2 n d) * sn (ix2 n (0 : Fin 1)) + b (ix2 (0 : Fin 1) d)

def mix (agg hw : FVec Ideal ⟨2, ![20000, 256]⟩ .f32) (sn : FVec Ideal ⟨2, ![20000, 1]⟩ .f32) (b : FVec Ideal ⟨2, ![1, 256]⟩ .f32) :
    FVec Ideal ⟨2, ![20000, 256]⟩ .f32 :=
  ofCoords (mixAt agg hw sn b)

def mixRelu (agg hw : FVec Ideal ⟨2, ![20000, 256]⟩ .f32) (sn : FVec Ideal ⟨2, ![20000, 1]⟩ .f32) (b : FVec Ideal ⟨2, ![1, 256]⟩ .f32) :
    FVec Ideal ⟨2, ![20000, 256]⟩ .f32 :=
  ofCoords fun n d => max (mixAt agg hw sn b n d) 0

end Cert.Spec

end
-- ==== Proof.LibRowOps.lean ====
/-
  Row scatter-add and row gather, read at an index and compared across two operand heights.

  A scatter-add of rows into an array of N rows (scatter indices [E, 1], one node index per update row; jax's
  segment_sum and x.at[idx].add(u)) adds update row e to operand row idx[e] when 0 ≤ idx[e] < N, read as a signed
  integer, and drops it otherwise; a gather of rows (x[idx]) reads operand row idx[e] clamped into [0, N − 1].
  Hence, when every index lies in [0, N') with N' ≤ N, both operations on an N-row array and on an N'-row array
  whose rows are the first N' rows of the former agree: the gathers everywhere, the scatters on the first N' rows.
-/
import Idealize.ShloMosaic.PureOps.Ideal
import Idealize.ShloMosaic.Lib.ValueIdx

noncomputable section

namespace Cert.Lib.RowOps

open Idealize.ShloMosaic Idealize.ShloMosaic.ValueIdx

/-- Scatter rows of a vector: operand [N], scatter indices [E, 1], updates [E]. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter rows of a matrix: operand [N, D], scatter indices [E, 1], updates [E, D]. -/
abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Gather entries of a vector: operand [N], start indices [E, 1], result [E]. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather rows of a matrix: operand [N, D], start indices [E, 1], result [E, D]. -/
abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Every index of the column lies in [0, M). -/
def InRange {E w : Nat} (idx : IVec ⟨2, ![E, 1]⟩ w) (M : Nat) : Prop :=
  ∀ e : Fin E, 0 ≤ (idx (ix2 e (0 : Fin 1))).toInt ∧ (idx (ix2 e (0 : Fin 1))).toInt < (M : Int)

/-- The first N' entries of a agree with b. -/
def Agree1 {α : Type} {N N' : Nat} (h : N' ≤ N) (a : (⟨1, ![N]⟩ : Shape).Idx → α) (b : (⟨1, ![N']⟩ : Shape).Idx → α) : Prop :=
  ∀ n : Fin N', a (ix1 ⟨n.val, lt_of_lt_of_le n.isLt h⟩) = b (ix1 n)

/-- The first N' rows of A agree with B. -/
def Agree2 {α : Type} {N N' D : Nat} (h : N' ≤ N) (A : (⟨2, ![N, D]⟩ : Shape).Idx → α) (B : (⟨2, ![N', D]⟩ : Shape).Idx → α) : Prop :=
  ∀ (n : Fin N') (c : Fin D), A (ix2 ⟨n.val, lt_of_lt_of_le n.isLt h⟩ c) = B (ix2 n c)

/-! ## Read at an index -/

/-- Where an update lands: the operand index whose every coordinate is the start plus the window coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

/-- The scattered axis reads the index column, signed. -/
private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not scattered: its start is 0. -/
private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

/-- The row axis is inserted: no window coordinate. -/
private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

/-- The column axis is the window axis: its coordinate is the update's column. -/
private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

/-- Update (e, c') lands on (n, c) exactly when its index, read signed, is n and the columns agree. -/
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section Scat1
variable {N E w : Nat} (wf : ScatterDims.WF ⟨1, ![N]⟩ ⟨2, ![E, 1]⟩ ⟨1, ![E]⟩ [] [0] [0] 1)

/-- The scattered axis reads the index column, signed. -/
private theorem scat1_start0 (j : (⟨1, ![E]⟩ : Shape).Idx) (idx : IVec ⟨2, ![E, 1]⟩ w) :
    (scat1 N E wf).start j idx 0 = (idx (ix2 (j 0) (0 : Fin 1))).toInt := by
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: no window coordinate. -/
private theorem scat1_window0 (j : (⟨1, ![E]⟩ : Shape).Idx) :
    (scat1 N E wf).window j 0 = 0 := by
  unfold ScatterDims.window
  rw [dif_neg (show ¬ (0 : Fin 1) ∈ (scat1 N E wf).sKept by simp [ScatterDims.sKept, Shape.kept])]

/-- Update e lands on entry n exactly when its index, read signed, is n. -/
private theorem scat1_lands (e : Fin E) (n : Fin N) (idx : IVec ⟨2, ![E, 1]⟩ w) :
    (scat1 N E wf).resultIdx? (ix1 e) idx = some (ix1 n) ↔ (idx (ix2 e (0 : Fin 1))).toInt = (n.val : Int) := by
  rw [resultIdx?_eq_some_iff]
  constructor
  · intro hh
    have h0 := hh 0
    rw [scat1_start0, scat1_window0] at h0
    have h0' : (idx (ix2 e (0 : Fin 1))).toInt + ((0 : Nat) : Int) = (n.val : Int) := h0
    simpa using h0'
  · intro e0 a
    obtain rfl : a = 0 := Subsingleton.elim _ _
    rw [scat1_start0, scat1_window0]
    show (idx (ix2 e (0 : Fin 1))).toInt + ((0 : Nat) : Int) = (n.val : Int)
    simpa using e0

end Scat1

theorem scat1_apply {N E w : Nat} (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [scat1_lands]

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

theorem gath1_apply {α : Type} {N E w : Nat} (hN : 0 < N) (wf) (x : (⟨1, ![N]⟩ : Shape).Idx → α) (idx : IVec ⟨2, ![E, 1]⟩ w) (e : Fin E) :
    Host.gather (gath1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

/-! ## Two operand heights, every index below the smaller -/

/-- An index in [0, M) with M at most K is its own clamp into [0, K − 1]. -/
private theorem clamp_eq {t : Int} {M K : Nat} (h0 : 0 ≤ t) (h1 : t < (M : Int)) (hMK : M ≤ K) :
    min t.toNat (K - 1) = t.toNat := by
  omega

theorem gath1_agree {α : Type} {N N' E w : Nat} (h : N' ≤ N) (hN' : 0 < N') (wf) (wf')
    (a : (⟨1, ![N]⟩ : Shape).Idx → α) (b : (⟨1, ![N']⟩ : Shape).Idx → α) (hab : Agree1 h a b)
    (idx : IVec ⟨2, ![E, 1]⟩ w) (hr : InRange idx N') :
    Host.gather (gath1 N E wf) a idx = Host.gather (gath1 N' E wf') b idx := by
  funext j
  obtain ⟨e, rfl⟩ : ∃ e, j = ix1 e := ⟨j 0, eq_ix1 j⟩
  rw [gath1_apply (lt_of_lt_of_le hN' h), gath1_apply hN']
  obtain ⟨h0, h1⟩ := hr e
  have key : ∀ (p q : Nat) (hp : p < N) (hq : q < N'), p = q → a (ix1 ⟨p, hp⟩) = b (ix1 ⟨q, hq⟩) := by
    intro p q hp hq hpq
    subst hpq
    exact hab ⟨p, hq⟩
  exact key _ _ _ _ ((clamp_eq h0 h1 h).trans (clamp_eq h0 h1 le_rfl).symm)

theorem gath2_agree {α : Type} {N N' D E w : Nat} (h : N' ≤ N) (hN' : 0 < N') (wf) (wf')
    (A : (⟨2, ![N, D]⟩ : Shape).Idx → α) (B : (⟨2, ![N', D]⟩ : Shape).Idx → α) (hAB : Agree2 h A B)
    (idx : IVec ⟨2, ![E, 1]⟩ w) (hr : InRange idx N') :
    Host.gather (gath2 N D E wf) A idx = Host.gather (gath2 N' D E wf') B idx := by
  funext j
  obtain ⟨e, c, rfl⟩ : ∃ e c, j = ix2 e c := ⟨j 0, j 1, eq_ix2 j⟩
  rw [gath2_apply (lt_of_lt_of_le hN' h), gath2_apply hN']
  obtain ⟨h0, h1⟩ := hr e
  have key : ∀ (p q : Nat) (hp : p < N) (hq : q < N'), p = q → A (ix2 ⟨p, hp⟩ c) = B (ix2 ⟨q, hq⟩ c) := by
    intro p q hp hq hpq
    subst hpq
    exact hAB ⟨p, hq⟩ c
  exact key _ _ _ _ ((clamp_eq h0 h1 h).trans (clamp_eq h0 h1 le_rfl).symm)

theorem scat1_agree {N N' E w : Nat} (h : N' ≤ N) (wf) (wf')
    (x : (⟨1, ![N]⟩ : Shape).Idx → EReal) (x' : (⟨1, ![N']⟩ : Shape).Idx → EReal) (hx : Agree1 h x x')
    (idx : IVec ⟨2, ![E, 1]⟩ w) (upd : (⟨1, ![E]⟩ : Shape).Idx → EReal) :
    Agree1 h (Ideal.hostScatterAdd (scat1 N E wf) x idx upd) (Ideal.hostScatterAdd (scat1 N' E wf') x' idx upd) := by
  intro n
  rw [scat1_apply, scat1_apply, hx n]

theorem scat2_agree {N N' D E w : Nat} (h : N' ≤ N) (wf) (wf')
    (x : (⟨2, ![N, D]⟩ : Shape).Idx → EReal) (x' : (⟨2, ![N', D]⟩ : Shape).Idx → EReal) (hx : Agree2 h x x')
    (idx : IVec ⟨2, ![E, 1]⟩ w) (upd : (⟨2, ![E, D]⟩ : Shape).Idx → EReal) :
    Agree2 h (Ideal.hostScatterAdd (scat2 N D E wf) x idx upd) (Ideal.hostScatterAdd (scat2 N' D E wf') x' idx upd) := by
  intro n c
  rw [scat2_apply, scat2_apply, hx n c]

end Cert.Lib.RowOps

end
-- ==== Proof.RefLaws.lean ====
/-
  The specification's node-wise functions are the reference's own compositions of host operations, as whole arrays
  over the extended reals:
  * the sum of one-hot rows is the reference's row gather of the table at the (wrapped, clamped) tokens, when every token
    lies in the vocabulary [0, 100);
  * a dense layer with a zero bias row is the reference's dot_general; with a bias it is dot_general plus the broadcast
    bias, and max(., 0) of it is the reference's maximum against a zero array;
  * the combination is the reference's  aggregated + own * broadcast(self-loop weight) + broadcast bias  (and its maximum
    against zero).
-/
import proofs.«401411_j7164005449946_1_alg».proof.Proof.Gen.ReferenceIdeal.Read
import proofs.«401411_j7164005449946_1_alg».proof.Proof.Spec
import proofs.«401411_j7164005449946_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.RefLaws

open Cert.ReferenceIdeal Cert.ReferenceIdeal.Gen

/-! ## Words -/

/-- A 32-bit word whose signed value lies in [0, 100) has that value as its unsigned value. -/
private theorem word_small {a : BitVec 32} (h0 : 0 ≤ a.toInt) (h1 : a.toInt < 100) :
    a.toNat < 100 ∧ a.toInt = (a.toNat : Int) := by
  have hc := BitVec.toInt_eq_toNat_cond a
  have hl := a.isLt
  split_ifs at hc with h
  · omega
  · omega

/-- A word whose signed value is not negative is not below zero in the signed order: the comparison's bit is 0. -/
private theorem slt_zero_bit {a : BitVec 32} (h0 : 0 ≤ a.toInt) : IntOp.cmpi .slt a 0#32 = 0#1 := by
  have hf : a.slt 0#32 = false := by
    simp only [BitVec.slt, BitVec.toInt_zero, decide_eq_false_iff_not, not_lt]
    exact h0
  show BitVec.ofBool (a.slt 0#32) = 0#1
  rw [hf]
  rfl

/-! ## The reference's operations read at an index -/

/-- The reference's dot_general at (n, d): row n of the left operand against column d of the right. -/
theorem dot_apply (x : FVec Ideal S20000x256 .f32) (w : FVec Ideal S256x256 .f32) (n : Fin 20000) (d : Fin 256) :
    Host.dotGeneral (F := Ideal) dot_S20000x256_S256x256_S20000x256_1_0_0_1_n_n none x w (ix2 n d)
      = ∑ k : Fin 256, x (ix2 n k) * w (ix2 k d) := by
  simp only [Host.dotGeneral]
  rw [Ideal.dotGeneral_apply, ← Equiv.sum_comp (ValueIdx.contrEquiv1 dot_S20000x256_S256x256_S20000x256_1_0_0_1_n_n 256 rfl rfl).symm]
  refine Finset.sum_congr rfl fun k _ => ?_
  have hk := ValueIdx.contrEquiv1_symm_val dot_S20000x256_S256x256_S20000x256_1_0_0_1_n_n 256 rfl rfl k
  have el : dot_S20000x256_S256x256_S20000x256_1_0_0_1_n_n.lhsIdx (ix2 n d)
      ((ValueIdx.contrEquiv1 dot_S20000x256_S256x256_S20000x256_1_0_0_1_n_n 256 rfl rfl).symm k) = ix2 n k :=
    funext fun a => Fin.ext (by
      match a with
      | ⟨0, _⟩ => exact Cert.ReferenceIdeal.Read.lhs_main_v38_0 _ _
      | ⟨1, _⟩ => exact (Cert.ReferenceIdeal.Read.lhs_main_v38_1 _ _).trans hk)
  have er : dot_S20000x256_S256x256_S20000x256_1_0_0_1_n_n.rhsIdx (ix2 n d)
      ((ValueIdx.contrEquiv1 dot_S20000x256_S256x256_S20000x256_1_0_0_1_n_n 256 rfl rfl).symm k) = ix2 k d :=
    funext fun a => Fin.ext (by
      match a with
      | ⟨0, _⟩ => exact (Cert.ReferenceIdeal.Read.rhs_main_v38_0 _ _).trans hk
      | ⟨1, _⟩ => exact Cert.ReferenceIdeal.Read.rhs_main_v38_1 _ _)
  rw [el, er]

/-- A column laid over 256 columns, read at (n, d), is the column's entry n. -/
theorem bcol_apply {α : Type} (sn : S20000x1.Idx → α) (n : Fin 20000) (d : Fin 256) :
    broadcastInDim S20000x256 ![0, 1] bcast_S20000x1_S20000x256_0_1 sn (ix2 n d) = sn (ix2 n (0 : Fin 1)) :=
  broadcastInDim_apply _ bcast_S20000x1_S20000x256_0_1 sn (ix2 n d) (ix2 n (0 : Fin 1)) (fun a => match a with
    | ⟨0, _⟩ => by show n.val = if (20000 : Nat) = 1 then 0 else n.val; rw [if_neg (by decide)]
    | ⟨1, _⟩ => by show 0 = if (1 : Nat) = 1 then 0 else d.val; rw [if_pos rfl])

/-- The wrapped token column at (n, 0) is the token itself when the token is not negative. -/
private theorem tokens_apply (x0 : IVec S20000 32) (n : Fin 20000) (h0 : 0 ≤ (x0 (ix1 n)).toInt) :
    Cert.ReferenceIdeal.Read.val_main_v34 (F := Ideal) x0 (ix2 n (0 : Fin 1)) = x0 (ix1 n) := by
  rw [Cert.ReferenceIdeal.Read.val_main_v34_apply]
  have e : Cert.ReferenceIdeal.Read.idx_main_v34 (ix2 n (0 : Fin 1)) = ix1 n := by
    funext a; match a with | ⟨0, _⟩ => rfl
  rw [e, Cert.ReferenceIdeal.Read.val_main_v33_apply, Cert.ReferenceIdeal.Read.val_main_v30_apply,
    Cert.ReferenceIdeal.Read.val_main_v29_apply, Cert.ReferenceIdeal.Read.val_main_c_5_apply,
    slt_zero_bit h0, select_zero]

/-! ## The five laws -/

/-- The embedding. `xcol` is the token vector laid as a column; every token lies in the vocabulary. -/
theorem embed_eq (x0 : IVec S20000 32) (w : FVec Ideal S100x256 .f32) (xcol : IVec S20000x1 32)
    (hcol : ∀ n : Fin 20000, xcol (ix2 n (0 : Fin 1)) = x0 (ix1 n))
    (hx : ∀ n : Fin 20000, 0 ≤ (x0 (ix1 n)).toInt ∧ (x0 (ix1 n)).toInt < 100) :
    Cert.Spec.embedSum xcol w = Cert.ReferenceIdeal.Read.val_main_v35 (F := Ideal) x0 w := by
  funext i
  obtain ⟨n, d, rfl⟩ : ∃ n d, i = ix2 n d := ⟨i 0, i 1, eq_ix2 i⟩
  obtain ⟨h0, h1⟩ := hx n
  obtain ⟨hnat, hint⟩ := word_small h0 h1
  have ht : xcol (ix2 n (0 : Fin 1)) = BitVec.ofNat 32 (x0 (ix1 n)).toNat := by
    rw [hcol n]
    apply BitVec.eq_of_toNat_eq
    rw [BitVec.toNat_ofNat]
    exact (Nat.mod_eq_of_lt (x0 (ix1 n)).isLt).symm
  unfold Cert.Spec.embedSum
  rw [Cert.Spec.ofCoords_ix2, Cert.Spec.embedAt_of_lt xcol w n d ⟨(x0 (ix1 n)).toNat, hnat⟩ ht]
  unfold Cert.ReferenceIdeal.Read.val_main_v35
  show _ = Host.gather (Cert.Lib.RowOps.gath2 100 256 20000 Facts₀.gather_S100x256_S20000x1_S20000x256_1_0_n_n_0_1_1256_wf) w
      (Cert.ReferenceIdeal.Read.val_main_v34 (F := Ideal) x0) (ix2 n d)
  rw [Cert.Lib.RowOps.gath2_apply (by decide)]
  have key : ∀ (p q : Nat) (hp : p < 100) (hq : q < 100), p = q → w (ix2 ⟨p, hp⟩ d) = w (ix2 ⟨q, hq⟩ d) := by
    intro p q hp hq hpq
    subst hpq
    rfl
  exact key _ _ _ _ (by rw [tokens_apply x0 n h0]; omega)

/-- A dense layer whose bias row is zero is the reference's dot_general. -/
theorem dense_eq (x : FVec Ideal S20000x256 .f32) (w : FVec Ideal S256x256 .f32) (z : FVec Ideal S1x256 .f32)
    (hz : ∀ d : Fin 256, z (ix2 (0 : Fin 1) d) = 0) :
    Cert.Spec.dense x w z = Host.dotGeneral (F := Ideal) dot_S20000x256_S256x256_S20000x256_1_0_0_1_n_n none x w := by
  funext i
  obtain ⟨n, d, rfl⟩ : ∃ n d, i = ix2 n d := ⟨i 0, i 1, eq_ix2 i⟩
  unfold Cert.Spec.dense
  rw [Cert.Spec.ofCoords_ix2, dot_apply]
  unfold Cert.Spec.denseAt
  rw [hz d, add_zero]

/-- A dense layer followed by max(., 0): the reference's dot_general plus the bias laid over the rows, against a zero array.
    `bR` is the bias laid over all rows, `zr` a zero array. -/
theorem denseRelu_eq (x : FVec Ideal S20000x256 .f32) (w : FVec Ideal S256x256 .f32) (bK : FVec Ideal S1x256 .f32)
    (bR : FVec Ideal S20000x256 .f32) (hb : ∀ (n : Fin 20000) (d : Fin 256), bR (ix2 n d) = bK (ix2 (0 : Fin 1) d))
    (zr : FVec Ideal S20000x256 .f32) (hzr : ∀ i, zr i = 0) :
    Cert.Spec.denseRelu x w bK
      = maximumf (addf (Host.dotGeneral (F := Ideal) dot_S20000x256_S256x256_S20000x256_1_0_0_1_n_n none x w) bR) zr := by
  funext i
  obtain ⟨n, d, rfl⟩ : ∃ n d, i = ix2 n d := ⟨i 0, i 1, eq_ix2 i⟩
  unfold Cert.Spec.denseRelu
  rw [Cert.Spec.ofCoords_ix2, maximumf_apply, addf_apply, dot_apply, hb n d, hzr]
  rfl

/-- The combination of a layer, as the reference composes it. -/
theorem mix_eq (agg hw : FVec Ideal S20000x256 .f32) (sn : FVec Ideal S20000x1 .f32) (bK : FVec Ideal S1x256 .f32)
    (bR : FVec Ideal S20000x256 .f32) (hb : ∀ (n : Fin 20000) (d : Fin 256), bR (ix2 n d) = bK (ix2 (0 : Fin 1) d)) :
    Cert.Spec.mix agg hw sn bK
      = addf (addf agg (mulf hw (broadcastInDim S20000x256 ![0, 1] bcast_S20000x1_S20000x256_0_1 sn))) bR := by
  funext i
  obtain ⟨n, d, rfl⟩ : ∃ n d, i = ix2 n d := ⟨i 0, i 1, eq_ix2 i⟩
  unfold Cert.Spec.mix
  rw [Cert.Spec.ofCoords_ix2, addf_apply, addf_apply, mulf_apply, bcol_apply, hb n d]
  rfl

/-- The combination followed by max(., 0), as the reference composes it. -/
theorem mixRelu_eq (agg hw : FVec Ideal S20000x256 .f32) (sn : FVec Ideal S20000x1 .f32) (bK : FVec Ideal S1x256 .f32)
    (bR : FVec Ideal S20000x256 .f32) (hb : ∀ (n : Fin 20000) (d : Fin 256), bR (ix2 n d) = bK (ix2 (0 : Fin 1) d))
    (zr : FVec Ideal S20000x256 .f32) (hzr : ∀ i, zr i = 0) :
    Cert.Spec.mixRelu agg hw sn bK
      = maximumf (addf (addf agg (mulf hw (broadcastInDim S20000x256 ![0, 1] bcast_S20000x1_S20000x256_0_1 sn))) bR) zr := by
  funext i
  obtain ⟨n, d, rfl⟩ : ∃ n d, i = ix2 n d := ⟨i 0, i 1, eq_ix2 i⟩
  unfold Cert.Spec.mixRelu
  rw [Cert.Spec.ofCoords_ix2, maximumf_apply, addf_apply, addf_apply, mulf_apply, bcol_apply, hb n d, hzr]
  rfl

end Cert.RefLaws

end
-- ==== Proof.RowFacts.lean ====
/-
  Small facts about rows and columns, read at an index: a layer's bias row on both sides is the same row of the stacked
  biases; the head's bias; the zero arrays; the token vector laid as a column.
-/
import proofs.«401411_j7164005449946_1_alg».proof.Proof.Gen.KernelIdeal
import proofs.«401411_j7164005449946_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.RowFacts

/-! ## The reference's side (its stages as the generated reading module names them) -/

section Reference
open Cert.ReferenceIdeal Cert.ReferenceIdeal.Gen Cert.ReferenceIdeal.Read
variable {F : FTy → Type} [FloatOps F]

/-- Layer 0's bias laid over all rows: entry (n, d) is row 0 of the stacked biases at d. -/
theorem rbias0 (x5 : FVec F S3x256 .f32) (n : Fin 20000) (d : Fin 256) :
    val_main_v57 (F := F) x5 (ix2 n d) = x5 (ix2 (0 : Fin 3) d) := by
  rw [val_main_v57_apply, val_main_v56_apply, val_main_v55_apply, val_main_v54_apply]
  refine congrArg x5 (funext fun a => Fin.ext ?_)
  match a with
  | ⟨0, _⟩ => rfl
  | ⟨1, _⟩ => exact Nat.mod_eq_of_lt d.isLt
theorem rbias1 (x5 : FVec F S3x256 .f32) (n : Fin 20000) (d : Fin 256) :
    val_main_v81 (F := F) x5 (ix2 n d) = x5 (ix2 (1 : Fin 3) d) := by
  rw [val_main_v81_apply, val_main_v80_apply, val_main_v79_apply, val_main_v78_apply]
  refine congrArg x5 (funext fun a => Fin.ext ?_)
  match a with
  | ⟨0, _⟩ => rfl
  | ⟨1, _⟩ => exact Nat.mod_eq_of_lt d.isLt
theorem rbias2 (x5 : FVec F S3x256 .f32) (n : Fin 20000) (d : Fin 256) :
    val_main_v105 (F := F) x5 (ix2 n d) = x5 (ix2 (2 : Fin 3) d) := by
  rw [val_main_v105_apply, val_main_v104_apply, val_main_v103_apply, val_main_v102_apply]
  refine congrArg x5 (funext fun a => Fin.ext ?_)
  match a with
  | ⟨0, _⟩ => rfl
  | ⟨1, _⟩ => exact Nat.mod_eq_of_lt d.isLt
/-- The head's bias laid over all rows. -/
theorem rhbias (x7 : FVec F S256 .f32) (n : Fin 20000) (d : Fin 256) :
    val_main_v109 (F := F) x7 (ix2 n d) = x7 (ix1 d) := by
  rw [val_main_v109_apply, val_main_v108_apply]
  refine congrArg x7 (funext fun a => Fin.ext ?_)
  match a with
  | ⟨0, _⟩ => rfl
/-- The zero arrays the reference's max(., 0) compares with. -/
theorem rzero0 (i : S20000x256.Idx) : val_main_call0_v0 (F := Ideal) i = 0 := by
  rw [val_main_call0_v0_apply, val_main_call0_cst_apply]
  exact Ideal.ofBits_zero_f32
theorem rzero1 (i : S20000x256.Idx) : val_main_call1_v0 (F := Ideal) i = 0 := by
  rw [val_main_call1_v0_apply, val_main_call1_cst_apply]
  exact Ideal.ofBits_zero_f32
theorem rzero2 (i : S20000x256.Idx) : val_main_call2_v0 (F := Ideal) i = 0 := by
  rw [val_main_call2_v0_apply, val_main_call2_cst_apply]
  exact Ideal.ofBits_zero_f32
end Reference

/-! ## The kernel program's side (its host operations' terms) -/

section Kernel
open Cert.KernelIdeal Cert.KernelIdeal.Gen
variable {F : FTy → Type} [FloatOps F]

/-- A layer's bias row: a one-row slice of the stacked biases, reshaped to a vector and back to one row. -/
theorem kbias0 (x5 : FVec F S3x256 .f32) (d : Fin 256) :
    shapeCast S1x256 (shapeCast S256 (extractStridedSlice S1x256 ![0, 0] x5 slices_S3x256_S1x256_0_0) shapeCasts_S1x256_S256) shapeCasts_S256_S1x256 (ix2 (0 : Fin 1) d)
      = x5 (ix2 (0 : Fin 3) d) := by
  rw [shapeCast_shapeCast]
  exact extractStridedSlice_apply ![0, 0] x5 slices_S3x256_S1x256_0_0 (ix2 (0 : Fin 1) d) (ix2 (0 : Fin 3) d) (fun a => match a with
    | ⟨0, _⟩ => by show 0 = 0 + 0; rfl
    | ⟨1, _⟩ => by show d.val = 0 + d.val; omega)
theorem kbias1 (x5 : FVec F S3x256 .f32) (d : Fin 256) :
    shapeCast S1x256 (shapeCast S256 (extractStridedSlice S1x256 ![1, 0] x5 slices_S3x256_S1x256_1_0) shapeCasts_S1x256_S256) shapeCasts_S256_S1x256 (ix2 (0 : Fin 1) d)
      = x5 (ix2 (1 : Fin 3) d) := by
  rw [shapeCast_shapeCast]
  exact extractStridedSlice_apply ![1, 0] x5 slices_S3x256_S1x256_1_0 (ix2 (0 : Fin 1) d) (ix2 (1 : Fin 3) d) (fun a => match a with
    | ⟨0, _⟩ => by show 1 = 1 + 0; rfl
    | ⟨1, _⟩ => by show d.val = 0 + d.val; omega)
theorem kbias2 (x5 : FVec F S3x256 .f32) (d : Fin 256) :
    shapeCast S1x256 (shapeCast S256 (extractStridedSlice S1x256 ![2, 0] x5 slices_S3x256_S1x256_2_0) shapeCasts_S1x256_S256) shapeCasts_S256_S1x256 (ix2 (0 : Fin 1) d)
      = x5 (ix2 (2 : Fin 3) d) := by
  rw [shapeCast_shapeCast]
  exact extractStridedSlice_apply ![2, 0] x5 slices_S3x256_S1x256_2_0 (ix2 (0 : Fin 1) d) (ix2 (2 : Fin 3) d) (fun a => match a with
    | ⟨0, _⟩ => by show 2 = 2 + 0; rfl
    | ⟨1, _⟩ => by show d.val = 0 + d.val; omega)
/-- The head's bias reshaped to one row. -/
theorem khbias (x7 : FVec F S256 .f32) (d : Fin 256) :
    shapeCast S1x256 x7 shapeCasts_S256_S1x256 (ix2 (0 : Fin 1) d) = x7 (ix1 d) := by
  exact shapeCast_apply x7 shapeCasts_S256_S1x256 (ix2 (0 : Fin 1) d) (ix1 d)
    (by rewrite [Shape.rowMajor_val_two, Shape.rowMajor_val_one]; show d.val = 0 * 256 + d.val; omega)
/-- The zero bias row of the dense launches. -/
theorem kzrow (d : Fin 256) :
    broadcastInDim S1x256 ![] bcast_S_S1x256 (constant (F := Ideal) S_ .f32 0x00000000#32) (ix2 (0 : Fin 1) d) = 0 := by
  exact (broadcastInDim_apply _ bcast_S_S1x256 _ (ix2 (0 : Fin 1) d) ix0 (fun a => a.elim0)).trans Ideal.ofBits_zero_f32
/-- The token vector reshaped to a column. -/
theorem kxcol (x0 : IVec S20000 32) (n : Fin 20000) :
    shapeCast S20000x1 x0 shapeCasts_S20000_S20000x1 (ix2 n (0 : Fin 1)) = x0 (ix1 n) := by
  exact shapeCast_apply x0 shapeCasts_S20000_S20000x1 (ix2 n (0 : Fin 1)) (ix1 n)
    (by rewrite [Shape.rowMajor_val_two, Shape.rowMajor_val_one]; show n.val = n.val * 1 + 0; omega)
end Kernel

end Cert.RowFacts

end
-- ==== Proof.Embed0.lean ====
/-
  The embedding launch (2000 nodes per grid point): the whole output array is the sum of one-hot rows of the token column against the whole table.
-/
import proofs.«401411_j7164005449946_1_alg».proof.Proof.Gen.KernelIdeal.Frame
import proofs.«401411_j7164005449946_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Embed0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## One entry of the one-hot matrix -/

/-- A comparison bit widened to a word and read as a signed integer is 1 when the two words are equal and 0 otherwise. -/
theorem hot_scalar (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · rw [if_pos h]
    have e : IntOp.cmpi .eq a b = 1#1 := by simp [IntOp.cmpi, h]
    rw [e]
    have e2 : ((1#1 : BitVec 1).setWidth 32).toInt = 1 := by decide
    rw [e2]
    simp
  · rw [if_neg h]
    have e : IntOp.cmpi .eq a b = 0#1 := by
      show BitVec.ofBool (a == b) = 0#1
      rw [beq_eq_false_iff_ne.mpr h]
      rfl
    rw [e]
    have e2 : ((0#1 : BitVec 1).setWidth 32).toInt = 0 := by decide
    rw [e2]
    simp

/-! ## The contraction of the one-hot matrix against the table, at an entry -/

theorem lhs_0 (i : S2000x256.Idx) (q : Cert.KernelIdeal.dot_S2000x100_S100x256_S2000x256_1_0_0_1_n_n.contr.Idx) :
    (Cert.KernelIdeal.dot_S2000x100_S100x256_S2000x256_1_0_0_1_n_n.lhsIdx i q 0).val = (i 0).val := by
  unfold DotDims.lhsIdx
  rw [dif_neg (show ¬(0 : Fin S2000x100.rank) ∈ Cert.KernelIdeal.dot_S2000x100_S100x256_S2000x256_1_0_0_1_n_n.lhsBatch by decide), dif_pos (show (0 : Fin S2000x100.rank) ∈ Cert.KernelIdeal.dot_S2000x100_S100x256_S2000x256_1_0_0_1_n_n.lhsNonContracting by decide)]
  rfl
theorem lhs_1 (i : S2000x256.Idx) (q : Cert.KernelIdeal.dot_S2000x100_S100x256_S2000x256_1_0_0_1_n_n.contr.Idx) :
    (Cert.KernelIdeal.dot_S2000x100_S100x256_S2000x256_1_0_0_1_n_n.lhsIdx i q 1).val = (q ⟨0, by decide⟩).val :=
  Cert.KernelIdeal.dot_S2000x100_S100x256_S2000x256_1_0_0_1_n_n.lhsIdx_val_of_single rfl i q
theorem rhs_0 (i : S2000x256.Idx) (q : Cert.KernelIdeal.dot_S2000x100_S100x256_S2000x256_1_0_0_1_n_n.contr.Idx) :
    (Cert.KernelIdeal.dot_S2000x100_S100x256_S2000x256_1_0_0_1_n_n.rhsIdx i q 0).val = (q ⟨0, by decide⟩).val :=
  Cert.KernelIdeal.dot_S2000x100_S100x256_S2000x256_1_0_0_1_n_n.rhsIdx_val_of_single rfl i q
theorem rhs_1 (i : S2000x256.Idx) (q : Cert.KernelIdeal.dot_S2000x100_S100x256_S2000x256_1_0_0_1_n_n.contr.Idx) :
    (Cert.KernelIdeal.dot_S2000x100_S100x256_S2000x256_1_0_0_1_n_n.rhsIdx i q 1).val = (i 1).val := by
  unfold DotDims.rhsIdx
  rw [dif_neg (show ¬(1 : Fin S100x256.rank) ∈ Cert.KernelIdeal.dot_S2000x100_S100x256_S2000x256_1_0_0_1_n_n.rhsBatch by decide), dif_pos (show (1 : Fin S100x256.rank) ∈ Cert.KernelIdeal.dot_S2000x100_S100x256_S2000x256_1_0_0_1_n_n.rhsNonContracting by decide)]
  rfl

/-- A product of a [2000,100] matrix and a [100,256] matrix into a zero accumulator, at entry (r, d): the sum over the
    100 contracted positions. -/
theorem matmul_at (A : FVec Ideal S2000x100 .bf16) (B : FVec Ideal S100x256 .bf16) (r : Fin 2000) (d : Fin 256) :
    FloatOps.matmul Cert.KernelIdeal.dot_S2000x100_S100x256_S2000x256_1_0_0_1_n_n none A B (constant (F := Ideal) S2000x256 .f32 0x00000000#32) (ix2 r d)
      = ∑ k : Fin 100, A (ix2 r k) * B (ix2 k d) := by
  rw [Ideal.matmul_constant_zero_apply, ← Equiv.sum_comp (ValueIdx.contrEquiv1 Cert.KernelIdeal.dot_S2000x100_S100x256_S2000x256_1_0_0_1_n_n 100 rfl rfl).symm]
  refine Finset.sum_congr rfl fun k _ => ?_
  have hk := ValueIdx.contrEquiv1_symm_val Cert.KernelIdeal.dot_S2000x100_S100x256_S2000x256_1_0_0_1_n_n 100 rfl rfl k
  have el : Cert.KernelIdeal.dot_S2000x100_S100x256_S2000x256_1_0_0_1_n_n.lhsIdx (ix2 r d) ((ValueIdx.contrEquiv1 Cert.KernelIdeal.dot_S2000x100_S100x256_S2000x256_1_0_0_1_n_n 100 rfl rfl).symm k) = ix2 r k := funext fun a => Fin.ext (by
    match a with
    | ⟨0, _⟩ => exact lhs_0 _ _
    | ⟨1, _⟩ => exact (lhs_1 _ _).trans hk)
  have er : Cert.KernelIdeal.dot_S2000x100_S100x256_S2000x256_1_0_0_1_n_n.rhsIdx (ix2 r d) ((ValueIdx.contrEquiv1 Cert.KernelIdeal.dot_S2000x100_S100x256_S2000x256_1_0_0_1_n_n 100 rfl rfl).symm k) = ix2 k d := funext fun a => Fin.ext (by
    match a with
    | ⟨0, _⟩ => exact (rhs_0 _ _).trans hk
    | ⟨1, _⟩ => exact rhs_1 _ _)
  rw [el, er]

/-- The one-hot matrix at (r, k): 1 when k, as a 32-bit word, is row r's token, else 0. -/
theorem onehot_at (v0 : Vec Ideal S2000x1 .i32) (r : Fin 2000) (k : Fin 100) :
    (truncf .bf16 (sitofp (F := Ideal) .f32 (extui 32 (cmpi .eq (iota .tc S2000x100 32 [1] iota_S2000x100_d1_w32)
        (broadcastTo S2000x100 (shapeCast S2000x1 v0 shapeCasts_S2000x1_S2000x1) broadcasts_S2000x1_S2000x100)) natLt_1_32)) bitsLt_bf16_f32
        : FVec Ideal S2000x100 .bf16) (ix2 r k)
      = if BitVec.ofNat 32 k.val = v0 (ix2 r (0 : Fin 1)) then (1 : EReal) else 0 := by
  show FloatOps.sitofp (F := Ideal) .f32 ((IntOp.cmpi .eq (iota .tc S2000x100 32 [1] iota_S2000x100_d1_w32 (ix2 r k))
        (broadcastTo S2000x100 (shapeCast S2000x1 v0 shapeCasts_S2000x1_S2000x1) broadcasts_S2000x1_S2000x100 (ix2 r k))).setWidth 32) = _
  rw [hot_scalar, iota_single_apply, shapeCast_self,
    broadcastTo_apply v0 broadcasts_S2000x1_S2000x100 (ix2 r k) (ix2 r (0 : Fin 1)) (fun a => by
      match a with
      | ⟨0, _⟩ => rfl
      | ⟨1, _⟩ => rfl)]

/-- The body's arithmetic at entry (r, d) of a block: the sum over the vocabulary of
    [token v is row r's token] times the table's entry (v, d). -/
theorem pay_at (v0 : Vec Ideal S2000x1 .i32) (v8 : Vec Ideal S100x256 .f32) (r : Fin 2000) (d : Fin 256) :
    k0_pay1 (F := Ideal) v0 v8 (ix2 r d)
      = ∑ k : Fin 100, (if BitVec.ofNat 32 k.val = v0 (ix2 r (0 : Fin 1)) then (1 : EReal) else 0) * v8 (ix2 k d) := by
  unfold k0_pay1
  refine (matmul_at _ _ r d).trans ?_
  refine Finset.sum_congr rfl fun k _ => ?_
  rw [onehot_at v0 r k]
  rfl

/-! ## The blocks the launch reads, as entries of the arrays -/

/-- The block index of each window at a grid point: the token column and the output move by rows with the point, the table
    stays whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of the token block at point t is row 2000 t + r of the token column. -/
theorem blk_tokens (c : Dev nD) (t : Fin cfg0.N) (y : S2000x1.Idx) (k : S20000x1.Idx)
    (hk0 : (k 0).val = 2000 * t.val + (y 0).val) (hk1 : (k 1).val = (y 1).val) :
    (iblk0 V c 0 t : Vec Ideal S2000x1 .i32) y = (V c main_v29 : S20000x1.Idx → BitVec 32) k := by
  obtain ⟨e0, e1, -, -, -, -⟩ := idx_facts t
  unfold iblk0
  rw [View.read_apply]
  show V c main_v29 _ = V c main_v29 _
  congr 1
  funext a
  apply Fin.ext
  match a with
  | ⟨0, _⟩ => show win0_0.index t (0 : Fin 2) * 2000 + 1 * (y 0).val = (k 0).val; rw [e0, hk0]; omega
  | ⟨1, _⟩ => show win0_0.index t (1 : Fin 2) * 1 + 1 * (y 1).val = (k 1).val; rw [e1, hk1]; omega

/-- The table's block at every point is the table. -/
theorem blk_table (c : Dev nD) (t : Fin cfg0.N) (y : S100x256.Idx) :
    (iblk0 V c 1 t : Vec Ideal S100x256 .f32) y = (V c main_arg3 : S100x256.Idx → EReal) y := by
  obtain ⟨-, -, e0, e1, -, -⟩ := idx_facts t
  unfold iblk0
  rw [View.read_apply]
  show V c main_arg3 _ = V c main_arg3 _
  congr 1
  funext a
  apply Fin.ext
  match a with
  | ⟨0, _⟩ => show win0_1.index t (0 : Fin 2) * 100 + 1 * (y 0).val = (y 0).val; rw [e0]; omega
  | ⟨1, _⟩ => show win0_1.index t (1 : Fin 2) * 256 + 1 * (y 1).val = (y 1).val; rw [e1]; omega

/-! ## What each grid point writes back -/

/-- Point t writes back rows 2000 t … 2000 t + 1999 of the embedding of the whole token column. -/
theorem flushed_eq (c : Dev nD) (t : Fin cfg0.N) :
    (dat0 (F := Ideal) V c).flushed 2 t
      = ((cfg0.win 2).blk t).view.read (Elt Ideal) (Cert.Spec.embedSum (V c main_v29) (V c main_arg3)) := by
  show (cfg0.win 2).cut (grid0.coords t) ((dat0 V c).after 2 t) = _
  rw [after0_2]
  unfold out0_2
  rw [View.canon_unit_zero hz]
  simp only [View.ld_unit_zero (S := S2000x1) hz, View.ld_unit_zero (S := S100x256) hz]
  obtain ⟨-, -, -, -, e0, e1⟩ := idx_facts t
  funext j
  show k0_pay1 (iblk0 V c 0 t) (iblk0 V c 1 t) j = Cert.Spec.embedSum (V c main_v29) (V c main_arg3) (((cfg0.win 2).blk t).view.emb j)
  obtain ⟨r, d, rfl⟩ : ∃ (r : Fin 2000) (d : Fin 256), j = (ix2 r d : S2000x256.Idx) := ⟨j 0, j 1, eq_ix2 (n0 := 2000) (n1 := 256) j⟩
  have hN : t.val < 10 := lt_of_lt_of_eq t.isLt N_0
  have hrow : 2000 * t.val + r.val < 20000 := by have := r.isLt; omega
  have hemb : ((cfg0.win 2).blk t).view.emb (ix2 r d : S2000x256.Idx) = (ix2 (⟨2000 * t.val + r.val, hrow⟩ : Fin 20000) d : S20000x256.Idx) := by
    funext a
    apply Fin.ext
    match a with
    | ⟨0, _⟩ => show win0_2.index t (0 : Fin 2) * 2000 + 1 * r.val = 2000 * t.val + r.val; rw [e0]; omega
    | ⟨1, _⟩ => show win0_2.index t (1 : Fin 2) * 256 + 1 * d.val = d.val; rw [e1]; omega
  rw [hemb]
  refine (pay_at (iblk0 V c 0 t) (iblk0 V c 1 t) r d).trans ?_
  show _ = Cert.Spec.embedAt (V c main_v29) (V c main_arg3) ⟨2000 * t.val + r.val, hrow⟩ d
  unfold Cert.Spec.embedAt Cert.Spec.hot
  refine Finset.sum_congr rfl fun k _ => ?_
  rw [blk_tokens V c t (ix2 r (0 : Fin 1)) (ix2 (⟨2000 * t.val + r.val, hrow⟩ : Fin 20000) (0 : Fin 1)) rfl rfl, blk_table V c t (ix2 k d)]

/-! ## The ten blocks tile the output array -/

/-- An entry of the output array lies in point t's block iff each coordinate lies in the block's range on its axis. -/
theorem mem_blk (t : Fin cfg0.N) (i : S20000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v30).slice (win0_2.rect t)).set ↔ _
  rw [View.set_slice_whole, Rect.mem_set_unit]
  exact Iff.rfl

/-- Row n of the output lies in the block of point n / 2000, and every point writes its block back. -/
theorem cover (i : S20000x256.Idx) :
    ∃ t : Fin cfg0.N, (cfg0.win 2).flush t = true ∧ i ∈ ((cfg0.win 2).blk t).view.set := by
  have h0 : (i 0).val < 20000 := (i 0).isLt
  have h1 : (i 1).val < 256 := (i 1).isLt
  have hN : (i 0).val / 2000 < cfg0.N := by
    show (i 0).val / 2000 < grid0.N
    rw [N_0]
    omega
  refine ⟨⟨(i 0).val / 2000, hN⟩, flush0_2 _, ?_⟩
  rw [mem_blk]
  obtain ⟨-, -, -, -, e0, e1⟩ := idx_facts ⟨(i 0).val / 2000, hN⟩
  intro a
  match a with
  | ⟨0, _⟩ =>
    show win0_2.index ⟨(i 0).val / 2000, hN⟩ (0 : Fin 2) * 2000 ≤ (i 0).val ∧ (i 0).val < win0_2.index ⟨(i 0).val / 2000, hN⟩ (0 : Fin 2) * 2000 + 2000
    rw [e0]
    show (i 0).val / 2000 * 2000 ≤ (i 0).val ∧ (i 0).val < (i 0).val / 2000 * 2000 + 2000
    omega
  | ⟨1, _⟩ =>
    show win0_2.index ⟨(i 0).val / 2000, hN⟩ (1 : Fin 2) * 256 ≤ (i 1).val ∧ (i 1).val < win0_2.index ⟨(i 0).val / 2000, hN⟩ (1 : Fin 2) * 256 + 256
    rw [e1]
    omega

/-! ## The whole output array -/

/-- After the ten grid points the output array is that function of the arrays the launch found. -/
theorem final (c : Dev nD) :
    (dat0 (F := Ideal) V c).arrAt 2 cfg0.N = Cert.Spec.embedSum (V c main_v29) (V c main_arg3) :=
  (dat0 (F := Ideal) V c).arrAt_eq_of_cover 2 _ (fun t _ => flushed_eq V c t) cover

end Cert.KernelIdeal.Embed0

end
-- ==== Proof.Dense1.lean ====
/-
  The first layer's dense launch (2000 nodes per grid point): the whole output array is the dense layer of the whole input array, the weight matrix and the bias row.
-/
import proofs.«401411_j7164005449946_1_alg».proof.Proof.Gen.KernelIdeal.Frame
import proofs.«401411_j7164005449946_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense1

open Cert.KernelIdeal Cert.KernelIdeal.Gen

variable (V : (c : Dev nD) → (b : Ref sig .tc) → Buf (Elt Ideal) ((c : Thread nD τ).loc b))

/-! ## The block product at an index

  The product of a [2000,256] block with a [256,256] matrix contracts the block's second axis against the matrix's
  first: entry (r, d) reads the block at (r, k) and the matrix at (k, d), k the one contraction coordinate. -/

theorem lhs_ax0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_ax1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_ax0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_ax1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (r, d) of the block product into a zero accumulator is the sum over k of block (r, k) times matrix (k, d). -/
theorem matmul_at (a : FVec Ideal S2000x256 .bf16) (b : FVec Ideal S256x256 .bf16) (r : Fin 2000) (d : Fin 256) :
    matmul dot_S2000x256_S256x256_S2000x256_1_0_0_1_n_n none a b (constant (F := Ideal) S2000x256 .f32 0x00000000#32) (ix2 r d)
      = ∑ k : Fin 256, a (ix2 r k) * b (ix2 k d) := by
  refine (Ideal.matmul_constant_zero_apply dot_S2000x256_S256x256_S2000x256_1_0_0_1_n_n none a b (ix2 r d)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r d) ((ValueIdx.contrEquiv1 dot_S2000x256_S256x256_S2000x256_1_0_0_1_n_n 256 rfl rfl).symm k) = ix2 r k := funext fun a => Fin.ext (by
    match a with
    | ⟨0, _⟩ => exact lhs_ax0 _ _
    | ⟨1, _⟩ => exact (lhs_ax1 _ _).trans hk)
  have er : dot_S2000x256_S256x256_S2000x256_1_0_0_1_n_n.rhsIdx (ix2 r d) ((ValueIdx.contrEquiv1 dot_S2000x256_S256x256_S2000x256_1_0_0_1_n_n 256 rfl rfl).symm k) = ix2 k d := funext fun a => Fin.ext (by
    match a with
    | ⟨0, _⟩ => exact (rhs_ax0 _ _).trans hk
    | ⟨1, _⟩ => exact rhs_ax1 _ _)
  rw [el, er]

/-! ## The body's arithmetic at an index -/

/-- The bias row spread over the 2000 rows of a block reads the row's entry d at every (r, d). -/
theorem bias_at (x2 : FVec Ideal S1x256 .f32) (h : S1x256.Broadcasts S2000x256) (r : Fin 2000) (d : Fin 256) :
    broadcastTo S2000x256 x2 h (ix2 r d) = x2 (ix2 (0 : Fin 1) d) :=
  broadcastTo_apply x2 h (ix2 r d) (ix2 (0 : Fin 1) d) (fun a => by
    match a with
    | ⟨0, _⟩ => exact (if_pos rfl).symm
    | ⟨1, _⟩ => exact (if_neg (show ¬((256 : Nat) = 1) by decide)).symm)

/-- Entry (r, d) of what the body stores: row r of the node block against column d of the weights, plus the bias
    row's entry d. -/
theorem pay_at (x0 : FVec Ideal S2000x256 .f32) (x1 : FVec Ideal S256x256 .f32) (x2 : FVec Ideal S1x256 .f32) (r : Fin 2000) (d : Fin 256) :
    k1_pay1 (F := Ideal) x0 x1 x2 (ix2 r d) = (∑ k : Fin 256, x0 (ix2 r k) * x1 (ix2 k d)) + x2 (ix2 (0 : Fin 1) d) := by
  unfold k1_pay1
  rw [shapeCast_self x0, shapeCast_self x1, shapeCast_self x2]
  refine (addf_apply _ _ _).trans ?_
  refine congrArg₂ (· + ·) ?_ ?_
  · exact matmul_at _ _ r d
  · exact bias_at x2 _ r d

/-! ## The windows' blocks as parts of the arrays -/

theorem hz : (![0, 0] : Fin 2 → Nat) = fun _ => 0 := funext fun a => by fin_cases a <;> rfl

/-- The index maps, decided over the ten grid points: the node blocks (input and output) move down the rows with the
    point, the weight matrix and the bias row stay whole. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Row r of point t's block is row 2000 t + r of the array. -/
def rowOf (t : Fin cfg1.N) (r : Fin 2000) : Fin 20000 :=
  ⟨t.val * 2000 + r.val, by have ht : t.val < 10 := lt_of_lt_of_eq t.isLt N_1; have hr := r.isLt; omega⟩

/-- The node block at point t, entry (r, k): the node array at (2000 t + r, k). -/
theorem blk_0 (c : Dev nD) (t : Fin cfg1.N) (r : Fin 2000) (k : Fin 256) :
    (iblk1 V c 0 t : Vec Ideal S2000x256 .f32) (ix2 r k) = (V c main_v30 : S20000x256.Idx → Elt Ideal .f32) (ix2 (rowOf t r) k) := by
  obtain ⟨e0, e1, -⟩ := idx_facts t
  unfold iblk1
  rw [View.read_apply]
  show V c main_v30 _ = V c main_v30 _
  congr 1
  funext a
  apply Fin.ext
  match a with
  | ⟨0, _⟩ => show win1_0.index t (0 : Fin 2) * 2000 + 1 * r.val = t.val * 2000 + r.val; rw [e0]; omega
  | ⟨1, _⟩ => show win1_0.index t (1 : Fin 2) * 256 + 1 * k.val = k.val; rw [e1]; omega

/-- The weight block at any point is the weight matrix. -/
theorem blk_1 (c : Dev nD) (t : Fin cfg1.N) (k : Fin 256) (d : Fin 256) :
    (iblk1 V c 1 t : Vec Ideal S256x256 .f32) (ix2 k d) = (V c main_v33 : S256x256.Idx → Elt Ideal .f32) (ix2 k d) := by
  obtain ⟨-, -, e2, e3, -⟩ := idx_facts t
  unfold iblk1
  rw [View.read_apply]
  show V c main_v33 _ = V c main_v33 _
  congr 1
  funext a
  apply Fin.ext
  match a with
  | ⟨0, _⟩ => show win1_1.index t (0 : Fin 2) * 256 + 1 * k.val = k.val; rw [e2]; omega
  | ⟨1, _⟩ => show win1_1.index t (1 : Fin 2) * 256 + 1 * d.val = d.val; rw [e3]; omega

/-- The bias block at any point is the bias row. -/
theorem blk_2 (c : Dev nD) (t : Fin cfg1.N) (d : Fin 256) :
    (iblk1 V c 2 t : Vec Ideal S1x256 .f32) (ix2 (0 : Fin 1) d) = (V c main_v31 : S1x256.Idx → Elt Ideal .f32) (ix2 (0 : Fin 1) d) := by
  obtain ⟨-, -, -, -, e4, e5, -⟩ := idx_facts t
  unfold iblk1
  rw [View.read_apply]
  show V c main_v31 _ = V c main_v31 _
  congr 1
  funext a
  apply Fin.ext
  match a with
  | ⟨0, _⟩ => show win1_2.index t (0 : Fin 2) * 1 + 1 * 0 = 0; rw [e4]
  | ⟨1, _⟩ => show win1_2.index t (1 : Fin 2) * 256 + 1 * d.val = d.val; rw [e5]; omega

/-! ## What a point writes back, and the whole array -/

/-- Entry (r, d) of what the body leaves at point t is the layer's entry (2000 t + r, d). -/
theorem stored_at (c : Dev nD) (t : Fin cfg1.N) (r : Fin 2000) (d : Fin 256) :
    k1_pay1 (iblk1 V c 0 t) (iblk1 V c 1 t) (iblk1 V c 2 t) (ix2 r d)
      = Cert.Spec.denseAt (V c main_v30) (V c main_v33) (V c main_v31) (rowOf t r) d := by
  refine (pay_at _ _ _ r d).trans ?_
  unfold Cert.Spec.denseAt
  rw [blk_2 V c t d]
  refine congrArg (· + _) (Finset.sum_congr rfl fun k _ => ?_)
  rw [blk_0 V c t r k, blk_1 V c t k d]

/-- WHAT POINT t WRITES BACK is block t of the layer of the arrays the launch found. -/
theorem flushed_eq (c : Dev nD) (t : Fin cfg1.N) :
    (dat1 V c).flushed 3 t = ((cfg1.win 3).blk t).view.read (Elt Ideal) (Cert.Spec.dense (V c main_v30) (V c main_v33) (V c main_v31)) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x256) hz, View.ld_unit_zero (S := S1x256) hz]
  obtain ⟨-, -, -, -, -, -, e6, e7⟩ := idx_facts t
  funext j
  obtain ⟨r, d, rfl⟩ : ∃ (r : Fin 2000) (d : Fin 256), j = ix2 r d := ⟨j 0, j 1, eq_ix2 (n0 := 2000) (n1 := 256) j⟩
  show k1_pay1 (iblk1 V c 0 t) (iblk1 V c 1 t) (iblk1 V c 2 t) (ix2 r d)
    = Cert.Spec.dense (V c main_v30) (V c main_v33) (V c main_v31) (((cfg1.win 3).blk t).view.emb (ix2 r d))
  rw [stored_at V c t r d]
  unfold Cert.Spec.dense
  rw [Cert.Spec.ofCoords_apply]
  have h0 : (⟨((((cfg1.win 3).blk t).view.emb (ix2 r d)) 0).val, idx2_lt0 _⟩ : Fin 20000) = rowOf t r := by
    apply Fin.ext
    show win1_3.index t (0 : Fin 2) * 2000 + 1 * r.val = t.val * 2000 + r.val
    rw [e6]; omega
  have h1 : (⟨((((cfg1.win 3).blk t).view.emb (ix2 r d)) 1).val, idx2_lt1 _⟩ : Fin 256) = d := by
    apply Fin.ext
    show win1_3.index t (1 : Fin 2) * 256 + 1 * d.val = d.val
    rw [e7]; omega
  rw [h0, h1]

/-- An index of the array is in point t's block iff each coordinate is in the block's range on its axis. -/
theorem mem_blk (t : Fin cfg1.N) (i : S20000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v34).slice (win1_3.rect t)).set ↔ _
  rw [View.set_slice_whole, Rect.mem_set_unit]
  exact Iff.rfl

/-- Every index of the array is in the block of the point its row falls to: row n belongs to point n / 2000. -/
theorem cover (i : S20000x256.Idx) :
    ∃ t : Fin cfg1.N, (cfg1.win 3).flush t = true ∧ i ∈ ((cfg1.win 3).blk t).view.set := by
  have hi0 : (i 0).val < 20000 := (i 0).isLt
  have hi1 : (i 1).val < 256 := (i 1).isLt
  have hN : grid1.N = 10 := N_1
  have hlt : (i 0).val / 2000 < grid1.N := by rw [hN]; omega
  obtain ⟨-, -, -, -, -, -, e6, e7⟩ := idx_facts ⟨(i 0).val / 2000, hlt⟩
  have e6' : win1_3.index ⟨(i 0).val / 2000, hlt⟩ (0 : Fin 2) = (i 0).val / 2000 := e6
  refine ⟨⟨(i 0).val / 2000, hlt⟩, flush1_3 _, ?_⟩
  rw [mem_blk]
  intro a
  match a with
  | ⟨0, _⟩ => show win1_3.index ⟨(i 0).val / 2000, hlt⟩ (0 : Fin 2) * 2000 ≤ (i 0).val ∧ (i 0).val < win1_3.index ⟨(i 0).val / 2000, hlt⟩ (0 : Fin 2) * 2000 + 2000; rw [e6']; omega
  | ⟨1, _⟩ => show win1_3.index ⟨(i 0).val / 2000, hlt⟩ (1 : Fin 2) * 256 ≤ (i 1).val ∧ (i 1).val < win1_3.index ⟨(i 0).val / 2000, hlt⟩ (1 : Fin 2) * 256 + 256; rw [e7]; omega

/-- After the ten grid points the output array is that function of the arrays the launch found. -/
theorem final (c : Dev nD) :
    (dat1 (F := Ideal) V c).arrAt 3 cfg1.N = Cert.Spec.dense (V c main_v30) (V c main_v33) (V c main_v31) :=
  (dat1 V c).arrAt_eq_of_cover 3 _ (fun t _ => flushed_eq V c t) (cover)

end Cert.KernelIdeal.Dense1

end
-- ==== Proof.Mix2.lean ====
/-
  The first layer's combination launch (2000 nodes per grid point): the whole output array is max(aggregated + own * self-loop weight + bias, 0) of the whole arrays.

  Entry (r, d) of what a grid point's body stores is max(x0[r,d] + x1[r,d] * x2[r,0] + x3[0,d], 0) of its four input
  blocks (the column of self-loop weights is repeated along the features, the bias row along the nodes). At grid point t
  the three row-tiled inputs' blocks and the output's block are rows 2000 t .. 2000 t + 1999 of their arrays and the bias
  row's block is the whole row, so the point writes back rows 2000 t .. 2000 t + 1999 of the whole-array function; row n
  lies in the block of point n / 2000, so the ten blocks fill the array.
-/
import proofs.«401411_j7164005449946_1_alg».proof.Proof.Gen.KernelIdeal.Frame
import proofs.«401411_j7164005449946_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Mix2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The zero word of the final max is the extended real 0. -/
theorem zero_word : (Scalar.ofBits (F := Ideal) .f32 0x00000000#32) = (0 : EReal) := Ideal.ofBits_zero_f32

/-- Entry (r, d) of the body's stored value, from its four input blocks: the self-loop weights' column is read at
    (r, 0) and the bias row at (0, d). -/
theorem pay_apply (x0 x1 : FVec Ideal S2000x256 .f32) (x2 : FVec Ideal S2000x1 .f32) (x3 : FVec Ideal S1x256 .f32)
    (r : Fin 2000) (d : Fin 256) :
    k2_pay1 x0 x1 x2 x3 (ix2 r d)
      = max (x0 (ix2 r d) + x1 (ix2 r d) * x2 (ix2 r (0 : Fin 1)) + x3 (ix2 (0 : Fin 1) d)) 0 := by
  unfold k2_pay1
  simp only [shapeCast_self]
  show max (x0 (ix2 r d) + x1 (ix2 r d) * broadcastTo S2000x256 x2 broadcasts_S2000x1_S2000x256 (ix2 r d)
      + broadcastTo S2000x256 x3 broadcasts_S1x256_S2000x256 (ix2 r d)) (Scalar.ofBits (F := Ideal) .f32 0x00000000#32) = _
  rw [zero_word]
  rw [broadcastTo_apply x2 broadcasts_S2000x1_S2000x256 (ix2 r d) (ix2 r (0 : Fin 1)) (fun a => by
        match a with
        | ⟨0, _⟩ => exact (if_neg (show ¬ (2000 : Nat) = 1 by decide)).symm
        | ⟨1, _⟩ => exact (if_pos rfl).symm),
      broadcastTo_apply x3 broadcasts_S1x256_S2000x256 (ix2 r d) (ix2 (0 : Fin 1) d) (fun a => by
        match a with
        | ⟨0, _⟩ => exact (if_pos rfl).symm
        | ⟨1, _⟩ => exact (if_neg (show ¬ (256 : Nat) = 1 by decide)).symm)]

/-- The windows' index maps at a grid point: a row-tiled window sits at block row t, column block 0; the bias row's
    window is the whole array. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Entry (r, d) of the aggregated messages' block at point t is entry (2000 t + r, d) of the array. -/
theorem blk_0 (c : Dev nD) (t : Fin cfg2.N) (r : Fin 2000) (d : Fin 256) (k : S20000x256.Idx)
    (hk0 : (k 0).val = t.val * 2000 + r.val) (hk1 : (k 1).val = d.val) :
    (iblk2 V c 0 t : Vec Ideal S2000x256 .f32) (ix2 r d) = (V c main_v46 : S20000x256.Idx → Elt Ideal .f32) k := by
  obtain ⟨e0, e1, -⟩ := idx_facts t
  unfold iblk2
  rw [View.read_apply]
  show V c main_v46 _ = V c main_v46 _
  congr 1
  funext a
  apply Fin.ext
  match a with
  | ⟨0, _⟩ => show win2_0.index t (0 : Fin 2) * 2000 + 1 * r.val = (k 0).val; rw [e0, hk0]; omega
  | ⟨1, _⟩ => show win2_0.index t (1 : Fin 2) * 256 + 1 * d.val = (k 1).val; rw [e1, hk1]; omega

/-- Entry (r, d) of the own features' block at point t is entry (2000 t + r, d) of the array. -/
theorem blk_1 (c : Dev nD) (t : Fin cfg2.N) (r : Fin 2000) (d : Fin 256) (k : S20000x256.Idx)
    (hk0 : (k 0).val = t.val * 2000 + r.val) (hk1 : (k 1).val = d.val) :
    (iblk2 V c 1 t : Vec Ideal S2000x256 .f32) (ix2 r d) = (V c main_v34 : S20000x256.Idx → Elt Ideal .f32) k := by
  obtain ⟨-, -, e0, e1, -⟩ := idx_facts t
  unfold iblk2
  rw [View.read_apply]
  show V c main_v34 _ = V c main_v34 _
  congr 1
  funext a
  apply Fin.ext
  match a with
  | ⟨0, _⟩ => show win2_1.index t (0 : Fin 2) * 2000 + 1 * r.val = (k 0).val; rw [e0, hk0]; omega
  | ⟨1, _⟩ => show win2_1.index t (1 : Fin 2) * 256 + 1 * d.val = (k 1).val; rw [e1, hk1]; omega

/-- Entry (r, 0) of the self-loop weights' block at point t is entry (2000 t + r, 0) of the array. -/
theorem blk_2 (c : Dev nD) (t : Fin cfg2.N) (r : Fin 2000) (k : S20000x1.Idx)
    (hk0 : (k 0).val = t.val * 2000 + r.val) :
    (iblk2 V c 2 t : Vec Ideal S2000x1 .f32) (ix2 r (0 : Fin 1)) = (V c main_v28 : S20000x1.Idx → Elt Ideal .f32) k := by
  obtain ⟨-, -, -, -, e0, e1, -⟩ := idx_facts t
  have hk1 : (k 1).val = 0 := by have := idx2_lt1 k; omega
  unfold iblk2
  rw [View.read_apply]
  show V c main_v28 _ = V c main_v28 _
  congr 1
  funext a
  apply Fin.ext
  match a with
  | ⟨0, _⟩ => show win2_2.index t (0 : Fin 2) * 2000 + 1 * r.val = (k 0).val; rw [e0, hk0]; omega
  | ⟨1, _⟩ => show win2_2.index t (1 : Fin 2) * 1 + 1 * 0 = (k 1).val; rw [e1, hk1]

/-- The bias row's block at every point is the whole row. -/
theorem blk_3 (c : Dev nD) (t : Fin cfg2.N) (d : Fin 256) (k : S1x256.Idx) (hk1 : (k 1).val = d.val) :
    (iblk2 V c 3 t : Vec Ideal S1x256 .f32) (ix2 (0 : Fin 1) d) = (V c main_v49 : S1x256.Idx → Elt Ideal .f32) k := by
  obtain ⟨-, -, -, -, -, -, e0, e1, -⟩ := idx_facts t
  have hk0 : (k 0).val = 0 := by have := idx2_lt0 k; omega
  unfold iblk2
  rw [View.read_apply]
  show V c main_v49 _ = V c main_v49 _
  congr 1
  funext a
  apply Fin.ext
  match a with
  | ⟨0, _⟩ => show win2_3.index t (0 : Fin 2) * 1 + 1 * 0 = (k 0).val; rw [e0, hk0]
  | ⟨1, _⟩ => show win2_3.index t (1 : Fin 2) * 256 + 1 * d.val = (k 1).val; rw [e1, hk1]; omega

/-- What point t writes back is block t of the whole-array function. -/
theorem flushed_eq (c : Dev nD) (t : Fin cfg2.N) :
    (dat2 V c).flushed 4 t = ((cfg2.win 4).blk t).view.read (Elt Ideal)
      (Cert.Spec.mixRelu (V c main_v46) (V c main_v34) (V c main_v28) (V c main_v49)) := by
  show (cfg2.win 4).cut (grid2.coords t) ((dat2 V c).after 4 t) = _
  rw [after2_4]
  unfold out2_4
  rw [View.canon_unit_zero hz]
  simp only [View.ld_unit_zero (S := S2000x256) hz, View.ld_unit_zero (S := S2000x1) hz, View.ld_unit_zero (S := S1x256) hz]
  obtain ⟨-, -, -, -, -, -, -, -, e0, e1⟩ := idx_facts t
  funext j
  obtain ⟨r, d, rfl⟩ : ∃ (r : Fin 2000) (d : Fin 256), j = ix2 r d := ⟨j 0, j 1, eq_ix2 j⟩
  show k2_pay1 (iblk2 V c 0 t) (iblk2 V c 1 t) (iblk2 V c 2 t) (iblk2 V c 3 t) (ix2 r d)
    = Cert.Spec.mixRelu (V c main_v46) (V c main_v34) (V c main_v28) (V c main_v49) (((cfg2.win 4).blk t).view.emb (ix2 r d))
  have hrow : ((((cfg2.win 4).blk t).view.emb (ix2 r d)) 0).val = t.val * 2000 + r.val := by
    show win2_4.index t (0 : Fin 2) * 2000 + 1 * r.val = _
    rw [e0]; omega
  have hcol : ((((cfg2.win 4).blk t).view.emb (ix2 r d)) 1).val = d.val := by
    show win2_4.index t (1 : Fin 2) * 256 + 1 * d.val = _
    rw [e1]; omega
  generalize ((cfg2.win 4).blk t).view.emb (ix2 r d) = i at hrow hcol
  rw [pay_apply]
  unfold Cert.Spec.mixRelu
  rw [Cert.Spec.ofCoords_apply]
  unfold Cert.Spec.mixAt
  rw [blk_0 V c t r d (ix2 ⟨(i 0).val, idx2_lt0 i⟩ ⟨(i 1).val, idx2_lt1 i⟩) hrow hcol,
    blk_1 V c t r d (ix2 ⟨(i 0).val, idx2_lt0 i⟩ ⟨(i 1).val, idx2_lt1 i⟩) hrow hcol,
    blk_2 V c t r (ix2 ⟨(i 0).val, idx2_lt0 i⟩ (0 : Fin 1)) hrow,
    blk_3 V c t d (ix2 (0 : Fin 1) ⟨(i 1).val, idx2_lt1 i⟩) hcol]

/-- An index of the array is in point t's block iff each coordinate is in the block's range on its axis. -/
theorem mem_blk (t : Fin cfg2.N) (i : S20000x256.Idx) :
    i ∈ ((cfg2.win 4).blk t).view.set ↔ ∀ a : Fin 2, win2_4.index t a * S2000x256.size a ≤ (i a).val ∧ (i a).val < win2_4.index t a * S2000x256.size a + S2000x256.size a := by
  show i ∈ ((View.whole main_v50).slice (win2_4.rect t)).set ↔ _
  rw [View.set_slice_whole, Rect.mem_set_unit]
  exact Iff.rfl

/-- Row n of the array lies in the block of point n / 2000. -/
theorem cover (i : S20000x256.Idx) :
    ∃ t : Fin cfg2.N, (cfg2.win 4).flush t = true ∧ i ∈ ((cfg2.win 4).blk t).view.set := by
  have hi0 : (i 0).val < 20000 := idx2_lt0 i
  have hi1 : (i 1).val < 256 := idx2_lt1 i
  have hN : cfg2.N = 10 := N_2
  obtain ⟨t, ht⟩ : ∃ t : Fin cfg2.N, t.val = (i 0).val / 2000 := ⟨⟨(i 0).val / 2000, by rw [hN]; omega⟩, rfl⟩
  obtain ⟨-, -, -, -, -, -, -, -, e0, e1⟩ := idx_facts t
  refine ⟨t, flush2_4 t, ?_⟩
  rw [mem_blk]
  intro a
  match a with
  | ⟨0, _⟩ =>
    show win2_4.index t (0 : Fin 2) * 2000 ≤ (i 0).val ∧ (i 0).val < win2_4.index t (0 : Fin 2) * 2000 + 2000
    rw [e0, ht]; omega
  | ⟨1, _⟩ =>
    show win2_4.index t (1 : Fin 2) * 256 ≤ (i 1).val ∧ (i 1).val < win2_4.index t (1 : Fin 2) * 256 + 256
    rw [e1]; omega

/-- After the ten grid points the output array is that function of the arrays the launch found. -/
theorem final (c : Dev nD) :
    (dat2 (F := Ideal) V c).arrAt 4 cfg2.N = Cert.Spec.mixRelu (V c main_v46) (V c main_v34) (V c main_v28) (V c main_v49) :=
  (dat2 V c).arrAt_eq_of_cover 4 _ (fun t _ => flushed_eq V c t) cover

end Cert.KernelIdeal.Mix2

end
-- ==== Proof.Dense3.lean ====
/-
  The second layer's dense launch (2000 nodes per grid point): the whole output array is the dense layer of the whole input array, the weight matrix and the bias row.
-/
import proofs.«401411_j7164005449946_1_alg».proof.Proof.Gen.KernelIdeal.Frame
import proofs.«401411_j7164005449946_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense3

open Cert.KernelIdeal Cert.KernelIdeal.Gen

variable (V : (c : Dev nD) → (b : Ref sig .tc) → Buf (Elt Ideal) ((c : Thread nD τ).loc b))

/-! ## The block product at an index

  The product of a [2000,256] block with a [256,256] matrix contracts the block's second axis against the matrix's
  first: entry (r, d) reads the block at (r, k) and the matrix at (k, d), k the one contraction coordinate. -/

theorem lhs_ax0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_ax1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_ax0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_ax1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (r, d) of the block product into a zero accumulator is the sum over k of block (r, k) times matrix (k, d). -/
theorem matmul_at (a : FVec Ideal S2000x256 .bf16) (b : FVec Ideal S256x256 .bf16) (r : Fin 2000) (d : Fin 256) :
    matmul dot_S2000x256_S256x256_S2000x256_1_0_0_1_n_n none a b (constant (F := Ideal) S2000x256 .f32 0x00000000#32) (ix2 r d)
      = ∑ k : Fin 256, a (ix2 r k) * b (ix2 k d) := by
  refine (Ideal.matmul_constant_zero_apply dot_S2000x256_S256x256_S2000x256_1_0_0_1_n_n none a b (ix2 r d)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r d) ((ValueIdx.contrEquiv1 dot_S2000x256_S256x256_S2000x256_1_0_0_1_n_n 256 rfl rfl).symm k) = ix2 r k := funext fun a => Fin.ext (by
    match a with
    | ⟨0, _⟩ => exact lhs_ax0 _ _
    | ⟨1, _⟩ => exact (lhs_ax1 _ _).trans hk)
  have er : dot_S2000x256_S256x256_S2000x256_1_0_0_1_n_n.rhsIdx (ix2 r d) ((ValueIdx.contrEquiv1 dot_S2000x256_S256x256_S2000x256_1_0_0_1_n_n 256 rfl rfl).symm k) = ix2 k d := funext fun a => Fin.ext (by
    match a with
    | ⟨0, _⟩ => exact (rhs_ax0 _ _).trans hk
    | ⟨1, _⟩ => exact rhs_ax1 _ _)
  rw [el, er]

/-! ## The body's arithmetic at an index -/

/-- The bias row spread over the 2000 rows of a block reads the row's entry d at every (r, d). -/
theorem bias_at (x2 : FVec Ideal S1x256 .f32) (h : S1x256.Broadcasts S2000x256) (r : Fin 2000) (d : Fin 256) :
    broadcastTo S2000x256 x2 h (ix2 r d) = x2 (ix2 (0 : Fin 1) d) :=
  broadcastTo_apply x2 h (ix2 r d) (ix2 (0 : Fin 1) d) (fun a => by
    match a with
    | ⟨0, _⟩ => exact (if_pos rfl).symm
    | ⟨1, _⟩ => exact (if_neg (show ¬((256 : Nat) = 1) by decide)).symm)

/-- Entry (r, d) of what the body stores: row r of the node block against column d of the weights, plus the bias
    row's entry d. -/
theorem pay_at (x0 : FVec Ideal S2000x256 .f32) (x1 : FVec Ideal S256x256 .f32) (x2 : FVec Ideal S1x256 .f32) (r : Fin 2000) (d : Fin 256) :
    k3_pay1 (F := Ideal) x0 x1 x2 (ix2 r d) = (∑ k : Fin 256, x0 (ix2 r k) * x1 (ix2 k d)) + x2 (ix2 (0 : Fin 1) d) := by
  unfold k3_pay1
  rw [shapeCast_self x0, shapeCast_self x1, shapeCast_self x2]
  refine (addf_apply _ _ _).trans ?_
  refine congrArg₂ (· + ·) ?_ ?_
  · exact matmul_at _ _ r d
  · exact bias_at x2 _ r d

/-! ## The windows' blocks as parts of the arrays -/

theorem hz : (![0, 0] : Fin 2 → Nat) = fun _ => 0 := funext fun a => by fin_cases a <;> rfl

/-- The index maps, decided over the ten grid points: the node blocks (input and output) move down the rows with the
    point, the weight matrix and the bias row stay whole. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- Row r of point t's block is row 2000 t + r of the array. -/
def rowOf (t : Fin cfg3.N) (r : Fin 2000) : Fin 20000 :=
  ⟨t.val * 2000 + r.val, by have ht : t.val < 10 := lt_of_lt_of_eq t.isLt N_3; have hr := r.isLt; omega⟩

/-- The node block at point t, entry (r, k): the node array at (2000 t + r, k). -/
theorem blk_0 (c : Dev nD) (t : Fin cfg3.N) (r : Fin 2000) (k : Fin 256) :
    (iblk3 V c 0 t : Vec Ideal S2000x256 .f32) (ix2 r k) = (V c main_v50 : S20000x256.Idx → Elt Ideal .f32) (ix2 (rowOf t r) k) := by
  obtain ⟨e0, e1, -⟩ := idx_facts t
  unfold iblk3
  rw [View.read_apply]
  show V c main_v50 _ = V c main_v50 _
  congr 1
  funext a
  apply Fin.ext
  match a with
  | ⟨0, _⟩ => show win3_0.index t (0 : Fin 2) * 2000 + 1 * r.val = t.val * 2000 + r.val; rw [e0]; omega
  | ⟨1, _⟩ => show win3_0.index t (1 : Fin 2) * 256 + 1 * k.val = k.val; rw [e1]; omega

/-- The weight block at any point is the weight matrix. -/
theorem blk_1 (c : Dev nD) (t : Fin cfg3.N) (k : Fin 256) (d : Fin 256) :
    (iblk3 V c 1 t : Vec Ideal S256x256 .f32) (ix2 k d) = (V c main_v52 : S256x256.Idx → Elt Ideal .f32) (ix2 k d) := by
  obtain ⟨-, -, e2, e3, -⟩ := idx_facts t
  unfold iblk3
  rw [View.read_apply]
  show V c main_v52 _ = V c main_v52 _
  congr 1
  funext a
  apply Fin.ext
  match a with
  | ⟨0, _⟩ => show win3_1.index t (0 : Fin 2) * 256 + 1 * k.val = k.val; rw [e2]; omega
  | ⟨1, _⟩ => show win3_1.index t (1 : Fin 2) * 256 + 1 * d.val = d.val; rw [e3]; omega

/-- The bias block at any point is the bias row. -/
theorem blk_2 (c : Dev nD) (t : Fin cfg3.N) (d : Fin 256) :
    (iblk3 V c 2 t : Vec Ideal S1x256 .f32) (ix2 (0 : Fin 1) d) = (V c main_v31 : S1x256.Idx → Elt Ideal .f32) (ix2 (0 : Fin 1) d) := by
  obtain ⟨-, -, -, -, e4, e5, -⟩ := idx_facts t
  unfold iblk3
  rw [View.read_apply]
  show V c main_v31 _ = V c main_v31 _
  congr 1
  funext a
  apply Fin.ext
  match a with
  | ⟨0, _⟩ => show win3_2.index t (0 : Fin 2) * 1 + 1 * 0 = 0; rw [e4]
  | ⟨1, _⟩ => show win3_2.index t (1 : Fin 2) * 256 + 1 * d.val = d.val; rw [e5]; omega

/-! ## What a point writes back, and the whole array -/

/-- Entry (r, d) of what the body leaves at point t is the layer's entry (2000 t + r, d). -/
theorem stored_at (c : Dev nD) (t : Fin cfg3.N) (r : Fin 2000) (d : Fin 256) :
    k3_pay1 (iblk3 V c 0 t) (iblk3 V c 1 t) (iblk3 V c 2 t) (ix2 r d)
      = Cert.Spec.denseAt (V c main_v50) (V c main_v52) (V c main_v31) (rowOf t r) d := by
  refine (pay_at _ _ _ r d).trans ?_
  unfold Cert.Spec.denseAt
  rw [blk_2 V c t d]
  refine congrArg (· + _) (Finset.sum_congr rfl fun k _ => ?_)
  rw [blk_0 V c t r k, blk_1 V c t k d]

/-- WHAT POINT t WRITES BACK is block t of the layer of the arrays the launch found. -/
theorem flushed_eq (c : Dev nD) (t : Fin cfg3.N) :
    (dat3 V c).flushed 3 t = ((cfg3.win 3).blk t).view.read (Elt Ideal) (Cert.Spec.dense (V c main_v50) (V c main_v52) (V c main_v31)) := by
  show (cfg3.win 3).cut (grid3.coords t) ((dat3 V c).after 3 t) = _
  rw [after3_3]
  unfold out3_3
  rw [View.canon_unit_zero hz]
  simp only [View.ld_unit_zero (S := S2000x256) hz, View.ld_unit_zero (S := S256x256) hz, View.ld_unit_zero (S := S1x256) hz]
  obtain ⟨-, -, -, -, -, -, e6, e7⟩ := idx_facts t
  funext j
  obtain ⟨r, d, rfl⟩ : ∃ (r : Fin 2000) (d : Fin 256), j = ix2 r d := ⟨j 0, j 1, eq_ix2 (n0 := 2000) (n1 := 256) j⟩
  show k3_pay1 (iblk3 V c 0 t) (iblk3 V c 1 t) (iblk3 V c 2 t) (ix2 r d)
    = Cert.Spec.dense (V c main_v50) (V c main_v52) (V c main_v31) (((cfg3.win 3).blk t).view.emb (ix2 r d))
  rw [stored_at V c t r d]
  unfold Cert.Spec.dense
  rw [Cert.Spec.ofCoords_apply]
  have h0 : (⟨((((cfg3.win 3).blk t).view.emb (ix2 r d)) 0).val, idx2_lt0 _⟩ : Fin 20000) = rowOf t r := by
    apply Fin.ext
    show win3_3.index t (0 : Fin 2) * 2000 + 1 * r.val = t.val * 2000 + r.val
    rw [e6]; omega
  have h1 : (⟨((((cfg3.win 3).blk t).view.emb (ix2 r d)) 1).val, idx2_lt1 _⟩ : Fin 256) = d := by
    apply Fin.ext
    show win3_3.index t (1 : Fin 2) * 256 + 1 * d.val = d.val
    rw [e7]; omega
  rw [h0, h1]

/-- An index of the array is in point t's block iff each coordinate is in the block's range on its axis. -/
theorem mem_blk (t : Fin cfg3.N) (i : S20000x256.Idx) :
    i ∈ ((cfg3.win 3).blk t).view.set ↔ ∀ a : Fin 2, win3_3.index t a * S2000x256.size a ≤ (i a).val ∧ (i a).val < win3_3.index t a * S2000x256.size a + S2000x256.size a := by
  show i ∈ ((View.whole main_v53).slice (win3_3.rect t)).set ↔ _
  rw [View.set_slice_whole, Rect.mem_set_unit]
  exact Iff.rfl

/-- Every index of the array is in the block of the point its row falls to: row n belongs to point n / 2000. -/
theorem cover (i : S20000x256.Idx) :
    ∃ t : Fin cfg3.N, (cfg3.win 3).flush t = true ∧ i ∈ ((cfg3.win 3).blk t).view.set := by
  have hi0 : (i 0).val < 20000 := (i 0).isLt
  have hi1 : (i 1).val < 256 := (i 1).isLt
  have hN : grid3.N = 10 := N_3
  have hlt : (i 0).val / 2000 < grid3.N := by rw [hN]; omega
  obtain ⟨-, -, -, -, -, -, e6, e7⟩ := idx_facts ⟨(i 0).val / 2000, hlt⟩
  have e6' : win3_3.index ⟨(i 0).val / 2000, hlt⟩ (0 : Fin 2) = (i 0).val / 2000 := e6
  refine ⟨⟨(i 0).val / 2000, hlt⟩, flush3_3 _, ?_⟩
  rw [mem_blk]
  intro a
  match a with
  | ⟨0, _⟩ => show win3_3.index ⟨(i 0).val / 2000, hlt⟩ (0 : Fin 2) * 2000 ≤ (i 0).val ∧ (i 0).val < win3_3.index ⟨(i 0).val / 2000, hlt⟩ (0 : Fin 2) * 2000 + 2000; rw [e6']; omega
  | ⟨1, _⟩ => show win3_3.index ⟨(i 0).val / 2000, hlt⟩ (1 : Fin 2) * 256 ≤ (i 1).val ∧ (i 1).val < win3_3.index ⟨(i 0).val / 2000, hlt⟩ (1 : Fin 2) * 256 + 256; rw [e7]; omega

/-- After the ten grid points the output array is that function of the arrays the launch found. -/
theorem final (c : Dev nD) :
    (dat3 (F := Ideal) V c).arrAt 3 cfg3.N = Cert.Spec.dense (V c main_v50) (V c main_v52) (V c main_v31) :=
  (dat3 V c).arrAt_eq_of_cover 3 _ (fun t _ => flushed_eq V c t) (cover)

end Cert.KernelIdeal.Dense3

end
-- ==== Proof.Mix4.lean ====
/-
  The second layer's combination launch (2000 nodes per grid point): the whole output array is max(aggregated + own * self-loop weight + bias, 0) of the whole arrays.

  Entry (r, d) of what a grid point's body stores is max(x0[r,d] + x1[r,d] * x2[r,0] + x3[0,d], 0) of its four input
  blocks (the column of self-loop weights is repeated along the features, the bias row along the nodes). At grid point t
  the three row-tiled inputs' blocks and the output's block are rows 2000 t .. 2000 t + 1999 of their arrays and the bias
  row's block is the whole row, so the point writes back rows 2000 t .. 2000 t + 1999 of the whole-array function; row n
  lies in the block of point n / 2000, so the ten blocks fill the array.
-/
import proofs.«401411_j7164005449946_1_alg».proof.Proof.Gen.KernelIdeal.Frame
import proofs.«401411_j7164005449946_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Mix4

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The zero word of the final max is the extended real 0. -/
theorem zero_word : (Scalar.ofBits (F := Ideal) .f32 0x00000000#32) = (0 : EReal) := Ideal.ofBits_zero_f32

/-- Entry (r, d) of the body's stored value, from its four input blocks: the self-loop weights' column is read at
    (r, 0) and the bias row at (0, d). -/
theorem pay_apply (x0 x1 : FVec Ideal S2000x256 .f32) (x2 : FVec Ideal S2000x1 .f32) (x3 : FVec Ideal S1x256 .f32)
    (r : Fin 2000) (d : Fin 256) :
    k4_pay1 x0 x1 x2 x3 (ix2 r d)
      = max (x0 (ix2 r d) + x1 (ix2 r d) * x2 (ix2 r (0 : Fin 1)) + x3 (ix2 (0 : Fin 1) d)) 0 := by
  unfold k4_pay1
  simp only [shapeCast_self]
  show max (x0 (ix2 r d) + x1 (ix2 r d) * broadcastTo S2000x256 x2 broadcasts_S2000x1_S2000x256 (ix2 r d)
      + broadcastTo S2000x256 x3 broadcasts_S1x256_S2000x256 (ix2 r d)) (Scalar.ofBits (F := Ideal) .f32 0x00000000#32) = _
  rw [zero_word]
  rw [broadcastTo_apply x2 broadcasts_S2000x1_S2000x256 (ix2 r d) (ix2 r (0 : Fin 1)) (fun a => by
        match a with
        | ⟨0, _⟩ => exact (if_neg (show ¬ (2000 : Nat) = 1 by decide)).symm
        | ⟨1, _⟩ => exact (if_pos rfl).symm),
      broadcastTo_apply x3 broadcasts_S1x256_S2000x256 (ix2 r d) (ix2 (0 : Fin 1) d) (fun a => by
        match a with
        | ⟨0, _⟩ => exact (if_pos rfl).symm
        | ⟨1, _⟩ => exact (if_neg (show ¬ (256 : Nat) = 1 by decide)).symm)]

/-- The windows' index maps at a grid point: a row-tiled window sits at block row t, column block 0; the bias row's
    window is the whole array. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Entry (r, d) of the aggregated messages' block at point t is entry (2000 t + r, d) of the array. -/
theorem blk_0 (c : Dev nD) (t : Fin cfg4.N) (r : Fin 2000) (d : Fin 256) (k : S20000x256.Idx)
    (hk0 : (k 0).val = t.val * 2000 + r.val) (hk1 : (k 1).val = d.val) :
    (iblk4 V c 0 t : Vec Ideal S2000x256 .f32) (ix2 r d) = (V c main_v65 : S20000x256.Idx → Elt Ideal .f32) k := by
  obtain ⟨e0, e1, -⟩ := idx_facts t
  unfold iblk4
  rw [View.read_apply]
  show V c main_v65 _ = V c main_v65 _
  congr 1
  funext a
  apply Fin.ext
  match a with
  | ⟨0, _⟩ => show win4_0.index t (0 : Fin 2) * 2000 + 1 * r.val = (k 0).val; rw [e0, hk0]; omega
  | ⟨1, _⟩ => show win4_0.index t (1 : Fin 2) * 256 + 1 * d.val = (k 1).val; rw [e1, hk1]; omega

/-- Entry (r, d) of the own features' block at point t is entry (2000 t + r, d) of the array. -/
theorem blk_1 (c : Dev nD) (t : Fin cfg4.N) (r : Fin 2000) (d : Fin 256) (k : S20000x256.Idx)
    (hk0 : (k 0).val = t.val * 2000 + r.val) (hk1 : (k 1).val = d.val) :
    (iblk4 V c 1 t : Vec Ideal S2000x256 .f32) (ix2 r d) = (V c main_v53 : S20000x256.Idx → Elt Ideal .f32) k := by
  obtain ⟨-, -, e0, e1, -⟩ := idx_facts t
  unfold iblk4
  rw [View.read_apply]
  show V c main_v53 _ = V c main_v53 _
  congr 1
  funext a
  apply Fin.ext
  match a with
  | ⟨0, _⟩ => show win4_1.index t (0 : Fin 2) * 2000 + 1 * r.val = (k 0).val; rw [e0, hk0]; omega
  | ⟨1, _⟩ => show win4_1.index t (1 : Fin 2) * 256 + 1 * d.val = (k 1).val; rw [e1, hk1]; omega

/-- Entry (r, 0) of the self-loop weights' block at point t is entry (2000 t + r, 0) of the array. -/
theorem blk_2 (c : Dev nD) (t : Fin cfg4.N) (r : Fin 2000) (k : S20000x1.Idx)
    (hk0 : (k 0).val = t.val * 2000 + r.val) :
    (iblk4 V c 2 t : Vec Ideal S2000x1 .f32) (ix2 r (0 : Fin 1)) = (V c main_v28 : S20000x1.Idx → Elt Ideal .f32) k := by
  obtain ⟨-, -, -, -, e0, e1, -⟩ := idx_facts t
  have hk1 : (k 1).val = 0 := by have := idx2_lt1 k; omega
  unfold iblk4
  rw [View.read_apply]
  show V c main_v28 _ = V c main_v28 _
  congr 1
  funext a
  apply Fin.ext
  match a with
  | ⟨0, _⟩ => show win4_2.index t (0 : Fin 2) * 2000 + 1 * r.val = (k 0).val; rw [e0, hk0]; omega
  | ⟨1, _⟩ => show win4_2.index t (1 : Fin 2) * 1 + 1 * 0 = (k 1).val; rw [e1, hk1]

/-- The bias row's block at every point is the whole row. -/
theorem blk_3 (c : Dev nD) (t : Fin cfg4.N) (d : Fin 256) (k : S1x256.Idx) (hk1 : (k 1).val = d.val) :
    (iblk4 V c 3 t : Vec Ideal S1x256 .f32) (ix2 (0 : Fin 1) d) = (V c main_v68 : S1x256.Idx → Elt Ideal .f32) k := by
  obtain ⟨-, -, -, -, -, -, e0, e1, -⟩ := idx_facts t
  have hk0 : (k 0).val = 0 := by have := idx2_lt0 k; omega
  unfold iblk4
  rw [View.read_apply]
  show V c main_v68 _ = V c main_v68 _
  congr 1
  funext a
  apply Fin.ext
  match a with
  | ⟨0, _⟩ => show win4_3.index t (0 : Fin 2) * 1 + 1 * 0 = (k 0).val; rw [e0, hk0]
  | ⟨1, _⟩ => show win4_3.index t (1 : Fin 2) * 256 + 1 * d.val = (k 1).val; rw [e1, hk1]; omega

/-- What point t writes back is block t of the whole-array function. -/
theorem flushed_eq (c : Dev nD) (t : Fin cfg4.N) :
    (dat4 V c).flushed 4 t = ((cfg4.win 4).blk t).view.read (Elt Ideal)
      (Cert.Spec.mixRelu (V c main_v65) (V c main_v53) (V c main_v28) (V c main_v68)) := by
  show (cfg4.win 4).cut (grid4.coords t) ((dat4 V c).after 4 t) = _
  rw [after4_4]
  unfold out4_4
  rw [View.canon_unit_zero hz]
  simp only [View.ld_unit_zero (S := S2000x256) hz, View.ld_unit_zero (S := S2000x1) hz, View.ld_unit_zero (S := S1x256) hz]
  obtain ⟨-, -, -, -, -, -, -, -, e0, e1⟩ := idx_facts t
  funext j
  obtain ⟨r, d, rfl⟩ : ∃ (r : Fin 2000) (d : Fin 256), j = ix2 r d := ⟨j 0, j 1, eq_ix2 j⟩
  show k4_pay1 (iblk4 V c 0 t) (iblk4 V c 1 t) (iblk4 V c 2 t) (iblk4 V c 3 t) (ix2 r d)
    = Cert.Spec.mixRelu (V c main_v65) (V c main_v53) (V c main_v28) (V c main_v68) (((cfg4.win 4).blk t).view.emb (ix2 r d))
  have hrow : ((((cfg4.win 4).blk t).view.emb (ix2 r d)) 0).val = t.val * 2000 + r.val := by
    show win4_4.index t (0 : Fin 2) * 2000 + 1 * r.val = _
    rw [e0]; omega
  have hcol : ((((cfg4.win 4).blk t).view.emb (ix2 r d)) 1).val = d.val := by
    show win4_4.index t (1 : Fin 2) * 256 + 1 * d.val = _
    rw [e1]; omega
  generalize ((cfg4.win 4).blk t).view.emb (ix2 r d) = i at hrow hcol
  rw [pay_apply]
  unfold Cert.Spec.mixRelu
  rw [Cert.Spec.ofCoords_apply]
  unfold Cert.Spec.mixAt
  rw [blk_0 V c t r d (ix2 ⟨(i 0).val, idx2_lt0 i⟩ ⟨(i 1).val, idx2_lt1 i⟩) hrow hcol,
    blk_1 V c t r d (ix2 ⟨(i 0).val, idx2_lt0 i⟩ ⟨(i 1).val, idx2_lt1 i⟩) hrow hcol,
    blk_2 V c t r (ix2 ⟨(i 0).val, idx2_lt0 i⟩ (0 : Fin 1)) hrow,
    blk_3 V c t d (ix2 (0 : Fin 1) ⟨(i 1).val, idx2_lt1 i⟩) hcol]

/-- An index of the array is in point t's block iff each coordinate is in the block's range on its axis. -/
theorem mem_blk (t : Fin cfg4.N) (i : S20000x256.Idx) :
    i ∈ ((cfg4.win 4).blk t).view.set ↔ ∀ a : Fin 2, win4_4.index t a * S2000x256.size a ≤ (i a).val ∧ (i a).val < win4_4.index t a * S2000x256.size a + S2000x256.size a := by
  show i ∈ ((View.whole main_v69).slice (win4_4.rect t)).set ↔ _
  rw [View.set_slice_whole, Rect.mem_set_unit]
  exact Iff.rfl

/-- Row n of the array lies in the block of point n / 2000. -/
theorem cover (i : S20000x256.Idx) :
    ∃ t : Fin cfg4.N, (cfg4.win 4).flush t = true ∧ i ∈ ((cfg4.win 4).blk t).view.set := by
  have hi0 : (i 0).val < 20000 := idx2_lt0 i
  have hi1 : (i 1).val < 256 := idx2_lt1 i
  have hN : cfg4.N = 10 := N_4
  obtain ⟨t, ht⟩ : ∃ t : Fin cfg4.N, t.val = (i 0).val / 2000 := ⟨⟨(i 0).val / 2000, by rw [hN]; omega⟩, rfl⟩
  obtain ⟨-, -, -, -, -, -, -, -, e0, e1⟩ := idx_facts t
  refine ⟨t, flush4_4 t, ?_⟩
  rw [mem_blk]
  intro a
  match a with
  | ⟨0, _⟩ =>
    show win4_4.index t (0 : Fin 2) * 2000 ≤ (i 0).val ∧ (i 0).val < win4_4.index t (0 : Fin 2) * 2000 + 2000
    rw [e0, ht]; omega
  | ⟨1, _⟩ =>
    show win4_4.index t (1 : Fin 2) * 256 ≤ (i 1).val ∧ (i 1).val < win4_4.index t (1 : Fin 2) * 256 + 256
    rw [e1]; omega

/-- After the ten grid points the output array is that function of the arrays the launch found. -/
theorem final (c : Dev nD) :
    (dat4 (F := Ideal) V c).arrAt 4 cfg4.N = Cert.Spec.mixRelu (V c main_v65) (V c main_v53) (V c main_v28) (V c main_v68) :=
  (dat4 V c).arrAt_eq_of_cover 4 _ (fun t _ => flushed_eq V c t) cover

end Cert.KernelIdeal.Mix4

end
-- ==== Proof.Dense5.lean ====
/-
  The third layer's dense launch (2000 nodes per grid point): the whole output array is the dense layer of the whole input array, the weight matrix and the bias row.
-/
import proofs.«401411_j7164005449946_1_alg».proof.Proof.Gen.KernelIdeal.Frame
import proofs.«401411_j7164005449946_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense5

open Cert.KernelIdeal Cert.KernelIdeal.Gen

variable (V : (c : Dev nD) → (b : Ref sig .tc) → Buf (Elt Ideal) ((c : Thread nD τ).loc b))

/-! ## The block product at an index

  The product of a [2000,256] block with a [256,256] matrix contracts the block's second axis against the matrix's
  first: entry (r, d) reads the block at (r, k) and the matrix at (k, d), k the one contraction coordinate. -/

theorem lhs_ax0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_ax1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_ax0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_ax1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (r, d) of the block product into a zero accumulator is the sum over k of block (r, k) times matrix (k, d). -/
theorem matmul_at (a : FVec Ideal S2000x256 .bf16) (b : FVec Ideal S256x256 .bf16) (r : Fin 2000) (d : Fin 256) :
    matmul dot_S2000x256_S256x256_S2000x256_1_0_0_1_n_n none a b (constant (F := Ideal) S2000x256 .f32 0x00000000#32) (ix2 r d)
      = ∑ k : Fin 256, a (ix2 r k) * b (ix2 k d) := by
  refine (Ideal.matmul_constant_zero_apply dot_S2000x256_S256x256_S2000x256_1_0_0_1_n_n none a b (ix2 r d)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r d) ((ValueIdx.contrEquiv1 dot_S2000x256_S256x256_S2000x256_1_0_0_1_n_n 256 rfl rfl).symm k) = ix2 r k := funext fun a => Fin.ext (by
    match a with
    | ⟨0, _⟩ => exact lhs_ax0 _ _
    | ⟨1, _⟩ => exact (lhs_ax1 _ _).trans hk)
  have er : dot_S2000x256_S256x256_S2000x256_1_0_0_1_n_n.rhsIdx (ix2 r d) ((ValueIdx.contrEquiv1 dot_S2000x256_S256x256_S2000x256_1_0_0_1_n_n 256 rfl rfl).symm k) = ix2 k d := funext fun a => Fin.ext (by
    match a with
    | ⟨0, _⟩ => exact (rhs_ax0 _ _).trans hk
    | ⟨1, _⟩ => exact rhs_ax1 _ _)
  rw [el, er]

/-! ## The body's arithmetic at an index -/

/-- The bias row spread over the 2000 rows of a block reads the row's entry d at every (r, d). -/
theorem bias_at (x2 : FVec Ideal S1x256 .f32) (h : S1x256.Broadcasts S2000x256) (r : Fin 2000) (d : Fin 256) :
    broadcastTo S2000x256 x2 h (ix2 r d) = x2 (ix2 (0 : Fin 1) d) :=
  broadcastTo_apply x2 h (ix2 r d) (ix2 (0 : Fin 1) d) (fun a => by
    match a with
    | ⟨0, _⟩ => exact (if_pos rfl).symm
    | ⟨1, _⟩ => exact (if_neg (show ¬((256 : Nat) = 1) by decide)).symm)

/-- Entry (r, d) of what the body stores: row r of the node block against column d of the weights, plus the bias
    row's entry d. -/
theorem pay_at (x0 : FVec Ideal S2000x256 .f32) (x1 : FVec Ideal S256x256 .f32) (x2 : FVec Ideal S1x256 .f32) (r : Fin 2000) (d : Fin 256) :
    k5_pay1 (F := Ideal) x0 x1 x2 (ix2 r d) = (∑ k : Fin 256, x0 (ix2 r k) * x1 (ix2 k d)) + x2 (ix2 (0 : Fin 1) d) := by
  unfold k5_pay1
  rw [shapeCast_self x0, shapeCast_self x1, shapeCast_self x2]
  refine (addf_apply _ _ _).trans ?_
  refine congrArg₂ (· + ·) ?_ ?_
  · exact matmul_at _ _ r d
  · exact bias_at x2 _ r d

/-! ## The windows' blocks as parts of the arrays -/

theorem hz : (![0, 0] : Fin 2 → Nat) = fun _ => 0 := funext fun a => by fin_cases a <;> rfl

/-- The index maps, decided over the ten grid points: the node blocks (input and output) move down the rows with the
    point, the weight matrix and the bias row stay whole. -/
theorem idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- Row r of point t's block is row 2000 t + r of the array. -/
def rowOf (t : Fin cfg5.N) (r : Fin 2000) : Fin 20000 :=
  ⟨t.val * 2000 + r.val, by have ht : t.val < 10 := lt_of_lt_of_eq t.isLt N_5; have hr := r.isLt; omega⟩

/-- The node block at point t, entry (r, k): the node array at (2000 t + r, k). -/
theorem blk_0 (c : Dev nD) (t : Fin cfg5.N) (r : Fin 2000) (k : Fin 256) :
    (iblk5 V c 0 t : Vec Ideal S2000x256 .f32) (ix2 r k) = (V c main_v69 : S20000x256.Idx → Elt Ideal .f32) (ix2 (rowOf t r) k) := by
  obtain ⟨e0, e1, -⟩ := idx_facts t
  unfold iblk5
  rw [View.read_apply]
  show V c main_v69 _ = V c main_v69 _
  congr 1
  funext a
  apply Fin.ext
  match a with
  | ⟨0, _⟩ => show win5_0.index t (0 : Fin 2) * 2000 + 1 * r.val = t.val * 2000 + r.val; rw [e0]; omega
  | ⟨1, _⟩ => show win5_0.index t (1 : Fin 2) * 256 + 1 * k.val = k.val; rw [e1]; omega

/-- The weight block at any point is the weight matrix. -/
theorem blk_1 (c : Dev nD) (t : Fin cfg5.N) (k : Fin 256) (d : Fin 256) :
    (iblk5 V c 1 t : Vec Ideal S256x256 .f32) (ix2 k d) = (V c main_v71 : S256x256.Idx → Elt Ideal .f32) (ix2 k d) := by
  obtain ⟨-, -, e2, e3, -⟩ := idx_facts t
  unfold iblk5
  rw [View.read_apply]
  show V c main_v71 _ = V c main_v71 _
  congr 1
  funext a
  apply Fin.ext
  match a with
  | ⟨0, _⟩ => show win5_1.index t (0 : Fin 2) * 256 + 1 * k.val = k.val; rw [e2]; omega
  | ⟨1, _⟩ => show win5_1.index t (1 : Fin 2) * 256 + 1 * d.val = d.val; rw [e3]; omega

/-- The bias block at any point is the bias row. -/
theorem blk_2 (c : Dev nD) (t : Fin cfg5.N) (d : Fin 256) :
    (iblk5 V c 2 t : Vec Ideal S1x256 .f32) (ix2 (0 : Fin 1) d) = (V c main_v31 : S1x256.Idx → Elt Ideal .f32) (ix2 (0 : Fin 1) d) := by
  obtain ⟨-, -, -, -, e4, e5, -⟩ := idx_facts t
  unfold iblk5
  rw [View.read_apply]
  show V c main_v31 _ = V c main_v31 _
  congr 1
  funext a
  apply Fin.ext
  match a with
  | ⟨0, _⟩ => show win5_2.index t (0 : Fin 2) * 1 + 1 * 0 = 0; rw [e4]
  | ⟨1, _⟩ => show win5_2.index t (1 : Fin 2) * 256 + 1 * d.val = d.val; rw [e5]; omega

/-! ## What a point writes back, and the whole array -/

/-- Entry (r, d) of what the body leaves at point t is the layer's entry (2000 t + r, d). -/
theorem stored_at (c : Dev nD) (t : Fin cfg5.N) (r : Fin 2000) (d : Fin 256) :
    k5_pay1 (iblk5 V c 0 t) (iblk5 V c 1 t) (iblk5 V c 2 t) (ix2 r d)
      = Cert.Spec.denseAt (V c main_v69) (V c main_v71) (V c main_v31) (rowOf t r) d := by
  refine (pay_at _ _ _ r d).trans ?_
  unfold Cert.Spec.denseAt
  rw [blk_2 V c t d]
  refine congrArg (· + _) (Finset.sum_congr rfl fun k _ => ?_)
  rw [blk_0 V c t r k, blk_1 V c t k d]

/-- WHAT POINT t WRITES BACK is block t of the layer of the arrays the launch found. -/
theorem flushed_eq (c : Dev nD) (t : Fin cfg5.N) :
    (dat5 V c).flushed 3 t = ((cfg5.win 3).blk t).view.read (Elt Ideal) (Cert.Spec.dense (V c main_v69) (V c main_v71) (V c main_v31)) := by
  show (cfg5.win 3).cut (grid5.coords t) ((dat5 V c).after 3 t) = _
  rw [after5_3]
  unfold out5_3
  rw [View.canon_unit_zero hz]
  simp only [View.ld_unit_zero (S := S2000x256) hz, View.ld_unit_zero (S := S256x256) hz, View.ld_unit_zero (S := S1x256) hz]
  obtain ⟨-, -, -, -, -, -, e6, e7⟩ := idx_facts t
  funext j
  obtain ⟨r, d, rfl⟩ : ∃ (r : Fin 2000) (d : Fin 256), j = ix2 r d := ⟨j 0, j 1, eq_ix2 (n0 := 2000) (n1 := 256) j⟩
  show k5_pay1 (iblk5 V c 0 t) (iblk5 V c 1 t) (iblk5 V c 2 t) (ix2 r d)
    = Cert.Spec.dense (V c main_v69) (V c main_v71) (V c main_v31) (((cfg5.win 3).blk t).view.emb (ix2 r d))
  rw [stored_at V c t r d]
  unfold Cert.Spec.dense
  rw [Cert.Spec.ofCoords_apply]
  have h0 : (⟨((((cfg5.win 3).blk t).view.emb (ix2 r d)) 0).val, idx2_lt0 _⟩ : Fin 20000) = rowOf t r := by
    apply Fin.ext
    show win5_3.index t (0 : Fin 2) * 2000 + 1 * r.val = t.val * 2000 + r.val
    rw [e6]; omega
  have h1 : (⟨((((cfg5.win 3).blk t).view.emb (ix2 r d)) 1).val, idx2_lt1 _⟩ : Fin 256) = d := by
    apply Fin.ext
    show win5_3.index t (1 : Fin 2) * 256 + 1 * d.val = d.val
    rw [e7]; omega
  rw [h0, h1]

/-- An index of the array is in point t's block iff each coordinate is in the block's range on its axis. -/
theorem mem_blk (t : Fin cfg5.N) (i : S20000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v72).slice (win5_3.rect t)).set ↔ _
  rw [View.set_slice_whole, Rect.mem_set_unit]
  exact Iff.rfl

/-- Every index of the array is in the block of the point its row falls to: row n belongs to point n / 2000. -/
theorem cover (i : S20000x256.Idx) :
    ∃ t : Fin cfg5.N, (cfg5.win 3).flush t = true ∧ i ∈ ((cfg5.win 3).blk t).view.set := by
  have hi0 : (i 0).val < 20000 := (i 0).isLt
  have hi1 : (i 1).val < 256 := (i 1).isLt
  have hN : grid5.N = 10 := N_5
  have hlt : (i 0).val / 2000 < grid5.N := by rw [hN]; omega
  obtain ⟨-, -, -, -, -, -, e6, e7⟩ := idx_facts ⟨(i 0).val / 2000, hlt⟩
  have e6' : win5_3.index ⟨(i 0).val / 2000, hlt⟩ (0 : Fin 2) = (i 0).val / 2000 := e6
  refine ⟨⟨(i 0).val / 2000, hlt⟩, flush5_3 _, ?_⟩
  rw [mem_blk]
  intro a
  match a with
  | ⟨0, _⟩ => show win5_3.index ⟨(i 0).val / 2000, hlt⟩ (0 : Fin 2) * 2000 ≤ (i 0).val ∧ (i 0).val < win5_3.index ⟨(i 0).val / 2000, hlt⟩ (0 : Fin 2) * 2000 + 2000; rw [e6']; omega
  | ⟨1, _⟩ => show win5_3.index ⟨(i 0).val / 2000, hlt⟩ (1 : Fin 2) * 256 ≤ (i 1).val ∧ (i 1).val < win5_3.index ⟨(i 0).val / 2000, hlt⟩ (1 : Fin 2) * 256 + 256; rw [e7]; omega

/-- After the ten grid points the output array is that function of the arrays the launch found. -/
theorem final (c : Dev nD) :
    (dat5 (F := Ideal) V c).arrAt 3 cfg5.N = Cert.Spec.dense (V c main_v69) (V c main_v71) (V c main_v31) :=
  (dat5 V c).arrAt_eq_of_cover 3 _ (fun t _ => flushed_eq V c t) (cover)

end Cert.KernelIdeal.Dense5

end
-- ==== Proof.Mix6.lean ====
/-
  The last layer's combination launch (2000 nodes per grid point, no max): the whole output array is aggregated + own * self-loop weight + bias of the whole arrays.

  Entry (r, d) of what a grid point's body stores is x0[r,d] + x1[r,d] * x2[r,0] + x3[0,d] of its four input blocks (the
  column of self-loop weights is repeated along the features, the bias row along the nodes). At grid point t the three
  row-tiled inputs' blocks and the output's block are rows 2000 t .. 2000 t + 1999 of their arrays and the bias row's
  block is the whole row, so the point writes back rows 2000 t .. 2000 t + 1999 of the whole-array function; row n lies
  in the block of point n / 2000, so the ten blocks fill the array.
-/
import proofs.«401411_j7164005449946_1_alg».proof.Proof.Gen.KernelIdeal.Frame
import proofs.«401411_j7164005449946_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Mix6

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- Entry (r, d) of the body's stored value, from its four input blocks: the self-loop weights' column is read at
    (r, 0) and the bias row at (0, d). -/
theorem pay_apply (x0 x1 : FVec Ideal S2000x256 .f32) (x2 : FVec Ideal S2000x1 .f32) (x3 : FVec Ideal S1x256 .f32)
    (r : Fin 2000) (d : Fin 256) :
    k6_pay1 x0 x1 x2 x3 (ix2 r d)
      = x0 (ix2 r d) + x1 (ix2 r d) * x2 (ix2 r (0 : Fin 1)) + x3 (ix2 (0 : Fin 1) d) := by
  unfold k6_pay1
  simp only [shapeCast_self]
  show x0 (ix2 r d) + x1 (ix2 r d) * broadcastTo S2000x256 x2 broadcasts_S2000x1_S2000x256 (ix2 r d)
      + broadcastTo S2000x256 x3 broadcasts_S1x256_S2000x256 (ix2 r d) = _
  rw [broadcastTo_apply x2 broadcasts_S2000x1_S2000x256 (ix2 r d) (ix2 r (0 : Fin 1)) (fun a => by
        match a with
        | ⟨0, _⟩ => exact (if_neg (show ¬ (2000 : Nat) = 1 by decide)).symm
        | ⟨1, _⟩ => exact (if_pos rfl).symm),
      broadcastTo_apply x3 broadcasts_S1x256_S2000x256 (ix2 r d) (ix2 (0 : Fin 1) d) (fun a => by
        match a with
        | ⟨0, _⟩ => exact (if_pos rfl).symm
        | ⟨1, _⟩ => exact (if_neg (show ¬ (256 : Nat) = 1 by decide)).symm)]

/-- The windows' index maps at a grid point: a row-tiled window sits at block row t, column block 0; the bias row's
    window is the whole array. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Entry (r, d) of the aggregated messages' block at point t is entry (2000 t + r, d) of the array. -/
theorem blk_0 (c : Dev nD) (t : Fin cfg6.N) (r : Fin 2000) (d : Fin 256) (k : S20000x256.Idx)
    (hk0 : (k 0).val = t.val * 2000 + r.val) (hk1 : (k 1).val = d.val) :
    (iblk6 V c 0 t : Vec Ideal S2000x256 .f32) (ix2 r d) = (V c main_v84 : S20000x256.Idx → Elt Ideal .f32) k := by
  obtain ⟨e0, e1, -⟩ := idx_facts t
  unfold iblk6
  rw [View.read_apply]
  show V c main_v84 _ = V c main_v84 _
  congr 1
  funext a
  apply Fin.ext
  match a with
  | ⟨0, _⟩ => show win6_0.index t (0 : Fin 2) * 2000 + 1 * r.val = (k 0).val; rw [e0, hk0]; omega
  | ⟨1, _⟩ => show win6_0.index t (1 : Fin 2) * 256 + 1 * d.val = (k 1).val; rw [e1, hk1]; omega

/-- Entry (r, d) of the own features' block at point t is entry (2000 t + r, d) of the array. -/
theorem blk_1 (c : Dev nD) (t : Fin cfg6.N) (r : Fin 2000) (d : Fin 256) (k : S20000x256.Idx)
    (hk0 : (k 0).val = t.val * 2000 + r.val) (hk1 : (k 1).val = d.val) :
    (iblk6 V c 1 t : Vec Ideal S2000x256 .f32) (ix2 r d) = (V c main_v72 : S20000x256.Idx → Elt Ideal .f32) k := by
  obtain ⟨-, -, e0, e1, -⟩ := idx_facts t
  unfold iblk6
  rw [View.read_apply]
  show V c main_v72 _ = V c main_v72 _
  congr 1
  funext a
  apply Fin.ext
  match a with
  | ⟨0, _⟩ => show win6_1.index t (0 : Fin 2) * 2000 + 1 * r.val = (k 0).val; rw [e0, hk0]; omega
  | ⟨1, _⟩ => show win6_1.index t (1 : Fin 2) * 256 + 1 * d.val = (k 1).val; rw [e1, hk1]; omega

/-- Entry (r, 0) of the self-loop weights' block at point t is entry (2000 t + r, 0) of the array. -/
theorem blk_2 (c : Dev nD) (t : Fin cfg6.N) (r : Fin 2000) (k : S20000x1.Idx)
    (hk0 : (k 0).val = t.val * 2000 + r.val) :
    (iblk6 V c 2 t : Vec Ideal S2000x1 .f32) (ix2 r (0 : Fin 1)) = (V c main_v28 : S20000x1.Idx → Elt Ideal .f32) k := by
  obtain ⟨-, -, -, -, e0, e1, -⟩ := idx_facts t
  have hk1 : (k 1).val = 0 := by have := idx2_lt1 k; omega
  unfold iblk6
  rw [View.read_apply]
  show V c main_v28 _ = V c main_v28 _
  congr 1
  funext a
  apply Fin.ext
  match a with
  | ⟨0, _⟩ => show win6_2.index t (0 : Fin 2) * 2000 + 1 * r.val = (k 0).val; rw [e0, hk0]; omega
  | ⟨1, _⟩ => show win6_2.index t (1 : Fin 2) * 1 + 1 * 0 = (k 1).val; rw [e1, hk1]

/-- The bias row's block at every point is the whole row. -/
theorem blk_3 (c : Dev nD) (t : Fin cfg6.N) (d : Fin 256) (k : S1x256.Idx) (hk1 : (k 1).val = d.val) :
    (iblk6 V c 3 t : Vec Ideal S1x256 .f32) (ix2 (0 : Fin 1) d) = (V c main_v87 : S1x256.Idx → Elt Ideal .f32) k := by
  obtain ⟨-, -, -, -, -, -, e0, e1, -⟩ := idx_facts t
  have hk0 : (k 0).val = 0 := by have := idx2_lt0 k; omega
  unfold iblk6
  rw [View.read_apply]
  show V c main_v87 _ = V c main_v87 _
  congr 1
  funext a
  apply Fin.ext
  match a with
  | ⟨0, _⟩ => show win6_3.index t (0 : Fin 2) * 1 + 1 * 0 = (k 0).val; rw [e0, hk0]
  | ⟨1, _⟩ => show win6_3.index t (1 : Fin 2) * 256 + 1 * d.val = (k 1).val; rw [e1, hk1]; omega

/-- What point t writes back is block t of the whole-array function. -/
theorem flushed_eq (c : Dev nD) (t : Fin cfg6.N) :
    (dat6 V c).flushed 4 t = ((cfg6.win 4).blk t).view.read (Elt Ideal)
      (Cert.Spec.mix (V c main_v84) (V c main_v72) (V c main_v28) (V c main_v87)) := by
  show (cfg6.win 4).cut (grid6.coords t) ((dat6 V c).after 4 t) = _
  rw [after6_4]
  unfold out6_4
  rw [View.canon_unit_zero hz]
  simp only [View.ld_unit_zero (S := S2000x256) hz, View.ld_unit_zero (S := S2000x1) hz, View.ld_unit_zero (S := S1x256) hz]
  obtain ⟨-, -, -, -, -, -, -, -, e0, e1⟩ := idx_facts t
  funext j
  obtain ⟨r, d, rfl⟩ : ∃ (r : Fin 2000) (d : Fin 256), j = ix2 r d := ⟨j 0, j 1, eq_ix2 j⟩
  show k6_pay1 (iblk6 V c 0 t) (iblk6 V c 1 t) (iblk6 V c 2 t) (iblk6 V c 3 t) (ix2 r d)
    = Cert.Spec.mix (V c main_v84) (V c main_v72) (V c main_v28) (V c main_v87) (((cfg6.win 4).blk t).view.emb (ix2 r d))
  have hrow : ((((cfg6.win 4).blk t).view.emb (ix2 r d)) 0).val = t.val * 2000 + r.val := by
    show win6_4.index t (0 : Fin 2) * 2000 + 1 * r.val = _
    rw [e0]; omega
  have hcol : ((((cfg6.win 4).blk t).view.emb (ix2 r d)) 1).val = d.val := by
    show win6_4.index t (1 : Fin 2) * 256 + 1 * d.val = _
    rw [e1]; omega
  generalize ((cfg6.win 4).blk t).view.emb (ix2 r d) = i at hrow hcol
  rw [pay_apply]
  unfold Cert.Spec.mix
  rw [Cert.Spec.ofCoords_apply]
  unfold Cert.Spec.mixAt
  rw [blk_0 V c t r d (ix2 ⟨(i 0).val, idx2_lt0 i⟩ ⟨(i 1).val, idx2_lt1 i⟩) hrow hcol,
    blk_1 V c t r d (ix2 ⟨(i 0).val, idx2_lt0 i⟩ ⟨(i 1).val, idx2_lt1 i⟩) hrow hcol,
    blk_2 V c t r (ix2 ⟨(i 0).val, idx2_lt0 i⟩ (0 : Fin 1)) hrow,
    blk_3 V c t d (ix2 (0 : Fin 1) ⟨(i 1).val, idx2_lt1 i⟩) hcol]

/-- An index of the array is in point t's block iff each coordinate is in the block's range on its axis. -/
theorem mem_blk (t : Fin cfg6.N) (i : S20000x256.Idx) :
    i ∈ ((cfg6.win 4).blk t).view.set ↔ ∀ a : Fin 2, win6_4.index t a * S2000x256.size a ≤ (i a).val ∧ (i a).val < win6_4.index t a * S2000x256.size a + S2000x256.size a := by
  show i ∈ ((View.whole main_v88).slice (win6_4.rect t)).set ↔ _
  rw [View.set_slice_whole, Rect.mem_set_unit]
  exact Iff.rfl

/-- Row n of the array lies in the block of point n / 2000. -/
theorem cover (i : S20000x256.Idx) :
    ∃ t : Fin cfg6.N, (cfg6.win 4).flush t = true ∧ i ∈ ((cfg6.win 4).blk t).view.set := by
  have hi0 : (i 0).val < 20000 := idx2_lt0 i
  have hi1 : (i 1).val < 256 := idx2_lt1 i
  have hN : cfg6.N = 10 := N_6
  obtain ⟨t, ht⟩ : ∃ t : Fin cfg6.N, t.val = (i 0).val / 2000 := ⟨⟨(i 0).val / 2000, by rw [hN]; omega⟩, rfl⟩
  obtain ⟨-, -, -, -, -, -, -, -, e0, e1⟩ := idx_facts t
  refine ⟨t, flush6_4 t, ?_⟩
  rw [mem_blk]
  intro a
  match a with
  | ⟨0, _⟩ =>
    show win6_4.index t (0 : Fin 2) * 2000 ≤ (i 0).val ∧ (i 0).val < win6_4.index t (0 : Fin 2) * 2000 + 2000
    rw [e0, ht]; omega
  | ⟨1, _⟩ =>
    show win6_4.index t (1 : Fin 2) * 256 ≤ (i 1).val ∧ (i 1).val < win6_4.index t (1 : Fin 2) * 256 + 256
    rw [e1]; omega

/-- After the ten grid points the output array is that function of the arrays the launch found. -/
theorem final (c : Dev nD) :
    (dat6 (F := Ideal) V c).arrAt 4 cfg6.N = Cert.Spec.mix (V c main_v84) (V c main_v72) (V c main_v28) (V c main_v87) :=
  (dat6 V c).arrAt_eq_of_cover 4 _ (fun t _ => flushed_eq V c t) cover

end Cert.KernelIdeal.Mix6

end
-- ==== Proof.DenseRelu7.lean ====
/-
  The head's first dense launch (2000 nodes per grid point): the whole output array is max(dense layer, 0) of the whole input array, the weight matrix and the bias row.
-/
import proofs.«401411_j7164005449946_1_alg».proof.Proof.Gen.KernelIdeal.Frame
import proofs.«401411_j7164005449946_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.DenseRelu7

open Cert.KernelIdeal Cert.KernelIdeal.Gen

variable (V : (c : Dev nD) → (b : Ref sig .tc) → Buf (Elt Ideal) ((c : Thread nD τ).loc b))

/-! ## The block product at an index

  The product of a [2000,256] block with a [256,256] matrix contracts the block's second axis against the matrix's
  first: entry (r, d) reads the block at (r, k) and the matrix at (k, d), k the one contraction coordinate. -/

theorem lhs_ax0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_ax1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_ax0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_ax1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Entry (r, d) of the block product into a zero accumulator is the sum over k of block (r, k) times matrix (k, d). -/
theorem matmul_at (a : FVec Ideal S2000x256 .bf16) (b : FVec Ideal S256x256 .bf16) (r : Fin 2000) (d : Fin 256) :
    matmul dot_S2000x256_S256x256_S2000x256_1_0_0_1_n_n none a b (constant (F := Ideal) S2000x256 .f32 0x00000000#32) (ix2 r d)
      = ∑ k : Fin 256, a (ix2 r k) * b (ix2 k d) := by
  refine (Ideal.matmul_constant_zero_apply dot_S2000x256_S256x256_S2000x256_1_0_0_1_n_n none a b (ix2 r d)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 r d) ((ValueIdx.contrEquiv1 dot_S2000x256_S256x256_S2000x256_1_0_0_1_n_n 256 rfl rfl).symm k) = ix2 r k := funext fun a => Fin.ext (by
    match a with
    | ⟨0, _⟩ => exact lhs_ax0 _ _
    | ⟨1, _⟩ => exact (lhs_ax1 _ _).trans hk)
  have er : dot_S2000x256_S256x256_S2000x256_1_0_0_1_n_n.rhsIdx (ix2 r d) ((ValueIdx.contrEquiv1 dot_S2000x256_S256x256_S2000x256_1_0_0_1_n_n 256 rfl rfl).symm k) = ix2 k d := funext fun a => Fin.ext (by
    match a with
    | ⟨0, _⟩ => exact (rhs_ax0 _ _).trans hk
    | ⟨1, _⟩ => exact rhs_ax1 _ _)
  rw [el, er]

/-! ## The body's arithmetic at an index -/

/-- The bias row spread over the 2000 rows of a block reads the row's entry d at every (r, d). -/
theorem bias_at (x2 : FVec Ideal S1x256 .f32) (h : S1x256.Broadcasts S2000x256) (r : Fin 2000) (d : Fin 256) :
    broadcastTo S2000x256 x2 h (ix2 r d) = x2 (ix2 (0 : Fin 1) d) :=
  broadcastTo_apply x2 h (ix2 r d) (ix2 (0 : Fin 1) d) (fun a => by
    match a with
    | ⟨0, _⟩ => exact (if_pos rfl).symm
    | ⟨1, _⟩ => exact (if_neg (show ¬((256 : Nat) = 1) by decide)).symm)

/-- Entry (r, d) of what the body stores: row r of the node block against column d of the weights, plus the bias
    row's entry d, and the greater of that and 0. -/
theorem pay_at (x0 : FVec Ideal S2000x256 .f32) (x1 : FVec Ideal S256x256 .f32) (x2 : FVec Ideal S1x256 .f32) (r : Fin 2000) (d : Fin 256) :
    k7_pay1 (F := Ideal) x0 x1 x2 (ix2 r d) = max ((∑ k : Fin 256, x0 (ix2 r k) * x1 (ix2 k d)) + x2 (ix2 (0 : Fin 1) d)) 0 := by
  unfold k7_pay1
  rw [shapeCast_self x0, shapeCast_self x2]
  refine (maximumf_apply _ _ _).trans ?_
  refine congrArg₂ max ?_ ?_
  · refine (addf_apply _ _ _).trans ?_
    refine congrArg₂ (· + ·) ?_ ?_
    · exact matmul_at _ _ r d
    · exact bias_at x2 _ r d
  · exact Ideal.ofBits_zero_f32

/-! ## The windows' blocks as parts of the arrays -/

theorem hz : (![0, 0] : Fin 2 → Nat) = fun _ => 0 := funext fun a => by fin_cases a <;> rfl

/-- The index maps, decided over the ten grid points: the node blocks (input and output) move down the rows with the
    point, the weight matrix and the bias row stay whole. -/
theorem idx_facts : ∀ t : Fin cfg7.N, win7_0.index t (0 : Fin 2) = t.val
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- Row r of point t's block is row 2000 t + r of the array. -/
def rowOf (t : Fin cfg7.N) (r : Fin 2000) : Fin 20000 :=
  ⟨t.val * 2000 + r.val, by have ht : t.val < 10 := lt_of_lt_of_eq t.isLt N_7; have hr := r.isLt; omega⟩

/-- The node block at point t, entry (r, k): the node array at (2000 t + r, k). -/
theorem blk_0 (c : Dev nD) (t : Fin cfg7.N) (r : Fin 2000) (k : Fin 256) :
    (iblk7 V c 0 t : Vec Ideal S2000x256 .f32) (ix2 r k) = (V c main_v88 : S20000x256.Idx → Elt Ideal .f32) (ix2 (rowOf t r) k) := by
  obtain ⟨e0, e1, -⟩ := idx_facts t
  unfold iblk7
  rw [View.read_apply]
  show V c main_v88 _ = V c main_v88 _
  congr 1
  funext a
  apply Fin.ext
  match a with
  | ⟨0, _⟩ => show win7_0.index t (0 : Fin 2) * 2000 + 1 * r.val = t.val * 2000 + r.val; rw [e0]; omega
  | ⟨1, _⟩ => show win7_0.index t (1 : Fin 2) * 256 + 1 * k.val = k.val; rw [e1]; omega

/-- The weight block at any point is the weight matrix. -/
theorem blk_1 (c : Dev nD) (t : Fin cfg7.N) (k : Fin 256) (d : Fin 256) :
    (iblk7 V c 1 t : Vec Ideal S256x256 .f32) (ix2 k d) = (V c main_arg6 : S256x256.Idx → Elt Ideal .f32) (ix2 k d) := by
  obtain ⟨-, -, e2, e3, -⟩ := idx_facts t
  unfold iblk7
  rw [View.read_apply]
  show V c main_arg6 _ = V c main_arg6 _
  congr 1
  funext a
  apply Fin.ext
  match a with
  | ⟨0, _⟩ => show win7_1.index t (0 : Fin 2) * 256 + 1 * k.val = k.val; rw [e2]; omega
  | ⟨1, _⟩ => show win7_1.index t (1 : Fin 2) * 256 + 1 * d.val = d.val; rw [e3]; omega

/-- The bias block at any point is the bias row. -/
theorem blk_2 (c : Dev nD) (t : Fin cfg7.N) (d : Fin 256) :
    (iblk7 V c 2 t : Vec Ideal S1x256 .f32) (ix2 (0 : Fin 1) d) = (V c main_v89 : S1x256.Idx → Elt Ideal .f32) (ix2 (0 : Fin 1) d) := by
  obtain ⟨-, -, -, -, e4, e5, -⟩ := idx_facts t
  unfold iblk7
  rw [View.read_apply]
  show V c main_v89 _ = V c main_v89 _
  congr 1
  funext a
  apply Fin.ext
  match a with
  | ⟨0, _⟩ => show win7_2.index t (0 : Fin 2) * 1 + 1 * 0 = 0; rw [e4]
  | ⟨1, _⟩ => show win7_2.index t (1 : Fin 2) * 256 + 1 * d.val = d.val; rw [e5]; omega

/-! ## What a point writes back, and the whole array -/

/-- Entry (r, d) of what the body leaves at point t is the layer's entry (2000 t + r, d). -/
theorem stored_at (c : Dev nD) (t : Fin cfg7.N) (r : Fin 2000) (d : Fin 256) :
    k7_pay1 (iblk7 V c 0 t) (iblk7 V c 1 t) (iblk7 V c 2 t) (ix2 r d)
      = max (Cert.Spec.denseAt (V c main_v88) (V c main_arg6) (V c main_v89) (rowOf t r) d) 0 := by
  refine (pay_at _ _ _ r d).trans ?_
  unfold Cert.Spec.denseAt
  rw [blk_2 V c t d]
  refine congrArg (fun z => max z 0) (congrArg (· + _) (Finset.sum_congr rfl fun k _ => ?_))
  rw [blk_0 V c t r k, blk_1 V c t k d]

/-- WHAT POINT t WRITES BACK is block t of the layer of the arrays the launch found. -/
theorem flushed_eq (c : Dev nD) (t : Fin cfg7.N) :
    (dat7 V c).flushed 3 t = ((cfg7.win 3).blk t).view.read (Elt Ideal) (Cert.Spec.denseRelu (V c main_v88) (V c main_arg6) (V c main_v89)) := by
  show (cfg7.win 3).cut (grid7.coords t) ((dat7 V c).after 3 t) = _
  rw [after7_3]
  unfold out7_3
  rw [View.canon_unit_zero hz]
  simp only [View.ld_unit_zero (S := S2000x256) hz, View.ld_unit_zero (S := S256x256) hz, View.ld_unit_zero (S := S1x256) hz]
  obtain ⟨-, -, -, -, -, -, e6, e7⟩ := idx_facts t
  funext j
  obtain ⟨r, d, rfl⟩ : ∃ (r : Fin 2000) (d : Fin 256), j = ix2 r d := ⟨j 0, j 1, eq_ix2 (n0 := 2000) (n1 := 256) j⟩
  show k7_pay1 (iblk7 V c 0 t) (iblk7 V c 1 t) (iblk7 V c 2 t) (ix2 r d)
    = Cert.Spec.denseRelu (V c main_v88) (V c main_arg6) (V c main_v89) (((cfg7.win 3).blk t).view.emb (ix2 r d))
  rw [stored_at V c t r d]
  unfold Cert.Spec.denseRelu
  rw [Cert.Spec.ofCoords_apply]
  have h0 : (⟨((((cfg7.win 3).blk t).view.emb (ix2 r d)) 0).val, idx2_lt0 _⟩ : Fin 20000) = rowOf t r := by
    apply Fin.ext
    show win7_3.index t (0 : Fin 2) * 2000 + 1 * r.val = t.val * 2000 + r.val
    rw [e6]; omega
  have h1 : (⟨((((cfg7.win 3).blk t).view.emb (ix2 r d)) 1).val, idx2_lt1 _⟩ : Fin 256) = d := by
    apply Fin.ext
    show win7_3.index t (1 : Fin 2) * 256 + 1 * d.val = d.val
    rw [e7]; omega
  rw [h0, h1]

/-- An index of the array is in point t's block iff each coordinate is in the block's range on its axis. -/
theorem mem_blk (t : Fin cfg7.N) (i : S20000x256.Idx) :
    i ∈ ((cfg7.win 3).blk t).view.set ↔ ∀ a : Fin 2, win7_3.index t a * S2000x256.size a ≤ (i a).val ∧ (i a).val < win7_3.index t a * S2000x256.size a + S2000x256.size a := by
  show i ∈ ((View.whole main_v90).slice (win7_3.rect t)).set ↔ _
  rw [View.set_slice_whole, Rect.mem_set_unit]
  exact Iff.rfl

/-- Every index of the array is in the block of the point its row falls to: row n belongs to point n / 2000. -/
theorem cover (i : S20000x256.Idx) :
    ∃ t : Fin cfg7.N, (cfg7.win 3).flush t = true ∧ i ∈ ((cfg7.win 3).blk t).view.set := by
  have hi0 : (i 0).val < 20000 := (i 0).isLt
  have hi1 : (i 1).val < 256 := (i 1).isLt
  have hN : grid7.N = 10 := N_7
  have hlt : (i 0).val / 2000 < grid7.N := by rw [hN]; omega
  obtain ⟨-, -, -, -, -, -, e6, e7⟩ := idx_facts ⟨(i 0).val / 2000, hlt⟩
  have e6' : win7_3.index ⟨(i 0).val / 2000, hlt⟩ (0 : Fin 2) = (i 0).val / 2000 := e6
  refine ⟨⟨(i 0).val / 2000, hlt⟩, flush7_3 _, ?_⟩
  rw [mem_blk]
  intro a
  match a with
  | ⟨0, _⟩ => show win7_3.index ⟨(i 0).val / 2000, hlt⟩ (0 : Fin 2) * 2000 ≤ (i 0).val ∧ (i 0).val < win7_3.index ⟨(i 0).val / 2000, hlt⟩ (0 : Fin 2) * 2000 + 2000; rw [e6']; omega
  | ⟨1, _⟩ => show win7_3.index ⟨(i 0).val / 2000, hlt⟩ (1 : Fin 2) * 256 ≤ (i 1).val ∧ (i 1).val < win7_3.index ⟨(i 0).val / 2000, hlt⟩ (1 : Fin 2) * 256 + 256; rw [e7]; omega

/-- After the ten grid points the output array is that function of the arrays the launch found. -/
theorem final (c : Dev nD) :
    (dat7 (F := Ideal) V c).arrAt 3 cfg7.N = Cert.Spec.denseRelu (V c main_v88) (V c main_arg6) (V c main_v89) :=
  (dat7 V c).arrAt_eq_of_cover 3 _ (fun t _ => flushed_eq V c t) (cover)

end Cert.KernelIdeal.DenseRelu7

end
-- ==== Proof.Bridge.lean ====
/-
  The kernel program's result is the reference's, stage by stage, over the extended reals.

  At each boundary of the program the buffer the next step reads holds the reference's stage of the same arguments:
  the embedding (tokens inside the vocabulary: a one-hot row picks its own row of the table, which is what the
  reference's gather reads), then three times — the layer's features times its weights (a block product summed over
  the same index as the reference's dot_general, the zero bias adding nothing), the aggregation along the edges (the
  same host operations on both sides), the combination with the self-loop term and the bias (the same sum, and the
  same maximum against zero) — then the head's hidden layer, and the projection and per-graph sum (shared).
-/
import proofs.«401411_j7164005449946_1_alg».proof.Proof.StageHost
import proofs.«401411_j7164005449946_1_alg».proof.Proof.RefLaws
import proofs.«401411_j7164005449946_1_alg».proof.Proof.RowFacts
import proofs.«401411_j7164005449946_1_alg».proof.Proof.Embed0
import proofs.«401411_j7164005449946_1_alg».proof.Proof.Dense1
import proofs.«401411_j7164005449946_1_alg».proof.Proof.Mix2
import proofs.«401411_j7164005449946_1_alg».proof.Proof.Dense3
import proofs.«401411_j7164005449946_1_alg».proof.Proof.Mix4
import proofs.«401411_j7164005449946_1_alg».proof.Proof.Dense5
import proofs.«401411_j7164005449946_1_alg».proof.Proof.Mix6
import proofs.«401411_j7164005449946_1_alg».proof.Proof.DenseRelu7

set_option maxRecDepth 16384
set_option Elab.async false

noncomputable section

open Idealize.ShloMosaic Idealize.ShloMosaic.TcCoe Idealize.SL.Sem Idealize.ShloMosaic.ValueIdx

namespace Cert.KernelIdeal.Bridge

open Cert.KernelIdeal Cert.KernelIdeal.Gen Cert.ReferenceIdeal.Read

variable (m : (ℓ : Loc nD τ sig) → Buf (Elt Ideal) ℓ) (ρ : Dev nD → PrngReg) (c : Dev nD)

/-- The embedded tokens: the kernel's sum of one-hot rows is the reference's gather, every token being in the vocabulary. -/
theorem embedded
    (hx : ∀ n : Fin 20000, 0 ≤ ((m ((c : Thread nD τ).loc main_arg0) : IVec S20000 32) (ix1 n)).toInt
      ∧ ((m ((c : Thread nD τ).loc main_arg0) : IVec S20000 32) (ix1 n)).toInt < 100) :
    W2 m ρ c (Proc.devRef .tc main_v30) = (val_main_v35 (F := Ideal) (m ((c : Thread nD τ).loc main_arg0)) (m ((c : Thread nD τ).loc main_arg3))) := by
  refine (W2_arr m ρ c 2).trans ((Embed0.final (V1 m ρ) c).trans ?_)
  show Cert.Spec.embedSum (W1 m ρ c (Proc.devRef .tc main_v29)) (W1 m ρ c (Proc.devRef .tc main_arg3)) = _
  rw [Stage.xcol_at1 m ρ c, Stage.arg3_at1 m ρ c]
  exact Cert.RefLaws.embed_eq _ _ _ (fun n => Cert.RowFacts.kxcol _ n) hx

variable (h0 : W2 m ρ c (Proc.devRef .tc main_v30) = (val_main_v35 (F := Ideal) (m ((c : Thread nD τ).loc main_arg0)) (m ((c : Thread nD τ).loc main_arg3))))
include h0

/-- Layer 0: features times weights. -/
theorem hw0 : W4 m ρ c (Proc.devRef .tc main_v34) = (val_main_v38 (F := Ideal) (m ((c : Thread nD τ).loc main_arg0)) (m ((c : Thread nD τ).loc main_arg3)) (m ((c : Thread nD τ).loc main_arg4))) := by
  refine (W4_arr m ρ c 3).trans ((Dense1.final (V3 m ρ) c).trans ?_)
  show Cert.Spec.dense (W3 m ρ c (Proc.devRef .tc main_v30)) (W3 m ρ c (Proc.devRef .tc main_v33)) (W3 m ρ c (Proc.devRef .tc main_v31)) = _
  rw [Stage.h0_at3 m ρ c, h0, Stage.weights_at3 m ρ c, Stage.zrow_at3 m ρ c]
  exact (Cert.RefLaws.dense_eq _ _ _ (fun d => Cert.RowFacts.kzrow d)).trans rfl

/-- Layer 0: the aggregated messages. -/
theorem agg0 : W5 m ρ c (Proc.devRef .tc main_v46) = (val_main_v50 (F := Ideal) (m ((c : Thread nD τ).loc main_arg0)) (m ((c : Thread nD τ).loc main_arg1)) (m ((c : Thread nD τ).loc main_arg3)) (m ((c : Thread nD τ).loc main_arg4))) :=
  Stage.agg0_at5 m ρ c (hw0 m ρ c h0)

/-- Layer 0: the combination, with its maximum against zero. -/
theorem h1 : W6 m ρ c (Proc.devRef .tc main_v50) = (val_main_v59 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W6_arr m ρ c 4).trans ((Mix2.final (V5 m ρ) c).trans ?_)
  show Cert.Spec.mixRelu (W5 m ρ c (Proc.devRef .tc main_v46)) (W5 m ρ c (Proc.devRef .tc main_v34)) (W5 m ρ c (Proc.devRef .tc main_v28)) (W5 m ρ c (Proc.devRef .tc main_v49)) = _
  rw [agg0 m ρ c h0, Stage.hw0_at5 m ρ c, hw0 m ρ c h0, Stage.snorm_at5 m ρ c, Stage.bias0_at5 m ρ c]
  exact (Cert.RefLaws.mixRelu_eq _ _ _ _ (val_main_v57 (F := Ideal) (m ((c : Thread nD τ).loc main_arg5)))
    (fun n d => (Cert.RowFacts.rbias0 (F := Ideal) (m ((c : Thread nD τ).loc main_arg5)) n d).trans (Cert.RowFacts.kbias0 (F := Ideal) (m ((c : Thread nD τ).loc main_arg5)) d).symm) (val_main_call0_v0 (F := Ideal)) Cert.RowFacts.rzero0).trans rfl

/-- Layer 1: features times weights. -/
theorem hw1 : W8 m ρ c (Proc.devRef .tc main_v53) = (val_main_v62 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W8_arr m ρ c 3).trans ((Dense3.final (V7 m ρ) c).trans ?_)
  show Cert.Spec.dense (W7 m ρ c (Proc.devRef .tc main_v50)) (W7 m ρ c (Proc.devRef .tc main_v52)) (W7 m ρ c (Proc.devRef .tc main_v31)) = _
  rw [Stage.h1_at7 m ρ c, h1 m ρ c h0, Stage.weights_at7 m ρ c, Stage.zrow_at7 m ρ c]
  exact (Cert.RefLaws.dense_eq _ _ _ (fun d => Cert.RowFacts.kzrow d)).trans rfl

/-- Layer 1: the aggregated messages. -/
theorem agg1 : W9 m ρ c (Proc.devRef .tc main_v65) = (val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5))) :=
  Stage.agg1_at9 m ρ c (hw1 m ρ c h0)

/-- Layer 1: the combination, with its maximum against zero. -/
theorem h2 : W10 m ρ c (Proc.devRef .tc main_v69) = (val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W10_arr m ρ c 4).trans ((Mix4.final (V9 m ρ) c).trans ?_)
  show Cert.Spec.mixRelu (W9 m ρ c (Proc.devRef .tc main_v65)) (W9 m ρ c (Proc.devRef .tc main_v53)) (W9 m ρ c (Proc.devRef .tc main_v28)) (W9 m ρ c (Proc.devRef .tc main_v68)) = _
  rw [agg1 m ρ c h0, Stage.hw1_at9 m ρ c, hw1 m ρ c h0, Stage.snorm_at9 m ρ c, Stage.bias1_at9 m ρ c]
  exact (Cert.RefLaws.mixRelu_eq _ _ _ _ (val_main_v81 (F := Ideal) (m ((c : Thread nD τ).loc main_arg5)))
    (fun n d => (Cert.RowFacts.rbias1 (F := Ideal) (m ((c : Thread nD τ).loc main_arg5)) n d).trans (Cert.RowFacts.kbias1 (F := Ideal) (m ((c : Thread nD τ).loc main_arg5)) d).symm) (val_main_call1_v0 (F := Ideal)) Cert.RowFacts.rzero1).trans rfl

/-- Layer 2: features times weights. -/
theorem hw2 : W12 m ρ c (Proc.devRef .tc main_v72) = (val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W12_arr m ρ c 3).trans ((Dense5.final (V11 m ρ) c).trans ?_)
  show Cert.Spec.dense (W11 m ρ c (Proc.devRef .tc main_v69)) (W11 m ρ c (Proc.devRef .tc main_v71)) (W11 m ρ c (Proc.devRef .tc main_v31)) = _
  rw [Stage.h2_at11 m ρ c, h2 m ρ c h0, Stage.weights_at11 m ρ c, Stage.zrow_at11 m ρ c]
  exact (Cert.RefLaws.dense_eq _ _ _ (fun d => Cert.RowFacts.kzrow d)).trans rfl

/-- Layer 2: the aggregated messages. -/
theorem agg2 : W13 m ρ c (Proc.devRef .tc main_v84) = (val_main_v98 (F := Ideal) (m ((c : Thread nD τ).loc main_arg0)) (m ((c : Thread nD τ).loc main_arg1)) (m ((c : Thread nD τ).loc main_arg3)) (m ((c : Thread nD τ).loc main_arg4)) (m ((c : Thread nD τ).loc main_arg5))) :=
  Stage.agg2_at13 m ρ c (hw2 m ρ c h0)

/-- Layer 2: the combination (no maximum after the last layer). -/
theorem h3 : W14 m ρ c (Proc.devRef .tc main_v88) = (val_main_v106 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W14_arr m ρ c 4).trans ((Mix6.final (V13 m ρ) c).trans ?_)
  show Cert.Spec.mix (W13 m ρ c (Proc.devRef .tc main_v84)) (W13 m ρ c (Proc.devRef .tc main_v72)) (W13 m ρ c (Proc.devRef .tc main_v28)) (W13 m ρ c (Proc.devRef .tc main_v87)) = _
  rw [agg2 m ρ c h0, Stage.hw2_at13 m ρ c, hw2 m ρ c h0, Stage.snorm_at13 m ρ c, Stage.bias2_at13 m ρ c]
  exact (Cert.RefLaws.mix_eq _ _ _ _ (val_main_v105 (F := Ideal) (m ((c : Thread nD τ).loc main_arg5)))
    (fun n d => (Cert.RowFacts.rbias2 (F := Ideal) (m ((c : Thread nD τ).loc main_arg5)) n d).trans (Cert.RowFacts.kbias2 (F := Ideal) (m ((c : Thread nD τ).loc main_arg5)) d).symm)).trans rfl

/-- The head's hidden layer, with its maximum against zero. -/
theorem h4 : W16 m ρ c (Proc.devRef .tc main_v90) = (val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W16_arr m ρ c 3).trans ((DenseRelu7.final (V15 m ρ) c).trans ?_)
  show Cert.Spec.denseRelu (W15 m ρ c (Proc.devRef .tc main_v88)) (W15 m ρ c (Proc.devRef .tc main_arg6)) (W15 m ρ c (Proc.devRef .tc main_v89)) = _
  rw [Stage.h3_at15 m ρ c, h3 m ρ c h0, Stage.arg6_at15 m ρ c, Stage.hbias_at15 m ρ c]
  exact (Cert.RefLaws.denseRelu_eq _ _ _ (val_main_v109 (F := Ideal) (m ((c : Thread nD τ).loc main_arg7)))
    (fun n d => (Cert.RowFacts.rhbias (F := Ideal) (m ((c : Thread nD τ).loc main_arg7)) n d).trans (Cert.RowFacts.khbias (F := Ideal) (m ((c : Thread nD τ).loc main_arg7)) d).symm) (val_main_call2_v0 (F := Ideal)) Cert.RowFacts.rzero2).trans rfl

omit h0

/-- THE RESULT: the kernel program's result buffer at the last boundary is the reference's result of the same arguments,
    every token being in the vocabulary. -/
theorem result
    (hx : ∀ n : Fin 20000, 0 ≤ ((m ((c : Thread nD τ).loc main_arg0) : IVec S20000 32) (ix1 n)).toInt
      ∧ ((m ((c : Thread nD τ).loc main_arg0) : IVec S20000 32) (ix1 n)).toInt < 100) :
    W17 m ρ c (Proc.devRef .tc main_v98) = (val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) :=
  Stage.out_at17 m ρ c (h4 m ρ c (embedded m ρ c hx))

end Cert.KernelIdeal.Bridge

end
-- ==== Proof.lean ====
/-
  A three-layer graph convolution network with a two-layer head, summed per graph: the tiled kernel program against its
  plain reference, over the extended reals.

  The kernel program embeds the tokens by a one-hot block product, multiplies each layer's features by its weights block
  by block, and combines each layer's aggregated messages with the self-loop term and the bias block by block; the
  degree normalisations, the gathers along the edges, the scatter-adds to the targets and the final projection and
  per-graph sum are the same host operations in both programs. With every token inside the vocabulary [0, 100) (the
  precondition's added conjuncts) the one-hot product reads exactly the table row the reference's gather reads, a block
  product into a zero accumulator is the reference's dot_general summed over the same index, adding the zero bias row
  changes nothing, and the combinations are the same sums; so the two results are equal entry by entry.

  The three frames are the generated frame certificates and the reference's generated run; no operation was rewritten
  by the idealisation, so there is nothing to preserve.
-/
import proofs.«401411_j7164005449946_1_alg».proof.Defs
import proofs.«401411_j7164005449946_1_alg».proof.Proof.Gen.Kernel
import proofs.«401411_j7164005449946_1_alg».proof.Proof.Gen.Kernel.Skeleton
import proofs.«401411_j7164005449946_1_alg».proof.Proof.Gen.Kernel.Launch
import proofs.«401411_j7164005449946_1_alg».proof.Proof.Gen.Kernel.Points
import proofs.«401411_j7164005449946_1_alg».proof.Proof.Gen.Kernel.Frame
import proofs.«401411_j7164005449946_1_alg».proof.Proof.Gen.KernelIdeal
import proofs.«401411_j7164005449946_1_alg».proof.Proof.Gen.KernelIdeal.Skeleton
import proofs.«401411_j7164005449946_1_alg».proof.Proof.Gen.KernelIdeal.Launch
import proofs.«401411_j7164005449946_1_alg».proof.Proof.Gen.KernelIdeal.Points
import proofs.«401411_j7164005449946_1_alg».proof.Proof.Gen.KernelIdeal.Frame
import proofs.«401411_j7164005449946_1_alg».proof.Proof.Gen.ReferenceIdeal
import proofs.«401411_j7164005449946_1_alg».proof.Proof.Gen.ReferenceIdeal.Run
import proofs.«401411_j7164005449946_1_alg».proof.Proof.Gen.ReferenceIdeal.Read
import proofs.«401411_j7164005449946_1_alg».proof.Proof.Gen.Pre_finite_inputs
import proofs.«401411_j7164005449946_1_alg».proof.Proof.KernelRun
import proofs.«401411_j7164005449946_1_alg».proof.Proof.PreRange
import proofs.«401411_j7164005449946_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the same result: the kernel program's is what its last boundary holds in the result buffer,
    and that is the reference's result of the same arguments. -/
theorem algebraic : Cert.algebraic_KernelIdeal_ReferenceIdeal := by
  intro m ρ m' ρ' hpre hagree
  refine ⟨fun c => Cert.KernelIdeal.Gen.W17 m ρ c (Proc.devRef .tc Cert.KernelIdeal.main_v98),
    Cert.KernelIdeal.Gen.run_kept (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v119_eq]
  obtain ⟨e0, e1, e2, e3, e4, e5, e6, e7, e8, e9⟩ := hagree c
  rw [e0, e1, e2, e3, e4, e5, e6, e7, e8, e9]
  exact (Cert.KernelIdeal.Bridge.result m ρ c (fun n => Cert.PreRange.tokens_in_range m hpre c n)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
